-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S6144x768 : Shape := ⟨2, ![6144, 768]⟩
abbrev S_ : Shape := ⟨0, ![]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel

variable [Facts]

def fn {F : FTy → Type} [FloatOps F] (main_arg0 : FVec F S6144x768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  main_v3
-- ==== Kernel.lean ====
abbrev S1536x768 : Shape := ⟨2, ![1536, 768]⟩
abbrev S1x768 : Shape := ⟨2, ![1, 768]⟩
abbrev S4x1x768 : Shape := ⟨3, ![4, 1, 768]⟩
abbrev S3 : Shape := ⟨1, ![3]⟩
abbrev S_ : Shape := ⟨0, ![]⟩
abbrev S768 : Shape := ⟨1, ![768]⟩
abbrev S1x1x768 : Shape := ⟨3, ![1, 1, 768]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S4x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_32 : BitVec 32 := 1#32
  let v50 : BitVec 32 := Scalar.addi v2 c1_i32_32
  let c4_i32_33 : BitVec 32 := 4#32
  let c0_i32_34 : BitVec 32 := 0#32
  let v51 : BitVec 1 := Scalar.cmpi .eq c4_i32_33 c0_i32_34
  let c1_i32_35 : BitVec 32 := 1#32
  let v52 : BitVec 32 := Scalar.select v51 c1_i32_35 c4_i32_33
  let v53 : BitVec 32 := Scalar.remsi v50 v52
  let c0_i32_37 : BitVec 32 := 0#32
  let v55 : BitVec 1 := Scalar.cmpi .slt v53 c0_i32_37
  let c0_i32_38 : BitVec 32 := 0#32
  let v56 : BitVec 1 := Scalar.cmpi .slt v52 c0_i32_38
  let v57 : BitVec 1 := Scalar.xori v55 v56
  let c0_i32_36 : BitVec 32 := 0#32
  let v54 : BitVec 1 := Scalar.cmpi .ne v53 c0_i32_36
  let v58 : BitVec 1 := Scalar.andi v57 v54
  let v59 : BitVec 32 := Scalar.addi v53 v52
  let v60 : BitVec 32 := Scalar.select v58 v59 v53
  let c1_i32_43 : BitVec 32 := 1#32
  let v61 : BitVec 32 := Scalar.muli v60 c1_i32_43
  let v62 : BitVec 32 := Scalar.addi c0_i32_44 v61
  v62.toNat
def k0_dev5 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_49 : BitVec 32 := 2#32
  let v71 : BitVec 32 := Scalar.addi v2 c2_i32_49
  let c4_i32_50 : BitVec 32 := 4#32
  let c0_i32_51 : BitVec 32 := 0#32
  let v72 : BitVec 1 := Scalar.cmpi .eq c4_i32_50 c0_i32_51
  let c1_i32_52 : BitVec 32 := 1#32
  let v73 : BitVec 32 := Scalar.select v72 c1_i32_52 c4_i32_50
  let v74 : BitVec 32 := Scalar.remsi v71 v73
  let c0_i32_54 : BitVec 32 := 0#32
  let v76 : BitVec 1 := Scalar.cmpi .slt v74 c0_i32_54
  let c0_i32_55 : BitVec 32 := 0#32
  let v77 : BitVec 1 := Scalar.cmpi .slt v73 c0_i32_55
  let v78 : BitVec 1 := Scalar.xori v76 v77
  let c0_i32_53 : BitVec 32 := 0#32
  let v75 : BitVec 1 := Scalar.cmpi .ne v74 c0_i32_53
  let v79 : BitVec 1 := Scalar.andi v78 v75
  let v80 : BitVec 32 := Scalar.addi v74 v73
  let v81 : BitVec 32 := Scalar.select v79 v80 v74
  let c1_i32_60 : BitVec 32 := 1#32
  let v82 : BitVec 32 := Scalar.muli v81 c1_i32_60
  let v83 : BitVec 32 := Scalar.addi c0_i32_61 v82
  v83.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_66 : BitVec 32 := 3#32
  let v92 : BitVec 32 := Scalar.addi v2 c3_i32_66
  let c4_i32_67 : BitVec 32 := 4#32
  let c0_i32_68 : BitVec 32 := 0#32
  let v93 : BitVec 1 := Scalar.cmpi .eq c4_i32_67 c0_i32_68
  let c1_i32_69 : BitVec 32 := 1#32
  let v94 : BitVec 32 := Scalar.select v93 c1_i32_69 c4_i32_67
  let v95 : BitVec 32 := Scalar.remsi v92 v94
  let c0_i32_71 : BitVec 32 := 0#32
  let v97 : BitVec 1 := Scalar.cmpi .slt v95 c0_i32_71
  let c0_i32_72 : BitVec 32 := 0#32
  let v98 : BitVec 1 := Scalar.cmpi .slt v94 c0_i32_72
  let v99 : BitVec 1 := Scalar.xori v97 v98
  let c0_i32_70 : BitVec 32 := 0#32
  let v96 : BitVec 1 := Scalar.cmpi .ne v95 c0_i32_70
  let v100 : BitVec 1 := Scalar.andi v99 v96
  let v101 : BitVec 32 := Scalar.addi v95 v94
  let v102 : BitVec 32 := Scalar.select v100 v101 v95
  let c1_i32_77 : BitVec 32 := 1#32
  let v103 : BitVec 32 := Scalar.muli v102 c1_i32_77
  let v104 : BitVec 32 := Scalar.addi c0_i32_78 v103
  v104.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S4x1x768_S1x1x768_0_0_0 : ∀ a, (![0, 0, 0] : Fin 3 → Nat) a + S1x1x768.size a ≤ S4x1x768.size a
  h_S1x1x768 : 0 < S1x1x768.numel
  shapeCasts_S1x1x768_S1x768 : S1x1x768.ShapeCasts S1x768
  shapeCasts_S1x768_S1x1x768 : S1x768.ShapeCasts S1x1x768
  hamt_3 : (3#32 : BitVec 32).msb = false
  inb_S3_S1_0 : ∀ a, (![0] : Fin 1 → Nat) a + S1.size a ≤ S3.size a
  squeezes_S1_S_ : S1.Squeezes S_
  inb_S4x1x768_S1x1x768_1_0_0 : ∀ a, (![1, 0, 0] : Fin 3 → Nat) a + S1x1x768.size a ≤ S4x1x768.size a
  squeezes_S1x1x768_S1x768 : S1x1x768.Squeezes S1x768
  inb_S3_S1_1 : ∀ a, (![1] : Fin 1 → Nat) a + S1.size a ≤ S3.size a
  inb_S4x1x768_S1x1x768_2_0_0 : ∀ a, (![2, 0, 0] : Fin 3 → Nat) a + S1x1x768.size a ≤ S4x1x768.size a
  inb_S3_S1_2 : ∀ a, (![2] : Fin 1 → Nat) a + S1.size a ≤ S3.size a
  inb_S4x1x768_S1x1x768_3_0_0 : ∀ a, (![3, 0, 0] : Fin 3 → Nat) a + S1x1x768.size a ≤ S4x1x768.size a
  inb_S1x768_S1x768_0_0 : ∀ a, (![0, 0] : Fin 2 → Nat) a + S1x768.size a ≤ S1x768.size a
  h_S1x768 : 0 < S1x768.numel
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S6144x768_S768_d0 : S6144x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Mesh.lean ====
/-
  The mesh of four devices as a cycle: `pr k c` is the device `k` places after `c`. The kernel addresses its
  three peers as `(c + k) % 4`, `k = 1, 2, 3`, once for the entry signals and once for the copies; each printed
  device chain is that rotation, decided over the four devices.
-/
import proofs.«901079_g7700000000001080_dist_sum_ax0_shard0_i_m1536_n768_v7x_i4_bf16_1_alg».proof.Proof.Gen.KernelIdeal

namespace Cert.KernelIdeal.AllReduce

open Idealize.ShloMosaic Cert.KernelIdeal Cert.KernelIdeal.Gen

/-- The device `k` places after `c` on the cycle of four. -/
def pr (k : ℕ) (c : Dev nD) : Dev nD := ⟨(c.val + k) % 4, Nat.mod_lt _ (by decide)⟩

theorem pr_pr_1_3 (c : Dev nD) : pr 1 (pr 3 c) = c := by revert c; decide
theorem pr_pr_3_1 (c : Dev nD) : pr 3 (pr 1 c) = c := by revert c; decide
theorem pr_pr_2_2 (c : Dev nD) : pr 2 (pr 2 c) = c := by revert c; decide

theorem k0_dev1_eq (c : Dev nD) : k0_dev1 c = (pr 1 c).val := by revert c; decide +kernel
theorem k0_dev2_eq (c : Dev nD) : k0_dev2 c = (pr 2 c).val := by revert c; decide +kernel
theorem k0_dev3_eq (c : Dev nD) : k0_dev3 c = (pr 3 c).val := by revert c; decide +kernel
theorem k0_dev4_eq (c : Dev nD) : k0_dev4 c = (pr 1 c).val := by revert c; decide +kernel
theorem k0_dev5_eq (c : Dev nD) : k0_dev5 c = (pr 2 c).val := by revert c; decide +kernel
theorem k0_dev6_eq (c : Dev nD) : k0_dev6 c = (pr 3 c).val := by revert c; decide +kernel

/-- The three entry signals name the devices one, two and three places on; so do the three copies. -/
theorem dev1_eq (c : Dev nD) : (⟨k0_dev1 c, k0_dev1_lt c⟩ : Dev nD) = pr 1 c := Fin.ext (k0_dev1_eq c)
theorem dev2_eq (c : Dev nD) : (⟨k0_dev2 c, k0_dev2_lt c⟩ : Dev nD) = pr 2 c := Fin.ext (k0_dev2_eq c)
theorem dev3_eq (c : Dev nD) : (⟨k0_dev3 c, k0_dev3_lt c⟩ : Dev nD) = pr 3 c := Fin.ext (k0_dev3_eq c)
theorem dev4_eq (c : Dev nD) : (⟨k0_dev4 c, k0_dev4_lt c⟩ : Dev nD) = pr 1 c := Fin.ext (k0_dev4_eq c)
theorem dev5_eq (c : Dev nD) : (⟨k0_dev5 c, k0_dev5_lt c⟩ : Dev nD) = pr 2 c := Fin.ext (k0_dev5_eq c)
theorem dev6_eq (c : Dev nD) : (⟨k0_dev6 c, k0_dev6_lt c⟩ : Dev nD) = pr 3 c := Fin.ext (k0_dev6_eq c)

end Cert.KernelIdeal.AllReduce
-- ==== Proof.Slots.lean ====
/-
  The all-reduce over four devices: every device sums its block of rows into slot 0 of a four-slot scratch, hands
  slot 0 to slot `k` of the device `k` places on (`k = 1, 2, 3`), and adds the four slots. This module names the
  memory the protocol moves (the four slots as regions of the scratch buffer, the six transfer semaphores and the
  barrier semaphore as cells) and the contents every slot ends at: slot `k` of device `c` holds the column sums of
  the block of the device `k` places before `c`.
-/
import proofs.«901079_g7700000000001080_dist_sum_ax0_shard0_i_m1536_n768_v7x_i4_bf16_1_alg».proof.Proof.Mesh
import proofs.«901079_g7700000000001080_dist_sum_ax0_shard0_i_m1536_n768_v7x_i4_bf16_1_alg».proof.Proof.Gen.KernelIdeal.Skeleton
import proofs.«901079_g7700000000001080_dist_sum_ax0_shard0_i_m1536_n768_v7x_i4_bf16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs: the two staged windows, the scratch and its four slots -/

abbrev xM : Memref sig .tc .vmem S1536x768 .f32 := Memref.whole cc0_stg0_0
abbrev oM : Memref sig .tc .vmem S1x768 .f32 := Memref.whole cc0_stg1_0
abbrev scM : Memref sig .tc .vmem S4x1x768 .f32 := Memref.whole cc0_scratch0

/-- Slot `k` of the scratch as a rectangle: row `k` of the first axis, everything of the other two. -/
theorem rc_inb (k : Fin 4) : ∀ a, (![k.val, 0, 0] : Fin 3 → Nat) a + S1x1x768.size a ≤ S4x1x768.size a := by
  revert k; decide
abbrev rc (k : Fin 4) : Rect S4x1x768 := Rect.unit (s := S4x1x768) ![k.val, 0, 0] S1x1x768.size (rc_inb k)

/-- Slot `k` as the kernel's copies name it: the slice, with the unit axis squeezed away. -/
abbrev slotM (k : Fin 4) : Memref sig .tc .vmem S1x768 .f32 :=
  ((scM : Memref sig .tc .vmem S4x1x768 .f32).slice (rc k) (fun _ => rfl)).squeeze S1x768 squeezes_S1x1x768_S1x768

/-- Slot `k` as the kernel's loads and its one store go through it. -/
abbrev sv (k : Fin 4) : View sig .tc .vmem (rc k).shape .f32 := (scM : Memref sig .tc .vmem S4x1x768 .f32).access (rc k)

/-- The elements of the scratch buffer under slot `k`. -/
abbrev slotSet (k : Fin 4) : Finset (cc0_scratch0 : Ref sig .tc).ty.Idx := (slotM k).view.set

omit [FloatOps F] in
theorem slotSet_eq_rect (k : Fin 4) : slotSet k = (rc k).set := by
  exact (View.set_reshape ((View.whole cc0_scratch0).slice (rc k)) _).trans (View.set_slice_whole _ _)

omit [FloatOps F] in
theorem slotSet_eq_sv (k : Fin 4) : slotSet k = (sv k).set := by
  rw [slotSet_eq_rect]; exact (View.set_slice_whole _ _).symm

omit [FloatOps F] in
/-- Two different slots share no element: they lie in different rows of the first axis. -/
theorem slot_disjoint {j k : Fin 4} (h : j ≠ k) : Disjoint (slotSet j) (slotSet k) := by
  rw [slotSet_eq_rect j, slotSet_eq_rect k]
  refine Rect.unit_disjoint (0 : Fin 3) ?_
  have : j.val ≠ k.val := fun e => h (Fin.ext e)
  show j.val + 1 ≤ k.val ∨ k.val + 1 ≤ j.val
  omega

/-! ## The semaphores and cells -/

/-- The barrier semaphore of the collective, the three send and the three receive transfer semaphores. -/
abbrev barS : Sem sig := (SemArray.scalar (sig.barrier 0 rfl) : Sems sig S_).sem
abbrev sendS : Fin 3 → DmaSem sig
  | 0 => (((cc0_scratch1 : DmaSems sig S3).slice (Rect.unit (s := S3) ![0] S1.size inb_S3_S1_0)).squeeze S_ squeezes_S1_S_).sem
  | 1 => (((cc0_scratch1 : DmaSems sig S3).slice (Rect.unit (s := S3) ![1] S1.size inb_S3_S1_1)).squeeze S_ squeezes_S1_S_).sem
  | 2 => (((cc0_scratch1 : DmaSems sig S3).slice (Rect.unit (s := S3) ![2] S1.size inb_S3_S1_2)).squeeze S_ squeezes_S1_S_).sem
abbrev recvS : Fin 3 → DmaSem sig
  | 0 => (((cc0_scratch2 : DmaSems sig S3).slice (Rect.unit (s := S3) ![0] S1.size inb_S3_S1_0)).squeeze S_ squeezes_S1_S_).sem
  | 1 => (((cc0_scratch2 : DmaSems sig S3).slice (Rect.unit (s := S3) ![1] S1.size inb_S3_S1_1)).squeeze S_ squeezes_S1_S_).sem
  | 2 => (((cc0_scratch2 : DmaSems sig S3).slice (Rect.unit (s := S3) ![2] S1.size inb_S3_S1_2)).squeeze S_ squeezes_S1_S_).sem

omit [FloatOps F] in
theorem sendS_val (k : Fin 3) : (sendS k).val = 2 + k.val := by fin_cases k <;> rfl
omit [FloatOps F] in
theorem recvS_val (k : Fin 3) : (recvS k).val = 5 + k.val := by fin_cases k <;> rfl

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The slot a transfer on semaphore pair `k` lands in: `k + 1`. -/
abbrev slotOf (k : Fin 3) : Fin 4 := k.succ

/-- The credit of one slot's transfer. -/
abbrev N : ℕ := (slotM 0 : Memref sig .tc .vmem S1x768 .f32).view.dmaCredit
omit [FloatOps F] in
theorem N_pos : 0 < N := View.dmaCredit_pos _ (by decide)

/-! ## Contents -/

/-- Device `c`'s block of rows, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block: what its one store puts in slot 0. -/
def part (c : Dev nD) : (rc 0).shape.Idx → Elt F .f32 := k0_pay2 (xstg m ρ c)

/-- The device whose column sums slot `k` of device `c` ends holding: `k` places before `c`. -/
def src (k : Fin 4) (c : Dev nD) : Dev nD := pr (4 - k.val) c

omit [FloatOps F] in
theorem src_zero (c : Dev nD) : src 0 c = c := by revert c; decide
omit [FloatOps F] in
theorem src_pr (k : Fin 3) (c : Dev nD) : src (slotOf k) (pr (k.val + 1) c) = c := by revert c; revert k; decide

/-- The scratch buffer of device `c` with every slot at its final contents (written slot by slot over what the
    buffer held at launch, all of which the four slots cover). -/
def scrFinal (c : Dev nD) : (cc0_scratch0 : Ref sig .tc).ty.Contents (Elt F) :=
  (sv 3).write (Elt F) ((sv 2).write (Elt F) ((sv 1).write (Elt F) ((sv 0).write (Elt F)
    (m ((c : Thread nD τ).loc cc0_scratch0)) (part m ρ (src 0 c)) Finset.univ) (part m ρ (src 1 c)) Finset.univ)
    (part m ρ (src 2 c)) Finset.univ) (part m ρ (src 3 c)) Finset.univ

omit [FloatOps F] in
theorem sv_disjoint {j k : Fin 4} (h : j ≠ k) : Disjoint (sv j).set ((sv k).setOn Finset.univ) := by
  rw [View.setOn_univ, ← slotSet_eq_sv, ← slotSet_eq_sv]; exact slot_disjoint h

/-- Slot `k` of the final scratch holds the column sums of the device `k` places before. -/
theorem read_scrFinal (c : Dev nD) (k : Fin 4) : (sv k).read (Elt F) (scrFinal m ρ c) = part m ρ (src k c) := by
  unfold scrFinal
  fin_cases k
  · show (sv 0).read _ _ = _
    rw [View.read_slice_write_slice_of_disjoint _ _ _ _ _ (sv_disjoint (by decide)),
      View.read_slice_write_slice_of_disjoint _ _ _ _ _ (sv_disjoint (by decide)),
      View.read_slice_write_slice_of_disjoint _ _ _ _ _ (sv_disjoint (by decide)), View.read_write_univ]
    rfl
  · show (sv 1).read _ _ = _
    rw [View.read_slice_write_slice_of_disjoint _ _ _ _ _ (sv_disjoint (by decide)),
      View.read_slice_write_slice_of_disjoint _ _ _ _ _ (sv_disjoint (by decide)), View.read_write_univ]
    rfl
  · show (sv 2).read _ _ = _
    rw [View.read_slice_write_slice_of_disjoint _ _ _ _ _ (sv_disjoint (by decide)), View.read_write_univ]
    rfl
  · show (sv 3).read _ _ = _
    rw [View.read_write_univ]
    rfl

omit [FloatOps F] in
/-- Contents that a view reads the same agree on every element under the view. -/
theorem eq_on_set_of_read_eq {sp : Space} {s : Shape} {e : EltTy} (v : View sig .tc sp s e) (f g : v.ty.Contents (Elt F))
    (h : v.read (Elt F) f = v.read (Elt F) g) : ∀ i ∈ v.set, f i = g i := by
  intro i hi
  obtain ⟨y, rfl⟩ := View.exists_emb_of_mem_set v hi
  have := congrFun h y
  rw [View.read_apply, View.read_apply] at this
  exact (cast_bijective _).injective this

end Cert.KernelIdeal.AllReduce

end
-- ==== Proof.SlotsSep.lean ====
/-
  The protocol of the all-reduce as one round per cell. A device's barrier cell has three unit duties, one per peer:
  the peer `k` places on pays duty `k - 1` with its entry signal and hands over ITS slot `k` (the slot this device
  will write there) with the fact that its receive cell for that slot is open. A send cell's one duty gives back the
  share of slot 0 its copy was reading; a receive cell's one duty delivers the slot the copy filled, at the column
  sums of the sender's block. What a device owes at launch — three barrier units and three slots' credit — and
  the levels that order the waits (barrier below receive) follow.
-/
import proofs.«901079_g7700000000001080_dist_sum_ax0_shard0_i_m1536_n768_v7x_i4_bf16_1_alg».proof.Proof.Slots

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as assertions -/

/-- Share `q` of slot `k` of device `c`'s scratch, holding `f` there. -/
def slotPts (c : Dev nD) (k : Fin 4) (q : PosShare TreeShare) (f : Buf (Elt F) ((slotM k).view.loc (c : Thread nD τ))) : sProp 𝕄 :=
  (slotM k).view.loc (c : Thread nD τ) ↦[(slotM k).view.set]{q} f

/-- The three shares slot 0 is read at by the three copies in flight at once: a half and two quarters. -/
def shr : Fin 3 → PosShare TreeShare
  | 0 => fullShare.left
  | 1 => fullShare.right.left
  | 2 => fullShare.right.right

omit [FloatOps F] in
instance slotPts_storable (c : Dev nD) (k : Fin 4) (q) (f) : BI.Storable (upEmb : UEmb _ 𝕄) (slotPts (F := F) c k q f) := by
  unfold slotPts; infer_instance

omit [FloatOps F] in
/-- Slot 0 at the full share is its three reading shares. -/
theorem slot0_shares (c : Dev nD) (f) :
    (slotPts (F := F) c 0 fullShare f) ⊣⊢ iprop(slotPts c 0 (shr 0) f ∗ slotPts c 0 (shr 1) f ∗ slotPts c 0 (shr 2) f) := by
  unfold slotPts shr
  refine (pointsTo_share (PosShare.mem_left_op_right fullShare)).trans ?_
  exact ⟨sep_mono_right (pointsTo_share (PosShare.mem_left_op_right fullShare.right)).1,
    sep_mono_right (pointsTo_share (PosShare.mem_left_op_right fullShare.right)).2⟩

omit [FloatOps F] in
/-- An element of the scratch lies in the slot its first coordinate names. -/
theorem mem_slotSet {k : Fin 4} {i : (cc0_scratch0 : Ref sig .tc).ty.Idx} : i ∈ slotSet k ↔ (i (0 : Fin 3)).val = k.val := by
  rw [slotSet_eq_rect, Rect.mem_set_unit]
  constructor
  · intro h; have := h (0 : Fin 3); simp only [Matrix.cons_val_zero] at this
    have hs : S1x1x768.size (0 : Fin 3) = 1 := rfl
    omega
  · intro h a
    fin_cases a
    · simp only [Fin.zero_eta, Matrix.cons_val_zero]; have hs : S1x1x768.size (0 : Fin 3) = 1 := rfl; omega
    · have h1 : (i (1 : Fin 3)).val < 1 := (i (1 : Fin 3)).isLt
      show (0 : ℕ) ≤ (i (1 : Fin 3)).val ∧ (i (1 : Fin 3)).val < 0 + 1
      omega
    · have h2 : (i (2 : Fin 3)).val < 768 := (i (2 : Fin 3)).isLt
      show (0 : ℕ) ≤ (i (2 : Fin 3)).val ∧ (i (2 : Fin 3)).val < 0 + 768
      omega

omit [FloatOps F] in
/-- The four slots cover the scratch. -/
theorem slots_cover : (Finset.univ : Finset (cc0_scratch0 : Ref sig .tc).ty.Idx) = ((slotSet 0 ∪ slotSet 1) ∪ slotSet 2) ∪ slotSet 3 := by
  ext i
  simp only [Finset.mem_univ, Finset.mem_union, mem_slotSet, true_iff]
  have h0 : (i (0 : Fin 3)).val < 4 := (i (0 : Fin 3)).isLt
  show (((i (0 : Fin 3)).val = 0 ∨ (i (0 : Fin 3)).val = 1) ∨ (i (0 : Fin 3)).val = 2) ∨ (i (0 : Fin 3)).val = 3
  omega

omit [FloatOps F] in
/-- The whole scratch at `f` is its four slots at `f`. -/
theorem scr_slots (c : Dev nD) (f : Buf (Elt F) ((c : Thread nD τ).loc cc0_scratch0)) :
    ((((c : Thread nD τ).loc cc0_scratch0) ↦{fullShare} f : sProp 𝕄))
      ⊣⊢ iprop(slotPts c 0 fullShare f ∗ slotPts c 1 fullShare f ∗ slotPts c 2 fullShare f ∗ slotPts c 3 fullShare f) := by
  unfold slotPts
  show ((((c : Thread nD τ).loc cc0_scratch0) ↦[Finset.univ]{fullShare} f : sProp 𝕄)) ⊣⊢
    iprop((((c : Thread nD τ).loc cc0_scratch0) ↦[slotSet 0]{fullShare} f) ∗ (((c : Thread nD τ).loc cc0_scratch0) ↦[slotSet 1]{fullShare} f)
      ∗ (((c : Thread nD τ).loc cc0_scratch0) ↦[slotSet 2]{fullShare} f) ∗ (((c : Thread nD τ).loc cc0_scratch0) ↦[slotSet 3]{fullShare} f))
  rw [slots_cover]
  have d3 : Disjoint ((slotSet 0 ∪ slotSet 1) ∪ slotSet 2) (slotSet 3) :=
    Finset.disjoint_union_left.mpr ⟨Finset.disjoint_union_left.mpr ⟨slot_disjoint (by decide), slot_disjoint (by decide)⟩, slot_disjoint (by decide)⟩
  have d2 : Disjoint (slotSet 0 ∪ slotSet 1) (slotSet 2) :=
    Finset.disjoint_union_left.mpr ⟨slot_disjoint (by decide), slot_disjoint (by decide)⟩
  have d1 : Disjoint (slotSet 0) (slotSet 1) := slot_disjoint (by decide)
  refine (pointsTo_union d3).trans ?_
  refine (BIBase.BiEntails.trans (sep_congr_left ((pointsTo_union d2).trans (sep_congr_left (pointsTo_union d1)))) ?_)
  exact ⟨by iintro ⟨⟨⟨H0, H1⟩, H2⟩, H3⟩; isplitl [H0]; · iexact H0
            isplitl [H1]; · iexact H1
            isplitl [H2]; · iexact H2
            iexact H3,
         by iintro ⟨H0, H1, H2, H3⟩; isplitl [H0 H1 H2]
            · isplitl [H0 H1]
              · isplitl [H0]; · iexact H0
                iexact H1
              · iexact H2
            · iexact H3⟩

end Cert.KernelIdeal.AllReduce

end
-- ==== Proof.Sched.lean ====
/-
  The protocol of the all-reduce as one round per cell. A device's barrier cell has three unit duties, one per peer:
  duty `d` is paid by the device `d + 1` places on, with its entry signal, and hands over THAT device's slot
  `d + 1` (the slot this device will fill there) with the fact that its receive cell for that slot is open. A send
  cell's one duty gives back the share of slot 0 its copy was reading; a receive cell's one duty delivers the slot the
  copy filled, at the column sums of the sender's block. What a device owes at launch — three barrier units and
  three slots' credit — and the levels that order the waits (barrier below receive) follow.
-/
import proofs.«901079_g7700000000001080_dist_sum_ax0_shard0_i_m1536_n768_v7x_i4_bf16_1_alg».proof.Proof.SlotsSep

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- The peer that pays duty `d` of a device's barrier cell, and that the device's copy number `d` goes to. -/
abbrev peer (d : Fin 3) (c : Dev nD) : Dev nD := pr (d.val + 1) c

/-- Going `d + 1` places on and then `(2 - d) + 1` places on comes back. -/
theorem peer_rev (d : Fin 3) (c : Dev nD) : peer d.rev (peer d c) = c := by revert c; revert d; decide
theorem peer_rev' (d : Fin 3) (c : Dev nD) : peer d (peer d.rev c) = c := by revert c; revert d; decide
theorem src_peer (d : Fin 3) (c : Dev nD) : src (slotOf d) (peer d c) = c := by revert c; revert d; decide

/-- What the peer's entry signal hands device `c`: the peer's slot `d + 1`, at any contents, and that the peer's
    receive cell for it stands at round 0. -/
def barPay (c : Dev nD) (d : Fin 3) : sProp 𝕄 :=
  iprop((∃ f, slotPts (peer d c) (slotOf d) fullShare f) ∗ reached ER (recvCell (peer d c) d) 0)
/-- What a landed copy hands the receiver: its slot `d + 1` at the final contents. -/
def recvPay (c : Dev nD) (d : Fin 3) : sProp 𝕄 := slotPts c (slotOf d) fullShare (scrFinal m ρ c)
/-- What a copy that has read its source hands back: its share of slot 0. -/
def sendPay (c : Dev nD) (d : Fin 3) : sProp 𝕄 := slotPts c 0 (shr d) (scrFinal m ρ c)

abbrev IsBar (g : GSem nD τ sig) : Prop := g.1.2 = .tc ∧ g.2 = .reg barS
abbrev IsSend (sm : SemLoc sig) : Prop := sm = .dma (sendS 0) ∨ sm = .dma (sendS 1) ∨ sm = .dma (sendS 2)
abbrev IsRecv (sm : SemLoc sig) : Prop := sm = .dma (recvS 0) ∨ sm = .dma (recvS 1) ∨ sm = .dma (recvS 2)
abbrev IsXfer (g : GSem nD τ sig) : Prop := g.1.2 = .tc ∧ (IsSend g.2 ∨ IsRecv g.2)

/-- One round, round 0: a barrier cell has the three unit duties; a send or receive cell the duty `0` of one slot's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (sendS 0) then sendPay m ρ g.1.1 0
    else if g.2 = .dma (sendS 1) then sendPay m ρ g.1.1 1
    else if g.2 = .dma (sendS 2) then sendPay m ρ g.1.1 2
    else if g.2 = .dma (recvS 0) then recvPay m ρ g.1.1 0
    else if g.2 = .dma (recvS 1) then recvPay m ρ g.1.1 1
    else if g.2 = .dma (recvS 2) then recvPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (sendS 0) then sendPay m ρ g.1.1 0
    else if g.2 = .dma (sendS 1) then sendPay m ρ g.1.1 1
    else if g.2 = .dma (sendS 2) then sendPay m ρ g.1.1 2
    else if g.2 = .dma (recvS 0) then recvPay m ρ g.1.1 0
    else if g.2 = .dma (recvS 1) then recvPay m ρ g.1.1 1
    else if g.2 = .dma (recvS 2) then recvPay m ρ g.1.1 2
    else iprop(emp))
  unfold barPay recvPay sendPay
  (repeat' split) <;> infer_instance

section Tables
variable (c : Dev nD)

theorem dma_ne_bar (q : DmaSem sig) : (SemLoc.dma q : SemLoc sig) ≠ .reg barS := fun h => by cases h
theorem sendS_inj {d e : Fin 3} (h : (SemLoc.dma (sendS d) : SemLoc sig) = .dma (sendS e)) : d = e := by
  revert h; revert d e; decide
theorem recvS_inj {d e : Fin 3} (h : (SemLoc.dma (recvS d) : SemLoc sig) = .dma (recvS e)) : d = e := by
  revert h; revert d e; decide
theorem send_ne_recv (d e : Fin 3) : (SemLoc.dma (sendS d) : SemLoc sig) ≠ .dma (recvS e) := by revert d e; decide
theorem isSend_send (d : Fin 3) : IsSend (SemLoc.dma (sendS d) : SemLoc sig) := by revert d; decide
theorem isRecv_recv (d : Fin 3) : IsRecv (SemLoc.dma (recvS d) : SemLoc sig) := by revert d; decide
theorem not_isRecv_send (d : Fin 3) : ¬ IsRecv (SemLoc.dma (sendS d) : SemLoc sig) := by revert d; decide
theorem not_isRecv_bar : ¬ IsRecv (SemLoc.reg barS : SemLoc sig) := fun h => by rcases h with h | h | h <;> cases h

theorem duties_bar : (sched (F := F) m ρ).duties (barCell c) 0 = Finset.univ := by dsimp only [sched]; exact if_pos ⟨rfl, rfl, rfl⟩
theorem duties_send (d : Fin 3) : (sched (F := F) m ρ).duties (sendCell c d) 0 = {0} := by
  dsimp only [sched]; rw [if_neg (fun h => dma_ne_bar _ h.2.2)]; exact if_pos ⟨rfl, rfl, .inl (isSend_send d)⟩
theorem duties_recv (d : Fin 3) : (sched (F := F) m ρ).duties (recvCell c d) 0 = {0} := by
  dsimp only [sched]; rw [if_neg (fun h => dma_ne_bar _ h.2.2)]; exact if_pos ⟨rfl, rfl, .inr (isRecv_recv d)⟩
theorem duties_later (g : GSem nD τ sig) : ∀ r, 1 ≤ r → (sched (F := F) m ρ).duties g r = ∅ :=
  fun r hr => by dsimp only [sched]; rw [if_neg fun h => by omega, if_neg fun h => by omega]

theorem amount_bar (e : Fin 3) : (sched (F := F) m ρ).amount (barCell c) 0 e = 1 := by dsimp only [sched]; exact if_pos rfl
theorem amount_send (d e : Fin 3) : (sched (F := F) m ρ).amount (sendCell c d) 0 e = N := by dsimp only [sched]; exact if_neg (dma_ne_bar _)
theorem amount_recv (d e : Fin 3) : (sched (F := F) m ρ).amount (recvCell c d) 0 e = N := by dsimp only [sched]; exact if_neg (dma_ne_bar _)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (d : Fin 3) : (sched (F := F) m ρ).expect (sendCell c d) 0 = N := by
  unfold Schedule.expect Schedule.amountOf; rw [duties_send, Finset.sum_singleton, amount_send]
theorem expect_recv (d : Fin 3) : (sched (F := F) m ρ).expect (recvCell c d) 0 = N := by
  unfold Schedule.expect Schedule.amountOf; rw [duties_recv, Finset.sum_singleton, amount_recv]

theorem payload_bar (e : Fin 3) : (sched (F := F) m ρ).payload (barCell c) 0 e = barPay c e := by dsimp only [sched]; rw [if_pos rfl]
theorem payload_send (d e : Fin 3) : (sched (F := F) m ρ).payload (sendCell c d) 0 e = sendPay m ρ c d := by
  dsimp only [sched]; rw [if_neg (dma_ne_bar _)]
  fin_cases d
  · rw [if_pos rfl]; rfl
  · rw [if_neg (fun h => absurd (sendS_inj h) (by decide)), if_pos rfl]; rfl
  · rw [if_neg (fun h => absurd (sendS_inj h) (by decide)), if_neg (fun h => absurd (sendS_inj h) (by decide)), if_pos rfl]; rfl
theorem payload_recv (d e : Fin 3) : (sched (F := F) m ρ).payload (recvCell c d) 0 e = recvPay m ρ c d := by
  dsimp only [sched]; rw [if_neg (dma_ne_bar _), if_neg (send_ne_recv 0 d).symm, if_neg (send_ne_recv 1 d).symm, if_neg (send_ne_recv 2 d).symm]
  fin_cases d
  · rw [if_pos rfl]; rfl
  · rw [if_neg (fun h => absurd (recvS_inj h) (by decide)), if_pos rfl]; rfl
  · rw [if_neg (fun h => absurd (recvS_inj h) (by decide)), if_neg (fun h => absurd (recvS_inj h) (by decide)), if_pos rfl]; rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three peers' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (d : Fin 3) : bigSep ((sched (F := F) m ρ).duties (sendCell c d) 0 \ ∅) (fun e => (sched (F := F) m ρ).payload (sendCell c d) 0 e) = sendPay m ρ c d := by
  rw [Finset.sdiff_empty, duties_send, bigSep_singleton, payload_send]
theorem rest_recv (d : Fin 3) : bigSep ((sched (F := F) m ρ).duties (recvCell c d) 0 \ ∅) (fun e => (sched (F := F) m ρ).payload (recvCell c d) 0 e) = recvPay m ρ c d := by
  rw [Finset.sdiff_empty, duties_recv, bigSep_singleton, payload_recv]

end Tables

end Cert.KernelIdeal.AllReduce

end
-- ==== Proof.Ghost.lean ====
/-
  What each device brings to the launch of the all-reduce and what its body starts from. A device owes its three
  peers' barrier cells a unit each and their receive cells a slot's credit each, summed in the order the program
  pays them. Barrier cells stand at level 1 and receive cells at level 2, everything else at 0: a device waits on its
  barrier owing only receive credit, and on its transfer semaphores owing nothing. The ghost state of a device lists
  the invariants of the thirteen cells its body touches, its positions on its own seven, the round marks and the
  nine duty tokens it pays with.
-/
import proofs.«901079_g7700000000001080_dist_sum_ax0_shard0_i_m1536_n768_v7x_i4_bf16_1_alg».proof.Proof.Sched

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- One unit to the barrier cell of the peer `d + 1` places on; one slot's credit to that peer's receive cell `d`. -/
abbrev Bt (c : Dev nD) (d : Fin 3) : CellTallies nD τ sig Unit := tallyAt (barCell (peer d c)) () 1
abbrev Rt (c : Dev nD) (d : Fin 3) : CellTallies nD τ sig Unit := tallyAt (recvCell (peer d c) d) () N

/-- Owed once the three signals are out: the three slots' credit (the first copy peels the last summand). -/
def OR (c : Dev nD) : CellTallies nD τ sig Unit := (Rt c 2 + Rt c 1) + Rt c 0
/-- Owed at launch (the first signal peels the last summand). -/
def O₀ (c : Dev nD) : CellTallies nD τ sig Unit := ((OR c + Bt c 2) + Bt c 1) + Bt c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem OR_pos {c : Dev nD} {g : GSem nD τ sig} {u : Unit} (h : 0 < OR c g u) : ∃ d, g = recvCell (peer d c) d := by
  unfold OR at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ d, g = recvCell (peer d c) d) ∨ ∃ d, g = barCell (peer d c) := by
  unfold O₀ at h
  rw [Pi.add_apply, Finsupp.add_apply, Pi.add_apply, Finsupp.add_apply, Pi.add_apply, Finsupp.add_apply, tallyAt_apply, tallyAt_apply, tallyAt_apply] at h
  by_cases hr : 0 < OR c g u
  · exact Or.inl (OR_pos hr)
  · refine Or.inr ?_
    by_contra hn
    rw [not_exists] at hn
    rw [if_neg (fun h' => hn 2 h'.1), if_neg (fun h' => hn 1 h'.1), if_neg (fun h' => hn 0 h'.1)] at h
    omega

theorem lv_recv (c : Dev nD) (d : Fin 3) (u : Unit) : lv (recvCell c d) u = 2 := by
  dsimp only [lv]; rw [if_neg (dma_ne_bar _), if_pos (isRecv_recv d)]
theorem lv_bar (c : Dev nD) (u : Unit) : lv (barCell c) u = 1 := by dsimp only [lv]; rw [if_pos rfl]

/-- A wait on a semaphore that is no receive semaphore and not the barrier (a staging semaphore) is below all a device can owe. -/
theorem mayWait_stage (c : Dev nD) (q : DmaSem sig) (hq : ¬ IsRecv (SemLoc.dma q : SemLoc sig)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [if_neg (dma_ne_bar _), if_neg hq])
      (fun g u hg => by
        rcases O₀_pos hg with ⟨d, rfl⟩ | ⟨d, rfl⟩
        · rw [lv_recv]; decide
        · rw [lv_bar]; decide)
  · rw [MayWait_zero]; iintro -; iempintro

/-- At its barrier wait a device owes receive credit only: receive cells stand above barrier cells. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_of_eq (lv_bar c ()))
    (fun g u hg => by obtain ⟨d, rfl⟩ := OR_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the four slots added pairwise, slot `k` the column sums of the device `k` places before. -/
def outAt (c : Dev nD) : (cc0_stg1_0 : Ref sig .tc).ty.Contents (Elt F) :=
  k0_pay1 (part m ρ (src 0 c)) (part m ρ (src 1 c)) (part m ρ (src 2 c)) (part m ρ (src 3 c))

/-- The seven cells of a device, as this proof indexes them: barrier, the three send, the three receive. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
abbrev iS (d : Fin 3) : Fin 7 := ⟨1 + d.val, by omega⟩
abbrev iR (d : Fin 3) : Fin 7 := ⟨4 + d.val, by omega⟩
/-- The kernel's own (scoped) semaphores, as the launch indexes them: the three send, the three receive. -/
abbrev osem : Fin 6 → SemLoc sig := fun
  | 0 => .dma (sendS 0) | 1 => .dma (sendS 1) | 2 => .dma (sendS 2) | 3 => .dma (recvS 0) | 4 => .dma (recvS 1) | 5 => .dma (recvS 2)

theorem kcell_iS (c : Dev nD) (d : Fin 3) : kcell (c, iS d) = sendCell c d := by fin_cases d <;> rfl
theorem kcell_iR (c : Dev nD) (d : Fin 3) : kcell (c, iR d) = recvCell c d := by fin_cases d <;> rfl

section GhostState
variable (K : Dev nD × Fin 7 → ℕ)

/-- The invariants copy `d` of device `c` opens: its send and receive cells, the peer's barrier and receive cells. -/
def invsD (c : Dev nD) (d : Fin 3) : sProp 𝕄 :=
  iprop(cellInv ER (sched m ρ) (K (c, iS d)) (sendCell c d) ∗ cellInv ER (sched m ρ) (K (c, iR d)) (recvCell c d)
    ∗ cellInv ER (sched m ρ) (K (peer d c, 0)) (barCell (peer d c)) ∗ cellInv ER (sched m ρ) (K (peer d c, iR d)) (recvCell (peer d c) d))
def invs (c : Dev nD) : sProp 𝕄 :=
  iprop(cellInv ER (sched m ρ) (K (c, 0)) (barCell c) ∗ invsD m ρ K c 0 ∗ invsD m ρ K c 1 ∗ invsD m ρ K c 2)

instance invsD_persistent (c : Dev nD) (d : Fin 3) : BI.Persistent (invsD m ρ K c d) := by unfold invsD; infer_instance
instance invs_persistent (c : Dev nD) : BI.Persistent (invs m ρ K c) := by unfold invs; infer_instance

/-- Its positions at round 0 of its own send and receive cell `d`. -/
def posD (c : Dev nD) (d : Fin 3) : sProp 𝕄 := iprop(atPos ER (sendCell c d) 0 ∅ 0 ∗ atPos ER (recvCell c d) 0 ∅ 0)
/-- The round marks it shows when it pays: the peer's barrier and receive cells, its own send and receive cells. -/
def marksD (c : Dev nD) (d : Fin 3) : sProp 𝕄 :=
  iprop(reached ER (barCell (peer d c)) 0 ∗ reached ER (recvCell (peer d c) d) 0 ∗ reached ER (sendCell c d) 0 ∗ reached ER (recvCell c d) 0)
/-- The tokens of the duties it pays towards the peer `d + 1` places on: that peer's barrier duty `2 - d` (this
    device is `(2 - d) + 1` places on from it), that peer's receive duty, and its own send duty. -/
def toksD (c : Dev nD) (d : Fin 3) : sProp 𝕄 :=
  iprop(dutyTok ER (barCell (peer d c)) 0 d.rev ∗ dutyTok ER (recvCell (peer d c) d) 0 0 ∗ dutyTok ER (sendCell c d) 0 0)

instance marksD_persistent (c : Dev nD) (d : Fin 3) : BI.Persistent (marksD (F := F) c d) := by unfold marksD; infer_instance

/-- The protocol's ghost state device `c` starts from, the invariants under the names `K`. -/
def ghost (c : Dev nD) : sProp 𝕄 :=
  iprop(invs m ρ K c
    ∗ (atPos ER (barCell c) 0 ∅ 0 ∗ posD c 0 ∗ posD c 1 ∗ posD c 2)
    ∗ (marksD c 0 ∗ marksD c 1 ∗ marksD c 2)
    ∗ (toksD c 0 ∗ toksD c 1 ∗ toksD c 2))

end GhostState

/-- What device `c`'s body starts from: the ghost state at some names, the credit of its barrier's three units and of
    its three receive cells, and the level facts. -/
def start (c : Dev nD) : sProp 𝕄 :=
  iprop((∃ K, ghost m ρ K c) ∗ cred (tallyAt (barCell c) () 3)
    ∗ (cred (tallyAt (recvCell c 0) () N) ∗ cred (tallyAt (recvCell c 1) () N) ∗ cred (tallyAt (recvCell c 2) () N)) ∗ levAts L lv)

/-- Before the one grid point: the start and the scratch buffer, whole, at whatever it holds. -/
def Φ₀ (c : Dev nD) : sProp 𝕄 := iprop(start m ρ c ∗ ∃ f : Buf (Elt F) ((c : Thread nD τ).loc cc0_scratch0), (((c : Thread nD τ).loc cc0_scratch0) ↦{fullShare} f))
/-- After it: the scratch whole at its final contents, the six own cells at zero, closed. -/
def Φ₁ (c : Dev nD) : sProp 𝕄 :=
  iprop((((c : Thread nD τ).loc cc0_scratch0) ↦{fullShare} scrFinal m ρ c)
    ∗ semVal (sendCell c 0) 0 ∗ semVal (sendCell c 1) 0 ∗ semVal (sendCell c 2) 0
    ∗ semVal (recvCell c 0) 0 ∗ semVal (recvCell c 1) 0 ∗ semVal (recvCell c 2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.AllReduce

end
-- ==== Proof.Landing.lean ====
/-
  The value steps of the all-reduce's memory operations, each against the final contents `scrFinal`: what the one
  store leaves in slot 0, what a copy of slot 0 leaves in slot `d + 1` of the device `d + 1` places on, and what
  the four final loads read. A copy's two ends are the slots with their unit axis squeezed away; reading one is
  reading the slice at the re-laid index, the same re-laying at both ends.
-/
import proofs.«901079_g7700000000001080_dist_sum_ax0_shard0_i_m1536_n768_v7x_i4_bf16_1_alg».proof.Proof.Ghost

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Reading a slot through the squeezed memref is reading the slice at the re-laid index. -/
theorem read_slot (k : Fin 4) (f : (cc0_scratch0 : Ref sig .tc).ty.Contents (Elt F)) (x : S1x768.Idx) :
    (slotM k).view.read (Elt F) f x = (sv k).read (Elt F) f (Shape.reshapeEquiv squeezes_S1x1x768_S1x768.numel_eq x) := rfl

/-- The store of the block's column sums leaves slot 0 at its final contents. -/
theorem stored_congr (c : Dev nD) (f0 : (cc0_scratch0 : Ref sig .tc).ty.Contents (Elt F)) :
    ∀ i ∈ slotSet 0, ((sv 0).write (Elt F) f0 (part m ρ c) Finset.univ) i = scrFinal m ρ c i := by
  rw [slotSet_eq_sv]
  refine eq_on_set_of_read_eq (sv 0) _ _ ?_
  rw [View.read_write_univ, read_scrFinal, src_zero]

/-- A copy of device `c`'s slot 0 leaves slot `d + 1` of the device `d + 1` places on at ITS final contents:
    that slot is to hold the column sums of the device `d + 1` places before it, which is `c`. -/
theorem landed_congr (c : Dev nD) (d : Fin 3) (fd : (cc0_scratch0 : Ref sig .tc).ty.Contents (Elt F)) :
    ∀ i ∈ (slotM (slotOf d)).view.set,
      ((slotM (slotOf d)).view.write (Elt F) fd ((slotM 0).view.read (Elt F) (scrFinal m ρ c)) Finset.univ) i = scrFinal m ρ (peer d c) i := by
  refine eq_on_set_of_read_eq (slotM (slotOf d)).view _ _ ?_
  rw [View.read_write_univ]
  funext x
  rw [read_slot, read_slot, read_scrFinal, read_scrFinal, src_zero, src_peer]

/-- A final load of slot `k` reads the column sums of the device `k` places before. -/
theorem load_slot (c : Dev nD) (k : Fin 4) :
    (scM : Memref sig .tc .vmem S4x1x768 .f32).view.readAt (Elt F) (rc k).toLoadRect (scrFinal m ρ c) = part m ρ (src k c) :=
  read_scrFinal m ρ c k

omit [FloatOps F] in
theorem load_sub (k : Fin 4) : (scM : Memref sig .tc .vmem S4x1x768 .f32).view.setOn (rc k).toLoadRect.set ⊆ slotSet k := by
  rw [slotSet_eq_rect]
  show ((rc k).set).map (View.whole cc0_scratch0).emb ⊆ _
  rw [View.emb_whole, Finset.map_refl]

omit [FloatOps F] in
theorem store_sub (k : Fin 4) : ((scM : Memref sig .tc .vmem S4x1x768 .f32).access (rc k)).setOn Finset.univ ⊆ slotSet k := by
  rw [View.setOn_univ, slotSet_eq_sv]

end Cert.KernelIdeal.AllReduce

end
-- ==== Proof.Body.lean ====
/-
  One device's body of the all-reduce, stepped from the protocol's ghost state: the three entry signals each hand a
  peer one of this device's slots, the store puts the block's column sums in slot 0, the barrier wait brings the three
  peers' slots, the three copies each take a share of slot 0 and a peer's slot, the six waits bring the shares and this
  device's three filled slots back, and the four loads and the store add them.
-/
import proofs.«901079_g7700000000001080_dist_sum_ax0_shard0_i_m1536_n768_v7x_i4_bf16_1_alg».proof.Proof.Landing

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier payloads with every peer and slot written out -/

section Tables'
variable (c : Dev nD)

/-- What this device's signal number `d + 1` pays: its own slot `3 - d` and that its receive cell `2 - d` is open. -/
theorem payload_bar_p1 : (sched (F := F) m ρ).payload (barCell (pr 1 c)) 0 2
    = iprop((∃ f, (slotM 3).view.loc (c : Thread nD τ) ↦[(slotM 3).view.set]{fullShare} f) ∗ reached ER (recvCell c 2) 0) := by
  rw [payload_bar]; unfold barPay slotPts; rw [show peer 2 (pr 1 c) = c from peer_rev 0 c]; rfl
theorem payload_bar_p2 : (sched (F := F) m ρ).payload (barCell (pr 2 c)) 0 1
    = iprop((∃ f, (slotM 2).view.loc (c : Thread nD τ) ↦[(slotM 2).view.set]{fullShare} f) ∗ reached ER (recvCell c 1) 0) := by
  rw [payload_bar]; unfold barPay slotPts; rw [show peer 1 (pr 2 c) = c from peer_rev 1 c]; rfl
theorem payload_bar_p3 : (sched (F := F) m ρ).payload (barCell (pr 3 c)) 0 0
    = iprop((∃ f, (slotM 1).view.loc (c : Thread nD τ) ↦[(slotM 1).view.set]{fullShare} f) ∗ reached ER (recvCell c 0) 0) := by
  rw [payload_bar]; unfold barPay slotPts; rw [show peer 0 (pr 3 c) = c from peer_rev 2 c]; rfl

omit [FloatOps F] in
/-- Slot 0 at the full share is its three reading shares (the assertions spelt out). -/
theorem slot0_shares' (f : Buf (Elt F) ((slotM 0).view.loc (c : Thread nD τ))) :
    ((slotM 0).view.loc (c : Thread nD τ) ↦[(slotM 0).view.set]{fullShare} f : sProp 𝕄) ⊣⊢
      iprop(((slotM 0).view.loc (c : Thread nD τ) ↦[(slotM 0).view.set]{shr 0} f) ∗ ((slotM 0).view.loc (c : Thread nD τ) ↦[(slotM 0).view.set]{shr 1} f)
        ∗ ((slotM 0).view.loc (c : Thread nD τ) ↦[(slotM 0).view.set]{shr 2} f)) := slot0_shares c f
omit [FloatOps F] in
theorem scr_slots' (f : Buf (Elt F) ((c : Thread nD τ).loc cc0_scratch0)) :
    ((((c : Thread nD τ).loc cc0_scratch0) ↦{fullShare} f : sProp 𝕄))
      ⊣⊢ iprop(((slotM 0).view.loc (c : Thread nD τ) ↦[(slotM 0).view.set]{fullShare} f) ∗ ((slotM 1).view.loc (c : Thread nD τ) ↦[(slotM 1).view.set]{fullShare} f)
        ∗ ((slotM 2).view.loc (c : Thread nD τ) ↦[(slotM 2).view.set]{fullShare} f) ∗ ((slotM 3).view.loc (c : Thread nD τ) ↦[(slotM 3).view.set]{fullShare} f)) := scr_slots c f

/-- What each transfer cell's round gives back, the slot and share written out. -/
theorem rest_send_0 : bigSep ((sched (F := F) m ρ).duties (sendCell c 0) 0 \ ∅) (fun e => (sched (F := F) m ρ).payload (sendCell c 0) 0 e)
    = ((slotM 0).view.loc (c : Thread nD τ) ↦[(slotM 0).view.set]{shr 0} scrFinal m ρ c) := rest_send m ρ c 0
theorem rest_recv_0 : bigSep ((sched (F := F) m ρ).duties (recvCell c 0) 0 \ ∅) (fun e => (sched (F := F) m ρ).payload (recvCell c 0) 0 e)
    = ((slotM 1).view.loc (c : Thread nD τ) ↦[(slotM 1).view.set]{fullShare} scrFinal m ρ c) := rest_recv m ρ c 0
theorem rest_send_1 : bigSep ((sched (F := F) m ρ).duties (sendCell c 1) 0 \ ∅) (fun e => (sched (F := F) m ρ).payload (sendCell c 1) 0 e)
    = ((slotM 0).view.loc (c : Thread nD τ) ↦[(slotM 0).view.set]{shr 1} scrFinal m ρ c) := rest_send m ρ c 1
theorem rest_recv_1 : bigSep ((sched (F := F) m ρ).duties (recvCell c 1) 0 \ ∅) (fun e => (sched (F := F) m ρ).payload (recvCell c 1) 0 e)
    = ((slotM 2).view.loc (c : Thread nD τ) ↦[(slotM 2).view.set]{fullShare} scrFinal m ρ c) := rest_recv m ρ c 1
theorem rest_send_2 : bigSep ((sched (F := F) m ρ).duties (sendCell c 2) 0 \ ∅) (fun e => (sched (F := F) m ρ).payload (sendCell c 2) 0 e)
    = ((slotM 0).view.loc (c : Thread nD τ) ↦[(slotM 0).view.set]{shr 2} scrFinal m ρ c) := rest_send m ρ c 2
theorem rest_recv_2 : bigSep ((sched (F := F) m ρ).duties (recvCell c 2) 0 \ ∅) (fun e => (sched (F := F) m ρ).payload (recvCell c 2) 0 e)
    = ((slotM 3).view.loc (c : Thread nD τ) ↦[(slotM 3).view.set]{fullShare} scrFinal m ρ c) := rest_recv m ρ c 2

end Tables'

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 7 → ℕ)

def bodyPre (c : Dev nD) : sProp 𝕄 :=
  iprop((ghost m ρ K c ∗ cred (tallyAt (barCell c) () 3)
      ∗ (cred (tallyAt (recvCell c 0) () N) ∗ cred (tallyAt (recvCell c 1) () N) ∗ cred (tallyAt (recvCell c 2) () N)) ∗ levAts L lv
      ∗ ∃ f : Buf (Elt F) ((c : Thread nD τ).loc cc0_scratch0), (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The ghost state with the three peers and their duties written out. -/
theorem ghost_flat (c : Dev nD) : ghost m ρ K c = (iprop((cellInv ER (sched m ρ) (K (c, 0)) (barCell c) ∗ (cellInv ER (sched m ρ) (K (c, iS 0)) (sendCell c 0) ∗ cellInv ER (sched m ρ) (K (c, iR 0)) (recvCell c 0)
      ∗ cellInv ER (sched m ρ) (K (peer 0 c, 0)) (barCell (pr 1 c)) ∗ cellInv ER (sched m ρ) (K (peer 0 c, iR 0)) (recvCell (pr 1 c) 0))
      ∗ (cellInv ER (sched m ρ) (K (c, iS 1)) (sendCell c 1) ∗ cellInv ER (sched m ρ) (K (c, iR 1)) (recvCell c 1)
      ∗ cellInv ER (sched m ρ) (K (peer 1 c, 0)) (barCell (pr 2 c)) ∗ cellInv ER (sched m ρ) (K (peer 1 c, iR 1)) (recvCell (pr 2 c) 1))
      ∗ (cellInv ER (sched m ρ) (K (c, iS 2)) (sendCell c 2) ∗ cellInv ER (sched m ρ) (K (c, iR 2)) (recvCell c 2)
      ∗ cellInv ER (sched m ρ) (K (peer 2 c, 0)) (barCell (pr 3 c)) ∗ cellInv ER (sched m ρ) (K (peer 2 c, iR 2)) (recvCell (pr 3 c) 2)))
    ∗ (atPos ER (barCell c) 0 ∅ 0 ∗ (atPos ER (sendCell c 0) 0 ∅ 0 ∗ atPos ER (recvCell c 0) 0 ∅ 0) ∗ (atPos ER (sendCell c 1) 0 ∅ 0 ∗ atPos ER (recvCell c 1) 0 ∅ 0) ∗ (atPos ER (sendCell c 2) 0 ∅ 0 ∗ atPos ER (recvCell c 2) 0 ∅ 0))
    ∗ ((reached ER (barCell (pr 1 c)) 0 ∗ reached ER (recvCell (pr 1 c) 0) 0 ∗ reached ER (sendCell c 0) 0 ∗ reached ER (recvCell c 0) 0)
      ∗ (reached ER (barCell (pr 2 c)) 0 ∗ reached ER (recvCell (pr 2 c) 1) 0 ∗ reached ER (sendCell c 1) 0 ∗ reached ER (recvCell c 1) 0)
      ∗ (reached ER (barCell (pr 3 c)) 0 ∗ reached ER (recvCell (pr 3 c) 2) 0 ∗ reached ER (sendCell c 2) 0 ∗ reached ER (recvCell c 2) 0))
    ∗ ((dutyTok ER (barCell (pr 1 c)) 0 2 ∗ dutyTok ER (recvCell (pr 1 c) 0) 0 0 ∗ dutyTok ER (sendCell c 0) 0 0)
      ∗ (dutyTok ER (barCell (pr 2 c)) 0 1 ∗ dutyTok ER (recvCell (pr 2 c) 1) 0 0 ∗ dutyTok ER (sendCell c 1) 0 0)
      ∗ (dutyTok ER (barCell (pr 3 c)) 0 0 ∗ dutyTok ER (recvCell (pr 3 c) 2) 0 0 ∗ dutyTok ER (sendCell c 2) 0 0))) : sProp 𝕄) := rfl

theorem fetch_0 (t : Fin cfg0.N) : (cfg0.win (0 : Fin 2)).fetch t = true := by rw [fin_N t]; rfl

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg1_0 hz2 _ f w

/-- The send rule at copy 1's cells, the copy addressed to `n = pr 1 c` (substituted, not rewritten: the copy's evidence depends on it). -/
theorem wp_send_1 (c n : Dev nD) (hn : n = pr 1 c)
    {hsc : (slotM 1 : Memref sig (Dev.tc n : Thread nD τ).2.kind .vmem S1x768 .f32).view.ref.isScScratch = false}
    {hsrc : (slotM 0 : Memref sig .tc .vmem S1x768 .f32).view.WordExact} {hdst : (slotM 1 : Memref sig .tc .vmem S1x768 .f32).view.WordExact}
    {hsem : DmaTarget.Typed .vmem (.dma (recvS 0)) (.remote (Dev.tc n : Thread nD τ) (slotM 1 : Memref sig .tc .vmem S1x768 .f32) (.dma (sendS 0)) hsc)}
    {α : Type} {Q : α → sProp 𝕄} {k : PUnit → Prog (TpuEff nD τ sig (Elt F) Λ₀ .tc) α}
    (fd : Buf (Elt F) ((slotM 1).view.loc (pr 1 c : Thread nD τ))) (O : CellTallies nD τ sig Unit) (W : Waits sig Unit) :
    iprop(cellInv ER (sched m ρ) (K (c, iS 0)) (sendCell c 0) ∗ cellInv ER (sched m ρ) (K (peer 0 c, iR 0)) (recvCell (pr 1 c) 0)
        ∗ ((slotM 0).view.loc (c : Thread nD τ) ↦[(slotM 0).view.set]{shr 0} scrFinal m ρ c)
        ∗ ((slotM 1).view.loc (pr 1 c : Thread nD τ) ↦[(slotM 1).view.set]{fullShare} fd)
        ∗ owes (c : Thread nD τ) (O + tallyAt (recvCell (pr 1 c) 0) () N) W
        ∗ dutyTok ER (sendCell c 0) 0 0 ∗ reached ER (sendCell c 0) 0
        ∗ dutyTok ER (recvCell (pr 1 c) 0) 0 0 ∗ reached ER (recvCell (pr 1 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 1) (.dma (sendS 0)) hsc) (.dma (recvS 0)) hsrc hdst hsem) k) Q) := by
  subst hn
  exact Rounds.wp_send_pointsTo 𝒱₀ ER (sched m ρ) (c : Thread nD τ) none (κ₁ := K (c, iS 0)) (κ₂ := K (peer 0 c, iR 0))
    (c' := (pr 1 c : Thread nD τ)) (src := (slotM 0 : Memref sig .tc .vmem S1x768 .f32)) (dst := (slotM 1 : Memref sig .tc .vmem S1x768 .f32))
    (r₁ := 0) (r₂ := 0) (d₁ := 0) (d₂ := 0) (fd := fd) (q := shr 0) (fs := scrFinal m ρ c)
    (by rw [duties_send]; exact Finset.mem_singleton_self _) (by rw [duties_recv]; exact Finset.mem_singleton_self _)
    () () N rfl (amount_send m ρ c 0 0) (amount_recv m ρ (pr 1 c) 0 0) O rfl (W := W)
    (by rw [payload_send]; exact BI.Entails.refl _)
    (by rw [payload_recv]; exact Entails.of_eq (pointsTo_congr (landed_congr m ρ c 0 fd)))

/-- The send rule at copy 2's cells, the copy addressed to `n = pr 2 c` (substituted, not rewritten: the copy's evidence depends on it). -/
theorem wp_send_2 (c n : Dev nD) (hn : n = pr 2 c)
    {hsc : (slotM 2 : Memref sig (Dev.tc n : Thread nD τ).2.kind .vmem S1x768 .f32).view.ref.isScScratch = false}
    {hsrc : (slotM 0 : Memref sig .tc .vmem S1x768 .f32).view.WordExact} {hdst : (slotM 2 : Memref sig .tc .vmem S1x768 .f32).view.WordExact}
    {hsem : DmaTarget.Typed .vmem (.dma (recvS 1)) (.remote (Dev.tc n : Thread nD τ) (slotM 2 : Memref sig .tc .vmem S1x768 .f32) (.dma (sendS 1)) hsc)}
    {α : Type} {Q : α → sProp 𝕄} {k : PUnit → Prog (TpuEff nD τ sig (Elt F) Λ₀ .tc) α}
    (fd : Buf (Elt F) ((slotM 2).view.loc (pr 2 c : Thread nD τ))) (O : CellTallies nD τ sig Unit) (W : Waits sig Unit) :
    iprop(cellInv ER (sched m ρ) (K (c, iS 1)) (sendCell c 1) ∗ cellInv ER (sched m ρ) (K (peer 1 c, iR 1)) (recvCell (pr 2 c) 1)
        ∗ ((slotM 0).view.loc (c : Thread nD τ) ↦[(slotM 0).view.set]{shr 1} scrFinal m ρ c)
        ∗ ((slotM 2).view.loc (pr 2 c : Thread nD τ) ↦[(slotM 2).view.set]{fullShare} fd)
        ∗ owes (c : Thread nD τ) (O + tallyAt (recvCell (pr 2 c) 1) () N) W
        ∗ dutyTok ER (sendCell c 1) 0 0 ∗ reached ER (sendCell c 1) 0
        ∗ dutyTok ER (recvCell (pr 2 c) 1) 0 0 ∗ reached ER (recvCell (pr 2 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 2) (.dma (sendS 1)) hsc) (.dma (recvS 1)) hsrc hdst hsem) k) Q) := by
  subst hn
  exact Rounds.wp_send_pointsTo 𝒱₀ ER (sched m ρ) (c : Thread nD τ) none (κ₁ := K (c, iS 1)) (κ₂ := K (peer 1 c, iR 1))
    (c' := (pr 2 c : Thread nD τ)) (src := (slotM 0 : Memref sig .tc .vmem S1x768 .f32)) (dst := (slotM 2 : Memref sig .tc .vmem S1x768 .f32))
    (r₁ := 0) (r₂ := 0) (d₁ := 0) (d₂ := 0) (fd := fd) (q := shr 1) (fs := scrFinal m ρ c)
    (by rw [duties_send]; exact Finset.mem_singleton_self _) (by rw [duties_recv]; exact Finset.mem_singleton_self _)
    () () N rfl (amount_send m ρ c 1 0) (amount_recv m ρ (pr 2 c) 1 0) O rfl (W := W)
    (by rw [payload_send]; exact BI.Entails.refl _)
    (by rw [payload_recv]; exact Entails.of_eq (pointsTo_congr (landed_congr m ρ c 1 fd)))

/-- The send rule at copy 3's cells, the copy addressed to `n = pr 3 c` (substituted, not rewritten: the copy's evidence depends on it). -/
theorem wp_send_3 (c n : Dev nD) (hn : n = pr 3 c)
    {hsc : (slotM 3 : Memref sig (Dev.tc n : Thread nD τ).2.kind .vmem S1x768 .f32).view.ref.isScScratch = false}
    {hsrc : (slotM 0 : Memref sig .tc .vmem S1x768 .f32).view.WordExact} {hdst : (slotM 3 : Memref sig .tc .vmem S1x768 .f32).view.WordExact}
    {hsem : DmaTarget.Typed .vmem (.dma (recvS 2)) (.remote (Dev.tc n : Thread nD τ) (slotM 3 : Memref sig .tc .vmem S1x768 .f32) (.dma (sendS 2)) hsc)}
    {α : Type} {Q : α → sProp 𝕄} {k : PUnit → Prog (TpuEff nD τ sig (Elt F) Λ₀ .tc) α}
    (fd : Buf (Elt F) ((slotM 3).view.loc (pr 3 c : Thread nD τ))) (O : CellTallies nD τ sig Unit) (W : Waits sig Unit) :
    iprop(cellInv ER (sched m ρ) (K (c, iS 2)) (sendCell c 2) ∗ cellInv ER (sched m ρ) (K (peer 2 c, iR 2)) (recvCell (pr 3 c) 2)
        ∗ ((slotM 0).view.loc (c : Thread nD τ) ↦[(slotM 0).view.set]{shr 2} scrFinal m ρ c)
        ∗ ((slotM 3).view.loc (pr 3 c : Thread nD τ) ↦[(slotM 3).view.set]{fullShare} fd)
        ∗ owes (c : Thread nD τ) (O + tallyAt (recvCell (pr 3 c) 2) () N) W
        ∗ dutyTok ER (sendCell c 2) 0 0 ∗ reached ER (sendCell c 2) 0
        ∗ dutyTok ER (recvCell (pr 3 c) 2) 0 0 ∗ reached ER (recvCell (pr 3 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 3) (.dma (sendS 2)) hsc) (.dma (recvS 2)) hsrc hdst hsem) k) Q) := by
  subst hn
  exact Rounds.wp_send_pointsTo 𝒱₀ ER (sched m ρ) (c : Thread nD τ) none (κ₁ := K (c, iS 2)) (κ₂ := K (peer 2 c, iR 2))
    (c' := (pr 3 c : Thread nD τ)) (src := (slotM 0 : Memref sig .tc .vmem S1x768 .f32)) (dst := (slotM 3 : Memref sig .tc .vmem S1x768 .f32))
    (r₁ := 0) (r₂ := 0) (d₁ := 0) (d₂ := 0) (fd := fd) (q := shr 2) (fs := scrFinal m ρ c)
    (by rw [duties_send]; exact Finset.mem_singleton_self _) (by rw [duties_recv]; exact Finset.mem_singleton_self _)
    () () N rfl (amount_send m ρ c 2 0) (amount_recv m ρ (pr 3 c) 2 0) O rfl (W := W)
    (by rw [payload_send]; exact BI.Entails.refl _)
    (by rw [payload_recv]; exact Entails.of_eq (pointsTo_congr (landed_congr m ρ c 2 fd)))

set_option maxHeartbeats 3200000 in
set_option maxRecDepth 8000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre
  rw [ghost_flat]
  iintro ⟨⟨⟨⟨⟨#HIbar, ⟨#HIs0, #HIr0, #HIbp0, #HIrp0⟩, ⟨#HIs1, #HIr1, #HIbp1, #HIrp1⟩, ⟨#HIs2, #HIr2, #HIbp2, #HIrp2⟩⟩,
      ⟨HatB, ⟨HatS0, HatR0⟩, ⟨HatS1, HatR1⟩, ⟨HatS2, HatR2⟩⟩,
      ⟨⟨#HrBp0, #HrRp0, #HrS0, #HrR0⟩, ⟨#HrBp1, #HrRp1, #HrS1, #HrR1⟩, ⟨#HrBp2, #HrRp2, #HrS2, #HrR2⟩⟩,
      ⟨⟨HtB0, HtR0, HtS0⟩, ⟨HtB1, HtR1, HtS1⟩, ⟨HtB2, HtR2, HtS2⟩⟩⟩,
      HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hsl := (scr_slots' c f0).1 $$ Hscr
  icases Hsl with ⟨Hs0, Hs1, Hs2, Hs3⟩
  simp only [dev1_eq c, dev2_eq c, dev3_eq c]
  -- signal 1: to the device 1 place on, paying duty 2 of its barrier cell with this device's slot 3
  iapply (Rounds.wp_signal 𝒱₀ ER (sched m ρ) (c : Thread nD τ) none (dst := (pr 1 c : Thread nD τ)) (κ := K (peer 0 c, 0))
      (d := 2) (by rw [duties_bar]; exact Finset.mem_univ _) ((amount_bar m ρ (pr 1 c) 2).trans (by decide)) () ((OR c + Bt c 2) + Bt c 1) rfl)
    $$ [HO HtB0 Hs3]
  · isplitr; · iexact HIbp0
    isplitl [HO]; · iexact HO
    isplitl [HtB0]; · iexact HtB0
    isplitl [Hs3]
    · rw [payload_bar_p1]
      isplitl [Hs3]; · iexists f0; iexact Hs3
      iexact HrR2
    · iexact HrBp0
  iintro HO
  -- signal 2: to the device 2 places on, paying duty 1 of its barrier cell with this device's slot 2
  iapply (Rounds.wp_signal 𝒱₀ ER (sched m ρ) (c : Thread nD τ) none (dst := (pr 2 c : Thread nD τ)) (κ := K (peer 1 c, 0))
      (d := 1) (by rw [duties_bar]; exact Finset.mem_univ _) ((amount_bar m ρ (pr 2 c) 1).trans (by decide)) () (OR c + Bt c 2) rfl)
    $$ [HO HtB1 Hs2]
  · isplitr; · iexact HIbp1
    isplitl [HO]; · iexact HO
    isplitl [HtB1]; · iexact HtB1
    isplitl [Hs2]
    · rw [payload_bar_p2]
      isplitl [Hs2]; · iexists f0; iexact Hs2
      iexact HrR1
    · iexact HrBp1
  iintro HO
  -- signal 3: to the device 3 places on, paying duty 0 of its barrier cell with this device's slot 1
  iapply (Rounds.wp_signal 𝒱₀ ER (sched m ρ) (c : Thread nD τ) none (dst := (pr 3 c : Thread nD τ)) (κ := K (peer 2 c, 0))
      (d := 0) (by rw [duties_bar]; exact Finset.mem_univ _) ((amount_bar m ρ (pr 3 c) 0).trans (by decide)) () (OR c) rfl)
    $$ [HO HtB2 Hs1]
  · isplitr; · iexact HIbp2
    isplitl [HO]; · iexact HO
    isplitl [HtB2]; · iexact HtB2
    isplitl [Hs1]
    · rw [payload_bar_p3]
      isplitl [Hs1]; · iexists f0; iexact Hs1
      iexact HrR0
    · iexact HrBp2
  iintro HO
  -- the load of the block and the store of its column sums into slot 0 (the old slot 0 is loaded first, unused)
  iapply (wp_load 𝒱₀ (c : Thread nD τ) none Set.univ (m := xM) (Finset.subset_univ _)) $$ Hx; iintro Hx
  rw [read_x]
  iapply (wp_load 𝒱₀ (c : Thread nD τ) none Set.univ (m := scM) (r := (rc 0).toLoadRect) (S := slotSet 0) (load_sub 0)) $$ Hs0; iintro Hs0
  iapply (wp_store 𝒱₀ (c : Thread nD τ) none Set.univ (m := scM) (r := rc 0) (Mk := Finset.univ) (S := slotSet 0) (store_sub 0)) $$ Hs0; iintro Hs0
  ihave Hs0 := (Entails.of_eq (pointsTo_congr (stored_congr m ρ c f0))) $$ Hs0
  -- the wait for the three peers' units on the barrier cell, owing the three slots' credit: their slots come with it
  iapply (Rounds.wp_wait_rest_token 𝒱₀ ER (sched m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay slotPts
  icases Hp with ⟨⟨⟨%fp1, Hd1⟩, #HrRp0'⟩, ⟨⟨%fp2, Hd2⟩, #HrRp1'⟩, ⟨⟨%fp3, Hd3⟩, #HrRp2'⟩⟩
  unfold OR
  -- slot 0 in its three reading shares
  ihave Hsh := (slot0_shares' c (scrFinal m ρ c)).1 $$ Hs0
  icases Hsh with ⟨Hq0, Hq1, Hq2⟩
  -- copy 1: slot 0, at its share 0, to slot 1 of the device 1 place on
  iapply (wp_send_1 m ρ K c _ (dev4_eq c) fp1 (Rt c 2 + Rt c 1) (insert (SemLoc.reg barS, ()) W)) $$ [Hq0 Hd1 HO HtS0 HtR0]
  · isplitr; · iexact HIs0
    isplitr; · iexact HIrp0
    isplitl [Hq0]; · iexact Hq0
    isplitl [Hd1]; · iexact Hd1
    isplitl [HO]; · iexact HO
    isplitl [HtS0]; · iexact HtS0
    isplitr; · iexact HrS0
    isplitl [HtR0]; · iexact HtR0
    iexact HrRp0
  iintro ⟨HcS0, HO⟩
  -- copy 2: slot 0, at its share 1, to slot 2 of the device 2 places on
  iapply (wp_send_2 m ρ K c _ (dev5_eq c) fp2 (Rt c 2) (insert (SemLoc.reg barS, ()) W)) $$ [Hq1 Hd2 HO HtS1 HtR1]
  · isplitr; · iexact HIs1
    isplitr; · iexact HIrp1
    isplitl [Hq1]; · iexact Hq1
    isplitl [Hd2]; · iexact Hd2
    isplitl [HO]; · iexact HO
    isplitl [HtS1]; · iexact HtS1
    isplitr; · iexact HrS1
    isplitl [HtR1]; · iexact HtR1
    iexact HrRp1
  iintro ⟨HcS1, HO⟩
  ihave HO := (Entails.of_eq (congrArg (fun o => owes (c : Thread nD τ) o (insert (SemLoc.reg barS, ()) W)) (zero_add (Rt c 2)).symm)) $$ HO
  -- copy 3: slot 0, at its share 2, to slot 3 of the device 3 places on
  iapply (wp_send_3 m ρ K c _ (dev6_eq c) fp3 0 (insert (SemLoc.reg barS, ()) W)) $$ [Hq2 Hd3 HO HtS2 HtR2]
  · isplitr; · iexact HIs2
    isplitr; · iexact HIrp2
    isplitl [Hq2]; · iexact Hq2
    isplitl [Hd3]; · iexact Hd3
    isplitl [HO]; · iexact HO
    isplitl [HtS2]; · iexact HtS2
    isplitr; · iexact HrS2
    isplitl [HtR2]; · iexact HtR2
    iexact HrRp2
  iintro ⟨HcS2, HO⟩
  -- wait on send cell 0: the share of slot 0 its copy read comes back
  iapply (Rounds.wp_wait_rest_token 𝒱₀ ER (sched m ρ) (c : Thread nD τ) none (κ := K (c, iS 0))
      (wpE_waitDma2_eq 𝒱₀ (c : Thread nD τ) none Set.univ) (Set.mem_univ _) () (O := 0) (W := (insert (SemLoc.reg barS, ()) W)) (R := 0) (m := 0) (T := ∅)
      (by rw [Nat.zero_add]; exact (expect_send m ρ c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hq0 := (Entails.of_eq (rest_send_0 m ρ c)) $$ Hpay
  -- wait on receive cell 0: slot 1 comes, filled
  iapply (Rounds.wp_wait_rest_token 𝒱₀ ER (sched m ρ) (c : Thread nD τ) none (κ := K (c, iR 0))
      (wpE_waitDma2_eq 𝒱₀ (c : Thread nD τ) none Set.univ) (Set.mem_univ _) () (O := 0) (W := (insert (SemLoc.dma (sendS 0), ()) (insert (SemLoc.reg barS, ()) W))) (R := 0) (m := 0) (T := ∅)
      (by rw [Nat.zero_add]; exact (expect_recv m ρ c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hs1 := (Entails.of_eq (rest_recv_0 m ρ c)) $$ Hpay
  -- wait on send cell 1: the share of slot 0 its copy read comes back
  iapply (Rounds.wp_wait_rest_token 𝒱₀ ER (sched m ρ) (c : Thread nD τ) none (κ := K (c, iS 1))
      (wpE_waitDma2_eq 𝒱₀ (c : Thread nD τ) none Set.univ) (Set.mem_univ _) () (O := 0) (W := (insert (SemLoc.dma (recvS 0), ()) (insert (SemLoc.dma (sendS 0), ()) (insert (SemLoc.reg barS, ()) W)))) (R := 0) (m := 0) (T := ∅)
      (by rw [Nat.zero_add]; exact (expect_send m ρ c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send_1 m ρ c)) $$ Hpay
  -- wait on receive cell 1: slot 2 comes, filled
  iapply (Rounds.wp_wait_rest_token 𝒱₀ ER (sched m ρ) (c : Thread nD τ) none (κ := K (c, iR 1))
      (wpE_waitDma2_eq 𝒱₀ (c : Thread nD τ) none Set.univ) (Set.mem_univ _) () (O := 0) (W := (insert (SemLoc.dma (sendS 1), ()) (insert (SemLoc.dma (recvS 0), ()) (insert (SemLoc.dma (sendS 0), ()) (insert (SemLoc.reg barS, ()) W))))) (R := 0) (m := 0) (T := ∅)
      (by rw [Nat.zero_add]; exact (expect_recv m ρ c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hs2 := (Entails.of_eq (rest_recv_1 m ρ c)) $$ Hpay
  -- wait on send cell 2: the share of slot 0 its copy read comes back
  iapply (Rounds.wp_wait_rest_token 𝒱₀ ER (sched m ρ) (c : Thread nD τ) none (κ := K (c, iS 2))
      (wpE_waitDma2_eq 𝒱₀ (c : Thread nD τ) none Set.univ) (Set.mem_univ _) () (O := 0) (W := (insert (SemLoc.dma (recvS 1), ()) (insert (SemLoc.dma (sendS 1), ()) (insert (SemLoc.dma (recvS 0), ()) (insert (SemLoc.dma (sendS 0), ()) (insert (SemLoc.reg barS, ()) W)))))) (R := 0) (m := 0) (T := ∅)
      (by rw [Nat.zero_add]; exact (expect_send m ρ c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send_2 m ρ c)) $$ Hpay
  -- wait on receive cell 2: slot 3 comes, filled
  iapply (Rounds.wp_wait_rest_token 𝒱₀ ER (sched m ρ) (c : Thread nD τ) none (κ := K (c, iR 2))
      (wpE_waitDma2_eq 𝒱₀ (c : Thread nD τ) none Set.univ) (Set.mem_univ _) () (O := 0) (W := (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W))))))) (R := 0) (m := 0) (T := ∅)
      (by rw [Nat.zero_add]; exact (expect_recv m ρ c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hs3 := (Entails.of_eq (rest_recv_2 m ρ c)) $$ Hpay
  -- the six own cells close: their counters at zero are the core's again
  imod (Rounds.cell_close ER (sched m ρ) (Set.mem_univ (K (c, iS 0))) (fun h => h) (R := 0 + 1) (duties_later m ρ (sendCell c 0))) $$ [HatS0] with HzS0
  · isplitr; · iexact HIs0
    iexact HatS0
  imod (Rounds.cell_close ER (sched m ρ) (Set.mem_univ (K (c, iS 1))) (fun h => h) (R := 0 + 1) (duties_later m ρ (sendCell c 1))) $$ [HatS1] with HzS1
  · isplitr; · iexact HIs1
    iexact HatS1
  imod (Rounds.cell_close ER (sched m ρ) (Set.mem_univ (K (c, iS 2))) (fun h => h) (R := 0 + 1) (duties_later m ρ (sendCell c 2))) $$ [HatS2] with HzS2
  · isplitr; · iexact HIs2
    iexact HatS2
  imod (Rounds.cell_close ER (sched m ρ) (Set.mem_univ (K (c, iR 0))) (fun h => h) (R := 0 + 1) (duties_later m ρ (recvCell c 0))) $$ [HatR0] with HzR0
  · isplitr; · iexact HIr0
    iexact HatR0
  imod (Rounds.cell_close ER (sched m ρ) (Set.mem_univ (K (c, iR 1))) (fun h => h) (R := 0 + 1) (duties_later m ρ (recvCell c 1))) $$ [HatR1] with HzR1
  · isplitr; · iexact HIr1
    iexact HatR1
  imod (Rounds.cell_close ER (sched m ρ) (Set.mem_univ (K (c, iR 2))) (fun h => h) (R := 0 + 1) (duties_later m ρ (recvCell c 2))) $$ [HatR2] with HzR2
  · isplitr; · iexact HIr2
    iexact HatR2
  -- slot 0 whole again, then the four loads and the store of their sum
  ihave Hs0 := (slot0_shares' c (scrFinal m ρ c)).2 $$ [Hq0 Hq1 Hq2]
  · isplitl [Hq0]; · iexact Hq0
    isplitl [Hq1]; · iexact Hq1
    iexact Hq2
  iapply (wp_load 𝒱₀ (c : Thread nD τ) none Set.univ (m := scM) (r := (rc 0).toLoadRect) (S := slotSet 0) (load_sub 0)) $$ Hs0; iintro Hs0
  rw [show (scM : Memref sig .tc .vmem S4x1x768 .f32).view.readAt (Elt F) (rc 0).toLoadRect (scrFinal m ρ c) = part m ρ (src 0 c) from load_slot m ρ c 0]
  iapply (wp_load 𝒱₀ (c : Thread nD τ) none Set.univ (m := scM) (r := (rc 1).toLoadRect) (S := slotSet 1) (load_sub 1)) $$ Hs1; iintro Hs1
  rw [show (scM : Memref sig .tc .vmem S4x1x768 .f32).view.readAt (Elt F) (rc 1).toLoadRect (scrFinal m ρ c) = part m ρ (src 1 c) from load_slot m ρ c 1]
  iapply (wp_load 𝒱₀ (c : Thread nD τ) none Set.univ (m := scM) (r := (rc 2).toLoadRect) (S := slotSet 2) (load_sub 2)) $$ Hs2; iintro Hs2
  rw [show (scM : Memref sig .tc .vmem S4x1x768 .f32).view.readAt (Elt F) (rc 2).toLoadRect (scrFinal m ρ c) = part m ρ (src 2 c) from load_slot m ρ c 2]
  iapply (wp_load 𝒱₀ (c : Thread nD τ) none Set.univ (m := scM) (r := (rc 3).toLoadRect) (S := slotSet 3) (load_sub 3)) $$ Hs3; iintro Hs3
  rw [show (scM : Memref sig .tc .vmem S4x1x768 .f32).view.readAt (Elt F) (rc 3).toLoadRect (scrFinal m ρ c) = part m ρ (src 3 c) from load_slot m ρ c 3]
  iapply (wp_load 𝒱₀ (c : Thread nD τ) none Set.univ (m := oM) (Finset.subset_univ _)) $$ Hout; iintro Hout
  iapply (wp_store 𝒱₀ (c : Thread nD τ) none Set.univ (m := oM) (r := Rect.unit (s := S1x768) ![0, 0] S1x768.size inb_S1x768_S1x768_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 Hs2 Hs3 HzS0 HzS1 HzS2 HzR0 HzR1 HzR2]
  · isplitl [Hs0 Hs1 Hs2 Hs3]
    · iapply (scr_slots' c (scrFinal m ρ c)).2
      isplitl [Hs0]; · iexact Hs0
      isplitl [Hs1]; · iexact Hs1
      isplitl [Hs2]; · iexact Hs2
      iexact Hs3
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The library's body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one grid point: the invariant before it, what the device owes, the two staged windows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`: the names of the invariants opened, the body run from them. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, H1, H2, H3⟩, Hscr⟩, Ho, Hx, Hout⟩
  iapply (sound_body m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho]; · iexact Ho
    isplitl [Hx] <;> iassumption
  · iintro H; iexact H

/-- info: 'Cert.KernelIdeal.AllReduce.body_obligation' depends on axioms: [propext, Classical.choice, Quot.sound] -/
#guard_msgs in #print axioms body_obligation

end Cert.KernelIdeal.AllReduce

end
-- ==== Proof.Launch.lean ====
/-
  The launch of the all-reduce over four devices. Every device brings its seven cells — its barrier cell, three send
  cells and three receive cells — and the nine duty tokens minted on them. The tokens are then dealt to the devices
  that pay the duties: a barrier cell's token for duty `e` goes to the device `e + 1` places on, a receive cell's token
  to the device that copies into it, a send cell's token stays. Each of the three deals is a rotation of the cycle of
  four. What every device is owed at launch is three barrier units, one from each peer, and one slot's credit on each
  of its three receive cells, from the one device that copies there. From this every device's body starts, and the run
  of all four ends with the argument array as it was and the result array at the kernel's value.
-/
import proofs.«901079_g7700000000001080_dist_sum_ax0_shard0_i_m1536_n768_v7x_i4_bf16_1_alg».proof.Proof.Ghost
import proofs.«901079_g7700000000001080_dist_sum_ax0_shard0_i_m1536_n768_v7x_i4_bf16_1_alg».proof.Proof.Gen.KernelIdeal.Points

noncomputable section

namespace Cert.KernelIdeal.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the protocol and the tokens minted on them -/

omit [FloatOps F] in
theorem ownSemFacts : Pipeline.OwnSemFacts cfg0.spec osem := by decide

theorem share_eq (c : Dev nD) (w : Fin cfg0.W) : (dats m ρ 0 c).share w = fullShare := by unfold Dat.share; split <;> rfl

omit [FloatOps F] in
/-- The seven semaphores of a device's cells are pairwise different. -/
theorem csem_injective : ∀ k k' : Fin 7, csem k = csem k' → k = k' := by decide

omit [FloatOps F] in
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]

/-- Every device's seven cells. -/
def allCells : Finset (GSem nD τ sig) := Finset.univ.map ⟨kcell, kcell_injective⟩

/-- The nine duties of a device's own cells: its barrier's three, each send cell's one, each receive cell's one. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)

abbrev tokOf (cj : Dev nD × Fin 9) : GSem nD τ sig × ℕ × Fin 3 := (((cj.1 : Thread nD τ), (tokSem cj.2).1), 0, (tokSem cj.2).2)

omit [FloatOps F] in
theorem tokSem_injective : ∀ j j' : Fin 9, tokSem j = tokSem j' → j = j' := by decide

omit [FloatOps F] in
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective j j' h2]

/-- Every device's nine duty tokens. -/
def allToks : Finset (GSem nD τ sig × ℕ × Fin 3) := Finset.univ.map ⟨tokOf, tokOf_injective⟩

/-- The launch element: the pipeline's own, and the protocol's cells and tokens. -/
def u₀ : UU :=
  (initOf (Pipeline.cells cfgs cellOf_inj) (Pipeline.launchToks cfgs cellOf_inj), initOf allCells allToks)

/-- The duty tokens of device `c`'s own cells, as minted. -/
def ownToks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`: its seven cells' round states, its positions and round marks on them,
    and its own cells' tokens. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ ownToks c)

/-- What the global step makes of it: the ghost state the body starts from, at some names. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element is every device's share `G`. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- A device's seven counters at zero and its cells' round states make the seven invariants, each at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k : Fin 7 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records every device reads, and what stays with each -/

/-- Every cell's invariant under the names `K`, and that round 0 of every cell is reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_send (K : Dev nD × Fin 7 → ℕ) (c : Dev nD) (d : Fin 3) :
    (bigSep Finset.univ fun ck : Dev nD × Fin 7 => (cellInv ER (sched m ρ) (K ck) (kcell ck) : sProp 𝕄)) ⊢ cellInv ER (sched m ρ) (K (c, iS d)) (sendCell c d) := by
  have h := inv_at m ρ K (c, iS d); rw [kcell_iS] at h; exact h
theorem inv_recv (K : Dev nD × Fin 7 → ℕ) (c : Dev nD) (d : Fin 3) :
    (bigSep Finset.univ fun ck : Dev nD × Fin 7 => (cellInv ER (sched m ρ) (K ck) (kcell ck) : sProp 𝕄)) ⊢ cellInv ER (sched m ρ) (K (c, iR d)) (recvCell c d) := by
  have h := inv_at m ρ K (c, iR d); rw [kcell_iR] at h; exact h
omit [FloatOps F] in
theorem reached_send (c : Dev nD) (d : Fin 3) :
    (bigSep Finset.univ fun ck : Dev nD × Fin 7 => (reached ER (kcell ck) 0 : sProp 𝕄)) ⊢ reached ER (sendCell c d) 0 := by
  have h := reached_at (F := F) (c, iS d); rw [kcell_iS] at h; exact h
omit [FloatOps F] in
theorem reached_recv (c : Dev nD) (d : Fin 3) :
    (bigSep Finset.univ fun ck : Dev nD × Fin 7 => (reached ER (kcell ck) 0 : sProp 𝕄)) ⊢ reached ER (recvCell c d) 0 := by
  have h := reached_at (F := F) (c, iR d); rw [kcell_iR] at h; exact h

/-- From the records: the four invariants copy `d` of device `c` opens; -/
theorem invsD_intro (K : Dev nD × Fin 7 → ℕ) (c : Dev nD) (d : Fin 3) : records m ρ K ⊢ invsD m ρ K c d := by
  unfold records invsD
  iintro ⟨#HI, -⟩
  isplitr; · iapply (inv_send m ρ K c d); iexact HI
  isplitr; · iapply (inv_recv m ρ K c d); iexact HI
  isplitr; · iapply (inv_at m ρ K (peer d c, 0)); iexact HI
  iapply (inv_recv m ρ K (peer d c) d); iexact HI

/-- and the four round marks it shows. -/
theorem marksD_intro (K : Dev nD × Fin 7 → ℕ) (c : Dev nD) (d : Fin 3) : records m ρ K ⊢ marksD (F := F) c d := by
  unfold records marksD
  iintro ⟨-, #HR⟩
  isplitr; · iapply (reached_at (F := F) (peer d c, 0)); iexact HR
  isplitr; · iapply (reached_recv (F := F) (peer d c) d); iexact HR
  isplitr; · iapply (reached_send (F := F) c d); iexact HR
  iapply (reached_recv (F := F) c d); iexact HR

/-- The tokens of the duties device `c` pays. -/
def payToks (c : Dev nD) : sProp 𝕄 := iprop(toksD c 0 ∗ toksD c 1 ∗ toksD c 2)
/-- What stays with device `c`: its positions on its own seven cells, and those tokens. -/
def linear (c : Dev nD) : sProp 𝕄 :=
  iprop((atPos ER (barCell c) 0 ∅ 0 ∗ posD c 0 ∗ posD c 1 ∗ posD c 2) ∗ payToks c)

theorem ghost_intro (K : Dev nD × Fin 7 → ℕ) (c : Dev nD) : iprop(records m ρ K ∗ linear c) ⊢ G' m ρ c := by
  unfold linear payToks G' ghost invs
  iintro ⟨#HR, Hpos, Htok⟩
  iexists K
  isplitr
  · isplitr
    · unfold records; icases HR with ⟨#HI, -⟩; iapply (inv_at m ρ K (c, 0)); iexact HI
    isplitr; · iapply (invsD_intro m ρ K c 0); iexact HR
    isplitr; · iapply (invsD_intro m ρ K c 1); iexact HR
    iapply (invsD_intro m ρ K c 2); iexact HR
  isplitl [Hpos]; · iexact Hpos
  isplitr
  · isplitr; · iapply (marksD_intro m ρ K c 0); iexact HR
    isplitr; · iapply (marksD_intro m ρ K c 1); iexact HR
    iapply (marksD_intro m ρ K c 2); iexact HR
  iexact Htok

/-! ## The tokens dealt around the cycle -/

omit [FloatOps F] in
/-- Going `d + 1` places on is a rotation of the four devices; going `(2 - d) + 1` places on undoes it. -/
def peerEquiv (d : Fin 3) : Dev nD ≃ Dev nD := ⟨peer d, peer d.rev, peer_rev d, peer_rev' d⟩

omit [FloatOps F] in
/-- A barrier cell's token for duty `e` goes to the device `e + 1` places on, which sees that cell `(2 - e) + 1` places
    on from itself; a receive cell's token goes to the device that copies into it; a send cell's token stays. -/
theorem toks_around : (bigSep Finset.univ fun c : Dev nD => (ownToks c : sProp 𝕄)) ⊢ bigSep Finset.univ fun c : Dev nD => payToks c := by
  unfold ownToks payToks toksD
  simp only [bigSep_sep']
  rw [bigSep_univ_equiv (peerEquiv 2) (fun c : Dev nD => (dutyTok ER (barCell c) 0 0 : sProp 𝕄)),
    bigSep_univ_equiv (peerEquiv 1) (fun c : Dev nD => (dutyTok ER (barCell c) 0 1 : sProp 𝕄)),
    bigSep_univ_equiv (peerEquiv 0) (fun c : Dev nD => (dutyTok ER (barCell c) 0 2 : sProp 𝕄)),
    bigSep_univ_equiv (peerEquiv 0) (fun c : Dev nD => (dutyTok ER (recvCell c 0) 0 0 : sProp 𝕄)),
    bigSep_univ_equiv (peerEquiv 1) (fun c : Dev nD => (dutyTok ER (recvCell c 1) 0 0 : sProp 𝕄)),
    bigSep_univ_equiv (peerEquiv 2) (fun c : Dev nD => (dutyTok ER (recvCell c 2) 0 0 : sProp 𝕄))]
  iintro ⟨B0, B1, B2, S0, S1, S2, R0, R1, R2⟩
  isplitl [B2 R0 S0]
  · isplitl [B2]; · iexact B2
    isplitl [R0]; · iexact R0
    iexact S0
  isplitl [B1 R1 S1]
  · isplitl [B1]; · iexact B1
    isplitl [R1]; · iexact R1
    iexact S1
  isplitl [B0]; · iexact B0
  isplitl [R2]; · iexact R2
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Fin 7 => (atPos ER (kcell (c, k)) 0 ∅ 0 : sProp 𝕄)) ∗ payToks c) ⊢ linear c := by
  unfold linear posD; rw [bigSep_fin7]
  iintro ⟨⟨H0, H1, H2, H3, H4, H5, H6⟩, Ht⟩
  isplitl [H0 H1 H2 H3 H4 H5 H6]
  · isplitl [H0]; · iexact H0
    isplitl [H1 H4]
    · isplitl [H1]; · iexact H1
      iexact H4
    isplitl [H2 H5]
    · isplitl [H2]; · iexact H2
      iexact H5
    isplitl [H3]; · iexact H3
    iexact H6
  iexact Ht

/-- Every device's allocated invariants, positions, marks and minted tokens, regrouped as every device's ghost state. -/
theorem regroup :
    (bigSep Finset.univ fun c : Dev nD => iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => linear_intro (F := F) c))
    isplitl [Hat]; · iexact Hat
    iexact Htk

/-- The global step: every device's own and unscoped semaphores at zero, with its share of the launch element, make
    every device's ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing one unit to the barrier cell of the device `e + 1` places on, each device is dealt that unit's
    credit on its own barrier cell; -/
theorem cred_bar (c : Dev nD) (e : Fin 3) :
    (Pipeline.launchCred (fun d => Bt d e) c : sProp 𝕄) ⊢ cred (tallyAt (barCell c) () 1) :=
  Pipeline.launchCred_tallyAt (.reg barS) (peer e) (peer e.rev) (peer_rev' e) (peer_rev e) () 1 c
omit [FloatOps F] in
/-- and likewise one slot's credit on its receive cell `e`, from the device that copies into it. -/
theorem cred_recv (c : Dev nD) (e : Fin 3) :
    (Pipeline.launchCred (fun d => Rt d e) c : sProp 𝕄) ⊢ cred (tallyAt (recvCell c e) () N) :=
  Pipeline.launchCred_tallyAt (.dma (recvS e)) (peer e) (peer e.rev) (peer_rev' e) (peer_rev e) () N c

omit [FloatOps F] in
/-- What a device is owed at launch: three units on its barrier cell, one slot's credit on each receive cell. -/
theorem creds (c : Dev nD) :
    (Pipeline.launchCred O₀ c : sProp 𝕄) ⊢ iprop(cred (tallyAt (barCell c) () 3)
      ∗ cred (tallyAt (recvCell c 0) () N) ∗ cred (tallyAt (recvCell c 1) () N) ∗ cred (tallyAt (recvCell c 2) () N)) := by
  have h0 : (Pipeline.launchCred O₀ c : sProp 𝕄)
      = iprop(Pipeline.launchCred (fun d => (OR d + Bt d 2) + Bt d 1) c ∗ Pipeline.launchCred (fun d => Bt d 0) c) :=
    Pipeline.launchCred_add (fun d => (OR d + Bt d 2) + Bt d 1) (fun d => Bt d 0) c
  have h1 : (Pipeline.launchCred (fun d => (OR d + Bt d 2) + Bt d 1) c : sProp 𝕄)
      = iprop(Pipeline.launchCred (fun d => OR d + Bt d 2) c ∗ Pipeline.launchCred (fun d => Bt d 1) c) :=
    Pipeline.launchCred_add (fun d => OR d + Bt d 2) (fun d => Bt d 1) c
  have h2 : (Pipeline.launchCred (fun d => OR d + Bt d 2) c : sProp 𝕄)
      = iprop(Pipeline.launchCred OR c ∗ Pipeline.launchCred (fun d => Bt d 2) c) :=
    Pipeline.launchCred_add OR (fun d => Bt d 2) c
  have h3 : (Pipeline.launchCred OR c : sProp 𝕄)
      = iprop(Pipeline.launchCred (fun d => Rt d 2 + Rt d 1) c ∗ Pipeline.launchCred (fun d => Rt d 0) c) :=
    Pipeline.launchCred_add (fun d => Rt d 2 + Rt d 1) (fun d => Rt d 0) c
  have h4 : (Pipeline.launchCred (fun d => Rt d 2 + Rt d 1) c : sProp 𝕄)
      = iprop(Pipeline.launchCred (fun d => Rt d 2) c ∗ Pipeline.launchCred (fun d => Rt d 1) c) :=
    Pipeline.launchCred_add (fun d => Rt d 2) (fun d => Rt d 1) c
  have h3' : (tallyAt (barCell c) () 3 : CellTallies nD τ sig Unit)
      = tallyAt (barCell c) () 1 + (tallyAt (barCell c) () 1 + tallyAt (barCell c) () 1) := by
    rw [tallyAt_add, tallyAt_add]
  rw [h0, h1, h2, h3, h4, h3']
  iintro ⟨⟨⟨⟨⟨R2, R1⟩, R0⟩, B2⟩, B1⟩, B0⟩
  ihave C0 := (cred_bar (F := F) c 0) $$ B0
  ihave C1 := (cred_bar (F := F) c 1) $$ B1
  ihave C2 := (cred_bar (F := F) c 2) $$ B2
  ihave D0 := (cred_recv (F := F) c 0) $$ R0
  ihave D1 := (cred_recv (F := F) c 1) $$ R1
  ihave D2 := (cred_recv (F := F) c 2) $$ R2
  isplitl [C0 C1 C2]
  · iapply (cred_add _ _).2
    isplitl [C0]; · iexact C0
    iapply (cred_add _ _).2
    isplitl [C1]; · iexact C1
    iexact C2
  isplitl [D0]; · iexact D0
  isplitl [D1]; · iexact D1
  iexact D2

/-! ## The launch theorem's side conditions -/

/-- What a device's body starts from, out of what the launch hands its core. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0 HN1 HN2]
    · isplitl [HN0]; · iexact HN0
      isplitl [HN1]; · iexact HN1
      iexact HN2
    iexact Hlev
  · iempintro

/-- Before the one grid point: the start, and the scratch buffer whole at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After it: the six own semaphores back at zero, the scratch buffer whole again. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, S0, S1, S2, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1]; · iexact R1
    iexact R2
  iexists (scrFinal m ρ c); iexact Hr

/-- The pipeline's own waits, on its staging semaphores, stand below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of four devices, for any float values, from any memory with zero counters, given each device's body
    proved from its start: every weakly fair execution of the four devices — each signalling its three peers, waiting
    for their three signals, copying its column sums to them and waiting for its six transfers — terminates, and in
    every final state each device's argument and result arrays hold what the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's value: its one block is the whole array, written back at the one
    grid point with what the body left in the staging buffer. -/
theorem finalA_out (c : Dev nD) : finalA m ρ c (1 : Fin 2) = outAt m ρ c := by
  unfold finalA
  show (dats m ρ 0 c).arrAt (1 : Fin 2) ((t₀ : Fin cfg0.N).val + 1) = _
  rw [Dat.arrAt_succ, flush0_1, if_pos rfl]
  exact Memref.write_access_unit_zero_univ (Elt F) main_v1 (off := fun a => (cfg0.win 1).index t₀ a * (cfg0.win 1).size a)
    (funext fun a => Nat.zero_mul _) _ _ _

/-- info: 'Cert.KernelIdeal.AllReduce.run_main' depends on axioms: [propext, Classical.choice, Quot.sound] -/
#guard_msgs in #print axioms run_main

end Cert.KernelIdeal.AllReduce

end
-- ==== Proof.Word.Mesh.lean ====
/-
  The mesh of four devices as a cycle: `pr k c` is the device `k` places after `c`. The kernel addresses its
  three peers as `(c + k) % 4`, `k = 1, 2, 3`, once for the entry signals and once for the copies; each printed
  device chain is that rotation, decided over the four devices.
-/
import proofs.«901079_g7700000000001080_dist_sum_ax0_shard0_i_m1536_n768_v7x_i4_bf16_1_alg».proof.Proof.Gen.Kernel

namespace Cert.Kernel.AllReduce

open Idealize.ShloMosaic Cert.Kernel Cert.Kernel.Gen

/-- The device `k` places after `c` on the cycle of four. -/
def pr (k : ℕ) (c : Dev nD) : Dev nD := ⟨(c.val + k) % 4, Nat.mod_lt _ (by decide)⟩

theorem pr_pr_1_3 (c : Dev nD) : pr 1 (pr 3 c) = c := by revert c; decide
theorem pr_pr_3_1 (c : Dev nD) : pr 3 (pr 1 c) = c := by revert c; decide
theorem pr_pr_2_2 (c : Dev nD) : pr 2 (pr 2 c) = c := by revert c; decide

theorem k0_dev1_eq (c : Dev nD) : k0_dev1 c = (pr 1 c).val := by revert c; decide +kernel
theorem k0_dev2_eq (c : Dev nD) : k0_dev2 c = (pr 2 c).val := by revert c; decide +kernel
theorem k0_dev3_eq (c : Dev nD) : k0_dev3 c = (pr 3 c).val := by revert c; decide +kernel
theorem k0_dev4_eq (c : Dev nD) : k0_dev4 c = (pr 1 c).val := by revert c; decide +kernel
theorem k0_dev5_eq (c : Dev nD) : k0_dev5 c = (pr 2 c).val := by revert c; decide +kernel
theorem k0_dev6_eq (c : Dev nD) : k0_dev6 c = (pr 3 c).val := by revert c; decide +kernel

/-- The three entry signals name the devices one, two and three places on; so do the three copies. -/
theorem dev1_eq (c : Dev nD) : (⟨k0_dev1 c, k0_dev1_lt c⟩ : Dev nD) = pr 1 c := Fin.ext (k0_dev1_eq c)
theorem dev2_eq (c : Dev nD) : (⟨k0_dev2 c, k0_dev2_lt c⟩ : Dev nD) = pr 2 c := Fin.ext (k0_dev2_eq c)
theorem dev3_eq (c : Dev nD) : (⟨k0_dev3 c, k0_dev3_lt c⟩ : Dev nD) = pr 3 c := Fin.ext (k0_dev3_eq c)
theorem dev4_eq (c : Dev nD) : (⟨k0_dev4 c, k0_dev4_lt c⟩ : Dev nD) = pr 1 c := Fin.ext (k0_dev4_eq c)
theorem dev5_eq (c : Dev nD) : (⟨k0_dev5 c, k0_dev5_lt c⟩ : Dev nD) = pr 2 c := Fin.ext (k0_dev5_eq c)
theorem dev6_eq (c : Dev nD) : (⟨k0_dev6 c, k0_dev6_lt c⟩ : Dev nD) = pr 3 c := Fin.ext (k0_dev6_eq c)

end Cert.Kernel.AllReduce
-- ==== Proof.Word.Slots.lean ====
/-
  The all-reduce over four devices: every device sums its block of rows into slot 0 of a four-slot scratch, hands
  slot 0 to slot `k` of the device `k` places on (`k = 1, 2, 3`), and adds the four slots. This module names the
  memory the protocol moves (the four slots as regions of the scratch buffer, the six transfer semaphores and the
  barrier semaphore as cells) and the contents every slot ends at: slot `k` of device `c` holds the column sums of
  the block of the device `k` places before `c`.
-/
import proofs.«901079_g7700000000001080_dist_sum_ax0_shard0_i_m1536_n768_v7x_i4_bf16_1_alg».proof.Proof.Word.Mesh
import proofs.«901079_g7700000000001080_dist_sum_ax0_shard0_i_m1536_n768_v7x_i4_bf16_1_alg».proof.Proof.Gen.Kernel.Skeleton
import proofs.«901079_g7700000000001080_dist_sum_ax0_shard0_i_m1536_n768_v7x_i4_bf16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The memrefs: the two staged windows, the scratch and its four slots -/

abbrev xM : Memref sig .tc .vmem S1536x768 .f32 := Memref.whole cc0_stg0_0
abbrev oM : Memref sig .tc .vmem S1x768 .f32 := Memref.whole cc0_stg1_0
abbrev scM : Memref sig .tc .vmem S4x1x768 .f32 := Memref.whole cc0_scratch0

/-- Slot `k` of the scratch as a rectangle: row `k` of the first axis, everything of the other two. -/
theorem rc_inb (k : Fin 4) : ∀ a, (![k.val, 0, 0] : Fin 3 → Nat) a + S1x1x768.size a ≤ S4x1x768.size a := by
  revert k; decide
abbrev rc (k : Fin 4) : Rect S4x1x768 := Rect.unit (s := S4x1x768) ![k.val, 0, 0] S1x1x768.size (rc_inb k)

/-- Slot `k` as the kernel's copies name it: the slice, with the unit axis squeezed away. -/
abbrev slotM (k : Fin 4) : Memref sig .tc .vmem S1x768 .f32 :=
  ((scM : Memref sig .tc .vmem S4x1x768 .f32).slice (rc k) (fun _ => rfl)).squeeze S1x768 squeezes_S1x1x768_S1x768

/-- Slot `k` as the kernel's loads and its one store go through it. -/
abbrev sv (k : Fin 4) : View sig .tc .vmem (rc k).shape .f32 := (scM : Memref sig .tc .vmem S4x1x768 .f32).access (rc k)

/-- The elements of the scratch buffer under slot `k`. -/
abbrev slotSet (k : Fin 4) : Finset (cc0_scratch0 : Ref sig .tc).ty.Idx := (slotM k).view.set

omit [FloatOps F] in
theorem slotSet_eq_rect (k : Fin 4) : slotSet k = (rc k).set := by
  exact (View.set_reshape ((View.whole cc0_scratch0).slice (rc k)) _).trans (View.set_slice_whole _ _)

omit [FloatOps F] in
theorem slotSet_eq_sv (k : Fin 4) : slotSet k = (sv k).set := by
  rw [slotSet_eq_rect]; exact (View.set_slice_whole _ _).symm

omit [FloatOps F] in
/-- Two different slots share no element: they lie in different rows of the first axis. -/
theorem slot_disjoint {j k : Fin 4} (h : j ≠ k) : Disjoint (slotSet j) (slotSet k) := by
  rw [slotSet_eq_rect j, slotSet_eq_rect k]
  refine Rect.unit_disjoint (0 : Fin 3) ?_
  have : j.val ≠ k.val := fun e => h (Fin.ext e)
  show j.val + 1 ≤ k.val ∨ k.val + 1 ≤ j.val
  omega

/-! ## The semaphores and cells -/

/-- The barrier semaphore of the collective, the three send and the three receive transfer semaphores. -/
abbrev barS : Sem sig := (SemArray.scalar (sig.barrier 0 rfl) : Sems sig S_).sem
abbrev sendS : Fin 3 → DmaSem sig
  | 0 => (((cc0_scratch1 : DmaSems sig S3).slice (Rect.unit (s := S3) ![0] S1.size inb_S3_S1_0)).squeeze S_ squeezes_S1_S_).sem
  | 1 => (((cc0_scratch1 : DmaSems sig S3).slice (Rect.unit (s := S3) ![1] S1.size inb_S3_S1_1)).squeeze S_ squeezes_S1_S_).sem
  | 2 => (((cc0_scratch1 : DmaSems sig S3).slice (Rect.unit (s := S3) ![2] S1.size inb_S3_S1_2)).squeeze S_ squeezes_S1_S_).sem
abbrev recvS : Fin 3 → DmaSem sig
  | 0 => (((cc0_scratch2 : DmaSems sig S3).slice (Rect.unit (s := S3) ![0] S1.size inb_S3_S1_0)).squeeze S_ squeezes_S1_S_).sem
  | 1 => (((cc0_scratch2 : DmaSems sig S3).slice (Rect.unit (s := S3) ![1] S1.size inb_S3_S1_1)).squeeze S_ squeezes_S1_S_).sem
  | 2 => (((cc0_scratch2 : DmaSems sig S3).slice (Rect.unit (s := S3) ![2] S1.size inb_S3_S1_2)).squeeze S_ squeezes_S1_S_).sem

omit [FloatOps F] in
theorem sendS_val (k : Fin 3) : (sendS k).val = 2 + k.val := by fin_cases k <;> rfl
omit [FloatOps F] in
theorem recvS_val (k : Fin 3) : (recvS k).val = 5 + k.val := by fin_cases k <;> rfl

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- The slot a transfer on semaphore pair `k` lands in: `k + 1`. -/
abbrev slotOf (k : Fin 3) : Fin 4 := k.succ

/-- The credit of one slot's transfer. -/
abbrev N : ℕ := (slotM 0 : Memref sig .tc .vmem S1x768 .f32).view.dmaCredit
omit [FloatOps F] in
theorem N_pos : 0 < N := View.dmaCredit_pos _ (by decide)

/-! ## Contents -/

/-- Device `c`'s block of rows, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- The column sums of device `c`'s block: what its one store puts in slot 0. -/
def part (c : Dev nD) : (rc 0).shape.Idx → Elt F .f32 := k0_pay2 (xstg m ρ c)

/-- The device whose column sums slot `k` of device `c` ends holding: `k` places before `c`. -/
def src (k : Fin 4) (c : Dev nD) : Dev nD := pr (4 - k.val) c

omit [FloatOps F] in
theorem src_zero (c : Dev nD) : src 0 c = c := by revert c; decide
omit [FloatOps F] in
theorem src_pr (k : Fin 3) (c : Dev nD) : src (slotOf k) (pr (k.val + 1) c) = c := by revert c; revert k; decide

/-- The scratch buffer of device `c` with every slot at its final contents (written slot by slot over what the
    buffer held at launch, all of which the four slots cover). -/
def scrFinal (c : Dev nD) : (cc0_scratch0 : Ref sig .tc).ty.Contents (Elt F) :=
  (sv 3).write (Elt F) ((sv 2).write (Elt F) ((sv 1).write (Elt F) ((sv 0).write (Elt F)
    (m ((c : Thread nD τ).loc cc0_scratch0)) (part m ρ (src 0 c)) Finset.univ) (part m ρ (src 1 c)) Finset.univ)
    (part m ρ (src 2 c)) Finset.univ) (part m ρ (src 3 c)) Finset.univ

omit [FloatOps F] in
theorem sv_disjoint {j k : Fin 4} (h : j ≠ k) : Disjoint (sv j).set ((sv k).setOn Finset.univ) := by
  rw [View.setOn_univ, ← slotSet_eq_sv, ← slotSet_eq_sv]; exact slot_disjoint h

/-- Slot `k` of the final scratch holds the column sums of the device `k` places before. -/
theorem read_scrFinal (c : Dev nD) (k : Fin 4) : (sv k).read (Elt F) (scrFinal m ρ c) = part m ρ (src k c) := by
  unfold scrFinal
  fin_cases k
  · show (sv 0).read _ _ = _
    rw [View.read_slice_write_slice_of_disjoint _ _ _ _ _ (sv_disjoint (by decide)),
      View.read_slice_write_slice_of_disjoint _ _ _ _ _ (sv_disjoint (by decide)),
      View.read_slice_write_slice_of_disjoint _ _ _ _ _ (sv_disjoint (by decide)), View.read_write_univ]
    rfl
  · show (sv 1).read _ _ = _
    rw [View.read_slice_write_slice_of_disjoint _ _ _ _ _ (sv_disjoint (by decide)),
      View.read_slice_write_slice_of_disjoint _ _ _ _ _ (sv_disjoint (by decide)), View.read_write_univ]
    rfl
  · show (sv 2).read _ _ = _
    rw [View.read_slice_write_slice_of_disjoint _ _ _ _ _ (sv_disjoint (by decide)), View.read_write_univ]
    rfl
  · show (sv 3).read _ _ = _
    rw [View.read_write_univ]
    rfl

omit [FloatOps F] in
/-- Contents that a view reads the same agree on every element under the view. -/
theorem eq_on_set_of_read_eq {sp : Space} {s : Shape} {e : EltTy} (v : View sig .tc sp s e) (f g : v.ty.Contents (Elt F))
    (h : v.read (Elt F) f = v.read (Elt F) g) : ∀ i ∈ v.set, f i = g i := by
  intro i hi
  obtain ⟨y, rfl⟩ := View.exists_emb_of_mem_set v hi
  have := congrFun h y
  rw [View.read_apply, View.read_apply] at this
  exact (cast_bijective _).injective this

end Cert.Kernel.AllReduce

end
-- ==== Proof.Word.SlotsSep.lean ====
/-
  The protocol of the all-reduce as one round per cell. A device's barrier cell has three unit duties, one per peer:
  the peer `k` places on pays duty `k - 1` with its entry signal and hands over ITS slot `k` (the slot this device
  will write there) with the fact that its receive cell for that slot is open. A send cell's one duty gives back the
  share of slot 0 its copy was reading; a receive cell's one duty delivers the slot the copy filled, at the column
  sums of the sender's block. What a device owes at launch — three barrier units and three slots' credit — and
  the levels that order the waits (barrier below receive) follow.
-/
import proofs.«901079_g7700000000001080_dist_sum_ax0_shard0_i_m1536_n768_v7x_i4_bf16_1_alg».proof.Proof.Word.Slots

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots as assertions -/

/-- Share `q` of slot `k` of device `c`'s scratch, holding `f` there. -/
def slotPts (c : Dev nD) (k : Fin 4) (q : PosShare TreeShare) (f : Buf (Elt F) ((slotM k).view.loc (c : Thread nD τ))) : sProp 𝕄 :=
  (slotM k).view.loc (c : Thread nD τ) ↦[(slotM k).view.set]{q} f

/-- The three shares slot 0 is read at by the three copies in flight at once: a half and two quarters. -/
def shr : Fin 3 → PosShare TreeShare
  | 0 => fullShare.left
  | 1 => fullShare.right.left
  | 2 => fullShare.right.right

omit [FloatOps F] in
instance slotPts_storable (c : Dev nD) (k : Fin 4) (q) (f) : BI.Storable (upEmb : UEmb _ 𝕄) (slotPts (F := F) c k q f) := by
  unfold slotPts; infer_instance

omit [FloatOps F] in
/-- Slot 0 at the full share is its three reading shares. -/
theorem slot0_shares (c : Dev nD) (f) :
    (slotPts (F := F) c 0 fullShare f) ⊣⊢ iprop(slotPts c 0 (shr 0) f ∗ slotPts c 0 (shr 1) f ∗ slotPts c 0 (shr 2) f) := by
  unfold slotPts shr
  refine (pointsTo_share (PosShare.mem_left_op_right fullShare)).trans ?_
  exact ⟨sep_mono_right (pointsTo_share (PosShare.mem_left_op_right fullShare.right)).1,
    sep_mono_right (pointsTo_share (PosShare.mem_left_op_right fullShare.right)).2⟩

omit [FloatOps F] in
/-- An element of the scratch lies in the slot its first coordinate names. -/
theorem mem_slotSet {k : Fin 4} {i : (cc0_scratch0 : Ref sig .tc).ty.Idx} : i ∈ slotSet k ↔ (i (0 : Fin 3)).val = k.val := by
  rw [slotSet_eq_rect, Rect.mem_set_unit]
  constructor
  · intro h; have := h (0 : Fin 3); simp only [Matrix.cons_val_zero] at this
    have hs : S1x1x768.size (0 : Fin 3) = 1 := rfl
    omega
  · intro h a
    fin_cases a
    · simp only [Fin.zero_eta, Matrix.cons_val_zero]; have hs : S1x1x768.size (0 : Fin 3) = 1 := rfl; omega
    · have h1 : (i (1 : Fin 3)).val < 1 := (i (1 : Fin 3)).isLt
      show (0 : ℕ) ≤ (i (1 : Fin 3)).val ∧ (i (1 : Fin 3)).val < 0 + 1
      omega
    · have h2 : (i (2 : Fin 3)).val < 768 := (i (2 : Fin 3)).isLt
      show (0 : ℕ) ≤ (i (2 : Fin 3)).val ∧ (i (2 : Fin 3)).val < 0 + 768
      omega

omit [FloatOps F] in
/-- The four slots cover the scratch. -/
theorem slots_cover : (Finset.univ : Finset (cc0_scratch0 : Ref sig .tc).ty.Idx) = ((slotSet 0 ∪ slotSet 1) ∪ slotSet 2) ∪ slotSet 3 := by
  ext i
  simp only [Finset.mem_univ, Finset.mem_union, mem_slotSet, true_iff]
  have h0 : (i (0 : Fin 3)).val < 4 := (i (0 : Fin 3)).isLt
  show (((i (0 : Fin 3)).val = 0 ∨ (i (0 : Fin 3)).val = 1) ∨ (i (0 : Fin 3)).val = 2) ∨ (i (0 : Fin 3)).val = 3
  omega

omit [FloatOps F] in
/-- The whole scratch at `f` is its four slots at `f`. -/
theorem scr_slots (c : Dev nD) (f : Buf (Elt F) ((c : Thread nD τ).loc cc0_scratch0)) :
    ((((c : Thread nD τ).loc cc0_scratch0) ↦{fullShare} f : sProp 𝕄))
      ⊣⊢ iprop(slotPts c 0 fullShare f ∗ slotPts c 1 fullShare f ∗ slotPts c 2 fullShare f ∗ slotPts c 3 fullShare f) := by
  unfold slotPts
  show ((((c : Thread nD τ).loc cc0_scratch0) ↦[Finset.univ]{fullShare} f : sProp 𝕄)) ⊣⊢
    iprop((((c : Thread nD τ).loc cc0_scratch0) ↦[slotSet 0]{fullShare} f) ∗ (((c : Thread nD τ).loc cc0_scratch0) ↦[slotSet 1]{fullShare} f)
      ∗ (((c : Thread nD τ).loc cc0_scratch0) ↦[slotSet 2]{fullShare} f) ∗ (((c : Thread nD τ).loc cc0_scratch0) ↦[slotSet 3]{fullShare} f))
  rw [slots_cover]
  have d3 : Disjoint ((slotSet 0 ∪ slotSet 1) ∪ slotSet 2) (slotSet 3) :=
    Finset.disjoint_union_left.mpr ⟨Finset.disjoint_union_left.mpr ⟨slot_disjoint (by decide), slot_disjoint (by decide)⟩, slot_disjoint (by decide)⟩
  have d2 : Disjoint (slotSet 0 ∪ slotSet 1) (slotSet 2) :=
    Finset.disjoint_union_left.mpr ⟨slot_disjoint (by decide), slot_disjoint (by decide)⟩
  have d1 : Disjoint (slotSet 0) (slotSet 1) := slot_disjoint (by decide)
  refine (pointsTo_union d3).trans ?_
  refine (BIBase.BiEntails.trans (sep_congr_left ((pointsTo_union d2).trans (sep_congr_left (pointsTo_union d1)))) ?_)
  exact ⟨by iintro ⟨⟨⟨H0, H1⟩, H2⟩, H3⟩; isplitl [H0]; · iexact H0
            isplitl [H1]; · iexact H1
            isplitl [H2]; · iexact H2
            iexact H3,
         by iintro ⟨H0, H1, H2, H3⟩; isplitl [H0 H1 H2]
            · isplitl [H0 H1]
              · isplitl [H0]; · iexact H0
                iexact H1
              · iexact H2
            · iexact H3⟩

end Cert.Kernel.AllReduce

end
-- ==== Proof.Word.Sched.lean ====
/-
  The protocol of the all-reduce as one round per cell. A device's barrier cell has three unit duties, one per peer:
  duty `d` is paid by the device `d + 1` places on, with its entry signal, and hands over THAT device's slot
  `d + 1` (the slot this device will fill there) with the fact that its receive cell for that slot is open. A send
  cell's one duty gives back the share of slot 0 its copy was reading; a receive cell's one duty delivers the slot the
  copy filled, at the column sums of the sender's block. What a device owes at launch — three barrier units and
  three slots' credit — and the levels that order the waits (barrier below receive) follow.
-/
import proofs.«901079_g7700000000001080_dist_sum_ax0_shard0_i_m1536_n768_v7x_i4_bf16_1_alg».proof.Proof.Word.SlotsSep

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- The peer that pays duty `d` of a device's barrier cell, and that the device's copy number `d` goes to. -/
abbrev peer (d : Fin 3) (c : Dev nD) : Dev nD := pr (d.val + 1) c

/-- Going `d + 1` places on and then `(2 - d) + 1` places on comes back. -/
theorem peer_rev (d : Fin 3) (c : Dev nD) : peer d.rev (peer d c) = c := by revert c; revert d; decide
theorem peer_rev' (d : Fin 3) (c : Dev nD) : peer d (peer d.rev c) = c := by revert c; revert d; decide
theorem src_peer (d : Fin 3) (c : Dev nD) : src (slotOf d) (peer d c) = c := by revert c; revert d; decide

/-- What the peer's entry signal hands device `c`: the peer's slot `d + 1`, at any contents, and that the peer's
    receive cell for it stands at round 0. -/
def barPay (c : Dev nD) (d : Fin 3) : sProp 𝕄 :=
  iprop((∃ f, slotPts (peer d c) (slotOf d) fullShare f) ∗ reached ER (recvCell (peer d c) d) 0)
/-- What a landed copy hands the receiver: its slot `d + 1` at the final contents. -/
def recvPay (c : Dev nD) (d : Fin 3) : sProp 𝕄 := slotPts c (slotOf d) fullShare (scrFinal m ρ c)
/-- What a copy that has read its source hands back: its share of slot 0. -/
def sendPay (c : Dev nD) (d : Fin 3) : sProp 𝕄 := slotPts c 0 (shr d) (scrFinal m ρ c)

abbrev IsBar (g : GSem nD τ sig) : Prop := g.1.2 = .tc ∧ g.2 = .reg barS
abbrev IsSend (sm : SemLoc sig) : Prop := sm = .dma (sendS 0) ∨ sm = .dma (sendS 1) ∨ sm = .dma (sendS 2)
abbrev IsRecv (sm : SemLoc sig) : Prop := sm = .dma (recvS 0) ∨ sm = .dma (recvS 1) ∨ sm = .dma (recvS 2)
abbrev IsXfer (g : GSem nD τ sig) : Prop := g.1.2 = .tc ∧ (IsSend g.2 ∨ IsRecv g.2)

/-- One round, round 0: a barrier cell has the three unit duties; a send or receive cell the duty `0` of one slot's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (sendS 0) then sendPay m ρ g.1.1 0
    else if g.2 = .dma (sendS 1) then sendPay m ρ g.1.1 1
    else if g.2 = .dma (sendS 2) then sendPay m ρ g.1.1 2
    else if g.2 = .dma (recvS 0) then recvPay m ρ g.1.1 0
    else if g.2 = .dma (recvS 1) then recvPay m ρ g.1.1 1
    else if g.2 = .dma (recvS 2) then recvPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (sendS 0) then sendPay m ρ g.1.1 0
    else if g.2 = .dma (sendS 1) then sendPay m ρ g.1.1 1
    else if g.2 = .dma (sendS 2) then sendPay m ρ g.1.1 2
    else if g.2 = .dma (recvS 0) then recvPay m ρ g.1.1 0
    else if g.2 = .dma (recvS 1) then recvPay m ρ g.1.1 1
    else if g.2 = .dma (recvS 2) then recvPay m ρ g.1.1 2
    else iprop(emp))
  unfold barPay recvPay sendPay
  (repeat' split) <;> infer_instance

section Tables
variable (c : Dev nD)

theorem dma_ne_bar (q : DmaSem sig) : (SemLoc.dma q : SemLoc sig) ≠ .reg barS := fun h => by cases h
theorem sendS_inj {d e : Fin 3} (h : (SemLoc.dma (sendS d) : SemLoc sig) = .dma (sendS e)) : d = e := by
  revert h; revert d e; decide
theorem recvS_inj {d e : Fin 3} (h : (SemLoc.dma (recvS d) : SemLoc sig) = .dma (recvS e)) : d = e := by
  revert h; revert d e; decide
theorem send_ne_recv (d e : Fin 3) : (SemLoc.dma (sendS d) : SemLoc sig) ≠ .dma (recvS e) := by revert d e; decide
theorem isSend_send (d : Fin 3) : IsSend (SemLoc.dma (sendS d) : SemLoc sig) := by revert d; decide
theorem isRecv_recv (d : Fin 3) : IsRecv (SemLoc.dma (recvS d) : SemLoc sig) := by revert d; decide
theorem not_isRecv_send (d : Fin 3) : ¬ IsRecv (SemLoc.dma (sendS d) : SemLoc sig) := by revert d; decide
theorem not_isRecv_bar : ¬ IsRecv (SemLoc.reg barS : SemLoc sig) := fun h => by rcases h with h | h | h <;> cases h

theorem duties_bar : (sched (F := F) m ρ).duties (barCell c) 0 = Finset.univ := by dsimp only [sched]; exact if_pos ⟨rfl, rfl, rfl⟩
theorem duties_send (d : Fin 3) : (sched (F := F) m ρ).duties (sendCell c d) 0 = {0} := by
  dsimp only [sched]; rw [if_neg (fun h => dma_ne_bar _ h.2.2)]; exact if_pos ⟨rfl, rfl, .inl (isSend_send d)⟩
theorem duties_recv (d : Fin 3) : (sched (F := F) m ρ).duties (recvCell c d) 0 = {0} := by
  dsimp only [sched]; rw [if_neg (fun h => dma_ne_bar _ h.2.2)]; exact if_pos ⟨rfl, rfl, .inr (isRecv_recv d)⟩
theorem duties_later (g : GSem nD τ sig) : ∀ r, 1 ≤ r → (sched (F := F) m ρ).duties g r = ∅ :=
  fun r hr => by dsimp only [sched]; rw [if_neg fun h => by omega, if_neg fun h => by omega]

theorem amount_bar (e : Fin 3) : (sched (F := F) m ρ).amount (barCell c) 0 e = 1 := by dsimp only [sched]; exact if_pos rfl
theorem amount_send (d e : Fin 3) : (sched (F := F) m ρ).amount (sendCell c d) 0 e = N := by dsimp only [sched]; exact if_neg (dma_ne_bar _)
theorem amount_recv (d e : Fin 3) : (sched (F := F) m ρ).amount (recvCell c d) 0 e = N := by dsimp only [sched]; exact if_neg (dma_ne_bar _)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (d : Fin 3) : (sched (F := F) m ρ).expect (sendCell c d) 0 = N := by
  unfold Schedule.expect Schedule.amountOf; rw [duties_send, Finset.sum_singleton, amount_send]
theorem expect_recv (d : Fin 3) : (sched (F := F) m ρ).expect (recvCell c d) 0 = N := by
  unfold Schedule.expect Schedule.amountOf; rw [duties_recv, Finset.sum_singleton, amount_recv]

theorem payload_bar (e : Fin 3) : (sched (F := F) m ρ).payload (barCell c) 0 e = barPay c e := by dsimp only [sched]; rw [if_pos rfl]
theorem payload_send (d e : Fin 3) : (sched (F := F) m ρ).payload (sendCell c d) 0 e = sendPay m ρ c d := by
  dsimp only [sched]; rw [if_neg (dma_ne_bar _)]
  fin_cases d
  · rw [if_pos rfl]; rfl
  · rw [if_neg (fun h => absurd (sendS_inj h) (by decide)), if_pos rfl]; rfl
  · rw [if_neg (fun h => absurd (sendS_inj h) (by decide)), if_neg (fun h => absurd (sendS_inj h) (by decide)), if_pos rfl]; rfl
theorem payload_recv (d e : Fin 3) : (sched (F := F) m ρ).payload (recvCell c d) 0 e = recvPay m ρ c d := by
  dsimp only [sched]; rw [if_neg (dma_ne_bar _), if_neg (send_ne_recv 0 d).symm, if_neg (send_ne_recv 1 d).symm, if_neg (send_ne_recv 2 d).symm]
  fin_cases d
  · rw [if_pos rfl]; rfl
  · rw [if_neg (fun h => absurd (recvS_inj h) (by decide)), if_pos rfl]; rfl
  · rw [if_neg (fun h => absurd (recvS_inj h) (by decide)), if_neg (fun h => absurd (recvS_inj h) (by decide)), if_pos rfl]; rfl

theorem bigSep_fin3 (Φ : Fin 3 → sProp 𝕄) : bigSep Finset.univ Φ = iprop(Φ 0 ∗ Φ 1 ∗ Φ 2) := bigSep_univ_eq_bigSepL [0, 1, 2] (by decide) (by decide) Φ

/-- The rest of the barrier cell's round, no duty taken: the three peers' payloads. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (d : Fin 3) : bigSep ((sched (F := F) m ρ).duties (sendCell c d) 0 \ ∅) (fun e => (sched (F := F) m ρ).payload (sendCell c d) 0 e) = sendPay m ρ c d := by
  rw [Finset.sdiff_empty, duties_send, bigSep_singleton, payload_send]
theorem rest_recv (d : Fin 3) : bigSep ((sched (F := F) m ρ).duties (recvCell c d) 0 \ ∅) (fun e => (sched (F := F) m ρ).payload (recvCell c d) 0 e) = recvPay m ρ c d := by
  rw [Finset.sdiff_empty, duties_recv, bigSep_singleton, payload_recv]

end Tables

end Cert.Kernel.AllReduce

end
-- ==== Proof.Word.Ghost.lean ====
/-
  What each device brings to the launch of the all-reduce and what its body starts from. A device owes its three
  peers' barrier cells a unit each and their receive cells a slot's credit each, summed in the order the program
  pays them. Barrier cells stand at level 1 and receive cells at level 2, everything else at 0: a device waits on its
  barrier owing only receive credit, and on its transfer semaphores owing nothing. The ghost state of a device lists
  the invariants of the thirteen cells its body touches, its positions on its own seven, the round marks and the
  nine duty tokens it pays with.
-/
import proofs.«901079_g7700000000001080_dist_sum_ax0_shard0_i_m1536_n768_v7x_i4_bf16_1_alg».proof.Proof.Word.Sched

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes at launch; the levels -/

/-- One unit to the barrier cell of the peer `d + 1` places on; one slot's credit to that peer's receive cell `d`. -/
abbrev Bt (c : Dev nD) (d : Fin 3) : CellTallies nD τ sig Unit := tallyAt (barCell (peer d c)) () 1
abbrev Rt (c : Dev nD) (d : Fin 3) : CellTallies nD τ sig Unit := tallyAt (recvCell (peer d c) d) () N

/-- Owed once the three signals are out: the three slots' credit (the first copy peels the last summand). -/
def OR (c : Dev nD) : CellTallies nD τ sig Unit := (Rt c 2 + Rt c 1) + Rt c 0
/-- Owed at launch (the first signal peels the last summand). -/
def O₀ (c : Dev nD) : CellTallies nD τ sig Unit := ((OR c + Bt c 2) + Bt c 1) + Bt c 0

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem OR_pos {c : Dev nD} {g : GSem nD τ sig} {u : Unit} (h : 0 < OR c g u) : ∃ d, g = recvCell (peer d c) d := by
  unfold OR at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ d, g = recvCell (peer d c) d) ∨ ∃ d, g = barCell (peer d c) := by
  unfold O₀ at h
  rw [Pi.add_apply, Finsupp.add_apply, Pi.add_apply, Finsupp.add_apply, Pi.add_apply, Finsupp.add_apply, tallyAt_apply, tallyAt_apply, tallyAt_apply] at h
  by_cases hr : 0 < OR c g u
  · exact Or.inl (OR_pos hr)
  · refine Or.inr ?_
    by_contra hn
    rw [not_exists] at hn
    rw [if_neg (fun h' => hn 2 h'.1), if_neg (fun h' => hn 1 h'.1), if_neg (fun h' => hn 0 h'.1)] at h
    omega

theorem lv_recv (c : Dev nD) (d : Fin 3) (u : Unit) : lv (recvCell c d) u = 2 := by
  dsimp only [lv]; rw [if_neg (dma_ne_bar _), if_pos (isRecv_recv d)]
theorem lv_bar (c : Dev nD) (u : Unit) : lv (barCell c) u = 1 := by dsimp only [lv]; rw [if_pos rfl]

/-- A wait on a semaphore that is no receive semaphore and not the barrier (a staging semaphore) is below all a device can owe. -/
theorem mayWait_stage (c : Dev nD) (q : DmaSem sig) (hq : ¬ IsRecv (SemLoc.dma q : SemLoc sig)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [if_neg (dma_ne_bar _), if_neg hq])
      (fun g u hg => by
        rcases O₀_pos hg with ⟨d, rfl⟩ | ⟨d, rfl⟩
        · rw [lv_recv]; decide
        · rw [lv_bar]; decide)
  · rw [MayWait_zero]; iintro -; iempintro

/-- At its barrier wait a device owes receive credit only: receive cells stand above barrier cells. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_of_eq (lv_bar c ()))
    (fun g u hg => by obtain ⟨d, rfl⟩ := OR_pos hg; rw [lv_recv]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: the four slots added pairwise, slot `k` the column sums of the device `k` places before. -/
def outAt (c : Dev nD) : (cc0_stg1_0 : Ref sig .tc).ty.Contents (Elt F) :=
  k0_pay1 (part m ρ (src 0 c)) (part m ρ (src 1 c)) (part m ρ (src 2 c)) (part m ρ (src 3 c))

/-- The seven cells of a device, as this proof indexes them: barrier, the three send, the three receive. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
abbrev iS (d : Fin 3) : Fin 7 := ⟨1 + d.val, by omega⟩
abbrev iR (d : Fin 3) : Fin 7 := ⟨4 + d.val, by omega⟩
/-- The kernel's own (scoped) semaphores, as the launch indexes them: the three send, the three receive. -/
abbrev osem : Fin 6 → SemLoc sig := fun
  | 0 => .dma (sendS 0) | 1 => .dma (sendS 1) | 2 => .dma (sendS 2) | 3 => .dma (recvS 0) | 4 => .dma (recvS 1) | 5 => .dma (recvS 2)

theorem kcell_iS (c : Dev nD) (d : Fin 3) : kcell (c, iS d) = sendCell c d := by fin_cases d <;> rfl
theorem kcell_iR (c : Dev nD) (d : Fin 3) : kcell (c, iR d) = recvCell c d := by fin_cases d <;> rfl

section GhostState
variable (K : Dev nD × Fin 7 → ℕ)

/-- The invariants copy `d` of device `c` opens: its send and receive cells, the peer's barrier and receive cells. -/
def invsD (c : Dev nD) (d : Fin 3) : sProp 𝕄 :=
  iprop(cellInv ER (sched m ρ) (K (c, iS d)) (sendCell c d) ∗ cellInv ER (sched m ρ) (K (c, iR d)) (recvCell c d)
    ∗ cellInv ER (sched m ρ) (K (peer d c, 0)) (barCell (peer d c)) ∗ cellInv ER (sched m ρ) (K (peer d c, iR d)) (recvCell (peer d c) d))
def invs (c : Dev nD) : sProp 𝕄 :=
  iprop(cellInv ER (sched m ρ) (K (c, 0)) (barCell c) ∗ invsD m ρ K c 0 ∗ invsD m ρ K c 1 ∗ invsD m ρ K c 2)

instance invsD_persistent (c : Dev nD) (d : Fin 3) : BI.Persistent (invsD m ρ K c d) := by unfold invsD; infer_instance
instance invs_persistent (c : Dev nD) : BI.Persistent (invs m ρ K c) := by unfold invs; infer_instance

/-- Its positions at round 0 of its own send and receive cell `d`. -/
def posD (c : Dev nD) (d : Fin 3) : sProp 𝕄 := iprop(atPos ER (sendCell c d) 0 ∅ 0 ∗ atPos ER (recvCell c d) 0 ∅ 0)
/-- The round marks it shows when it pays: the peer's barrier and receive cells, its own send and receive cells. -/
def marksD (c : Dev nD) (d : Fin 3) : sProp 𝕄 :=
  iprop(reached ER (barCell (peer d c)) 0 ∗ reached ER (recvCell (peer d c) d) 0 ∗ reached ER (sendCell c d) 0 ∗ reached ER (recvCell c d) 0)
/-- The tokens of the duties it pays towards the peer `d + 1` places on: that peer's barrier duty `2 - d` (this
    device is `(2 - d) + 1` places on from it), that peer's receive duty, and its own send duty. -/
def toksD (c : Dev nD) (d : Fin 3) : sProp 𝕄 :=
  iprop(dutyTok ER (barCell (peer d c)) 0 d.rev ∗ dutyTok ER (recvCell (peer d c) d) 0 0 ∗ dutyTok ER (sendCell c d) 0 0)

instance marksD_persistent (c : Dev nD) (d : Fin 3) : BI.Persistent (marksD (F := F) c d) := by unfold marksD; infer_instance

/-- The protocol's ghost state device `c` starts from, the invariants under the names `K`. -/
def ghost (c : Dev nD) : sProp 𝕄 :=
  iprop(invs m ρ K c
    ∗ (atPos ER (barCell c) 0 ∅ 0 ∗ posD c 0 ∗ posD c 1 ∗ posD c 2)
    ∗ (marksD c 0 ∗ marksD c 1 ∗ marksD c 2)
    ∗ (toksD c 0 ∗ toksD c 1 ∗ toksD c 2))

end GhostState

/-- What device `c`'s body starts from: the ghost state at some names, the credit of its barrier's three units and of
    its three receive cells, and the level facts. -/
def start (c : Dev nD) : sProp 𝕄 :=
  iprop((∃ K, ghost m ρ K c) ∗ cred (tallyAt (barCell c) () 3)
    ∗ (cred (tallyAt (recvCell c 0) () N) ∗ cred (tallyAt (recvCell c 1) () N) ∗ cred (tallyAt (recvCell c 2) () N)) ∗ levAts L lv)

/-- Before the one grid point: the start and the scratch buffer, whole, at whatever it holds. -/
def Φ₀ (c : Dev nD) : sProp 𝕄 := iprop(start m ρ c ∗ ∃ f : Buf (Elt F) ((c : Thread nD τ).loc cc0_scratch0), (((c : Thread nD τ).loc cc0_scratch0) ↦{fullShare} f))
/-- After it: the scratch whole at its final contents, the six own cells at zero, closed. -/
def Φ₁ (c : Dev nD) : sProp 𝕄 :=
  iprop((((c : Thread nD τ).loc cc0_scratch0) ↦{fullShare} scrFinal m ρ c)
    ∗ semVal (sendCell c 0) 0 ∗ semVal (sendCell c 1) 0 ∗ semVal (sendCell c 2) 0
    ∗ semVal (recvCell c 0) 0 ∗ semVal (recvCell c 1) 0 ∗ semVal (recvCell c 2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.AllReduce

end
-- ==== Proof.Word.Landing.lean ====
/-
  The value steps of the all-reduce's memory operations, each against the final contents `scrFinal`: what the one
  store leaves in slot 0, what a copy of slot 0 leaves in slot `d + 1` of the device `d + 1` places on, and what
  the four final loads read. A copy's two ends are the slots with their unit axis squeezed away; reading one is
  reading the slice at the re-laid index, the same re-laying at both ends.
-/
import proofs.«901079_g7700000000001080_dist_sum_ax0_shard0_i_m1536_n768_v7x_i4_bf16_1_alg».proof.Proof.Word.Ghost

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Reading a slot through the squeezed memref is reading the slice at the re-laid index. -/
theorem read_slot (k : Fin 4) (f : (cc0_scratch0 : Ref sig .tc).ty.Contents (Elt F)) (x : S1x768.Idx) :
    (slotM k).view.read (Elt F) f x = (sv k).read (Elt F) f (Shape.reshapeEquiv squeezes_S1x1x768_S1x768.numel_eq x) := rfl

/-- The store of the block's column sums leaves slot 0 at its final contents. -/
theorem stored_congr (c : Dev nD) (f0 : (cc0_scratch0 : Ref sig .tc).ty.Contents (Elt F)) :
    ∀ i ∈ slotSet 0, ((sv 0).write (Elt F) f0 (part m ρ c) Finset.univ) i = scrFinal m ρ c i := by
  rw [slotSet_eq_sv]
  refine eq_on_set_of_read_eq (sv 0) _ _ ?_
  rw [View.read_write_univ, read_scrFinal, src_zero]

/-- A copy of device `c`'s slot 0 leaves slot `d + 1` of the device `d + 1` places on at ITS final contents:
    that slot is to hold the column sums of the device `d + 1` places before it, which is `c`. -/
theorem landed_congr (c : Dev nD) (d : Fin 3) (fd : (cc0_scratch0 : Ref sig .tc).ty.Contents (Elt F)) :
    ∀ i ∈ (slotM (slotOf d)).view.set,
      ((slotM (slotOf d)).view.write (Elt F) fd ((slotM 0).view.read (Elt F) (scrFinal m ρ c)) Finset.univ) i = scrFinal m ρ (peer d c) i := by
  refine eq_on_set_of_read_eq (slotM (slotOf d)).view _ _ ?_
  rw [View.read_write_univ]
  funext x
  rw [read_slot, read_slot, read_scrFinal, read_scrFinal, src_zero, src_peer]

/-- A final load of slot `k` reads the column sums of the device `k` places before. -/
theorem load_slot (c : Dev nD) (k : Fin 4) :
    (scM : Memref sig .tc .vmem S4x1x768 .f32).view.readAt (Elt F) (rc k).toLoadRect (scrFinal m ρ c) = part m ρ (src k c) :=
  read_scrFinal m ρ c k

omit [FloatOps F] in
theorem load_sub (k : Fin 4) : (scM : Memref sig .tc .vmem S4x1x768 .f32).view.setOn (rc k).toLoadRect.set ⊆ slotSet k := by
  rw [slotSet_eq_rect]
  show ((rc k).set).map (View.whole cc0_scratch0).emb ⊆ _
  rw [View.emb_whole, Finset.map_refl]

omit [FloatOps F] in
theorem store_sub (k : Fin 4) : ((scM : Memref sig .tc .vmem S4x1x768 .f32).access (rc k)).setOn Finset.univ ⊆ slotSet k := by
  rw [View.setOn_univ, slotSet_eq_sv]

end Cert.Kernel.AllReduce

end
-- ==== Proof.Word.Body.lean ====
/-
  One device's body of the all-reduce, stepped from the protocol's ghost state: the three entry signals each hand a
  peer one of this device's slots, the store puts the block's column sums in slot 0, the barrier wait brings the three
  peers' slots, the three copies each take a share of slot 0 and a peer's slot, the six waits bring the shares and this
  device's three filled slots back, and the four loads and the store add them.
-/
import proofs.«901079_g7700000000001080_dist_sum_ax0_shard0_i_m1536_n768_v7x_i4_bf16_1_alg».proof.Proof.Word.Landing

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The barrier payloads with every peer and slot written out -/

section Tables'
variable (c : Dev nD)

/-- What this device's signal number `d + 1` pays: its own slot `3 - d` and that its receive cell `2 - d` is open. -/
theorem payload_bar_p1 : (sched (F := F) m ρ).payload (barCell (pr 1 c)) 0 2
    = iprop((∃ f, (slotM 3).view.loc (c : Thread nD τ) ↦[(slotM 3).view.set]{fullShare} f) ∗ reached ER (recvCell c 2) 0) := by
  rw [payload_bar]; unfold barPay slotPts; rw [show peer 2 (pr 1 c) = c from peer_rev 0 c]; rfl
theorem payload_bar_p2 : (sched (F := F) m ρ).payload (barCell (pr 2 c)) 0 1
    = iprop((∃ f, (slotM 2).view.loc (c : Thread nD τ) ↦[(slotM 2).view.set]{fullShare} f) ∗ reached ER (recvCell c 1) 0) := by
  rw [payload_bar]; unfold barPay slotPts; rw [show peer 1 (pr 2 c) = c from peer_rev 1 c]; rfl
theorem payload_bar_p3 : (sched (F := F) m ρ).payload (barCell (pr 3 c)) 0 0
    = iprop((∃ f, (slotM 1).view.loc (c : Thread nD τ) ↦[(slotM 1).view.set]{fullShare} f) ∗ reached ER (recvCell c 0) 0) := by
  rw [payload_bar]; unfold barPay slotPts; rw [show peer 0 (pr 3 c) = c from peer_rev 2 c]; rfl

omit [FloatOps F] in
/-- Slot 0 at the full share is its three reading shares (the assertions spelt out). -/
theorem slot0_shares' (f : Buf (Elt F) ((slotM 0).view.loc (c : Thread nD τ))) :
    ((slotM 0).view.loc (c : Thread nD τ) ↦[(slotM 0).view.set]{fullShare} f : sProp 𝕄) ⊣⊢
      iprop(((slotM 0).view.loc (c : Thread nD τ) ↦[(slotM 0).view.set]{shr 0} f) ∗ ((slotM 0).view.loc (c : Thread nD τ) ↦[(slotM 0).view.set]{shr 1} f)
        ∗ ((slotM 0).view.loc (c : Thread nD τ) ↦[(slotM 0).view.set]{shr 2} f)) := slot0_shares c f
omit [FloatOps F] in
theorem scr_slots' (f : Buf (Elt F) ((c : Thread nD τ).loc cc0_scratch0)) :
    ((((c : Thread nD τ).loc cc0_scratch0) ↦{fullShare} f : sProp 𝕄))
      ⊣⊢ iprop(((slotM 0).view.loc (c : Thread nD τ) ↦[(slotM 0).view.set]{fullShare} f) ∗ ((slotM 1).view.loc (c : Thread nD τ) ↦[(slotM 1).view.set]{fullShare} f)
        ∗ ((slotM 2).view.loc (c : Thread nD τ) ↦[(slotM 2).view.set]{fullShare} f) ∗ ((slotM 3).view.loc (c : Thread nD τ) ↦[(slotM 3).view.set]{fullShare} f)) := scr_slots c f

/-- What each transfer cell's round gives back, the slot and share written out. -/
theorem rest_send_0 : bigSep ((sched (F := F) m ρ).duties (sendCell c 0) 0 \ ∅) (fun e => (sched (F := F) m ρ).payload (sendCell c 0) 0 e)
    = ((slotM 0).view.loc (c : Thread nD τ) ↦[(slotM 0).view.set]{shr 0} scrFinal m ρ c) := rest_send m ρ c 0
theorem rest_recv_0 : bigSep ((sched (F := F) m ρ).duties (recvCell c 0) 0 \ ∅) (fun e => (sched (F := F) m ρ).payload (recvCell c 0) 0 e)
    = ((slotM 1).view.loc (c : Thread nD τ) ↦[(slotM 1).view.set]{fullShare} scrFinal m ρ c) := rest_recv m ρ c 0
theorem rest_send_1 : bigSep ((sched (F := F) m ρ).duties (sendCell c 1) 0 \ ∅) (fun e => (sched (F := F) m ρ).payload (sendCell c 1) 0 e)
    = ((slotM 0).view.loc (c : Thread nD τ) ↦[(slotM 0).view.set]{shr 1} scrFinal m ρ c) := rest_send m ρ c 1
theorem rest_recv_1 : bigSep ((sched (F := F) m ρ).duties (recvCell c 1) 0 \ ∅) (fun e => (sched (F := F) m ρ).payload (recvCell c 1) 0 e)
    = ((slotM 2).view.loc (c : Thread nD τ) ↦[(slotM 2).view.set]{fullShare} scrFinal m ρ c) := rest_recv m ρ c 1
theorem rest_send_2 : bigSep ((sched (F := F) m ρ).duties (sendCell c 2) 0 \ ∅) (fun e => (sched (F := F) m ρ).payload (sendCell c 2) 0 e)
    = ((slotM 0).view.loc (c : Thread nD τ) ↦[(slotM 0).view.set]{shr 2} scrFinal m ρ c) := rest_send m ρ c 2
theorem rest_recv_2 : bigSep ((sched (F := F) m ρ).duties (recvCell c 2) 0 \ ∅) (fun e => (sched (F := F) m ρ).payload (recvCell c 2) 0 e)
    = ((slotM 3).view.loc (c : Thread nD τ) ↦[(slotM 3).view.set]{fullShare} scrFinal m ρ c) := rest_recv m ρ c 2

end Tables'

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 7 → ℕ)

def bodyPre (c : Dev nD) : sProp 𝕄 :=
  iprop((ghost m ρ K c ∗ cred (tallyAt (barCell c) () 3)
      ∗ (cred (tallyAt (recvCell c 0) () N) ∗ cred (tallyAt (recvCell c 1) () N) ∗ cred (tallyAt (recvCell c 2) () N)) ∗ levAts L lv
      ∗ ∃ f : Buf (Elt F) ((c : Thread nD τ).loc cc0_scratch0), (((c : Thread nD τ).loc cc0_scratch0) ↦{fullShare} f))
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The ghost state with the three peers and their duties written out. -/
theorem ghost_flat (c : Dev nD) : ghost m ρ K c = (iprop((cellInv ER (sched m ρ) (K (c, 0)) (barCell c) ∗ (cellInv ER (sched m ρ) (K (c, iS 0)) (sendCell c 0) ∗ cellInv ER (sched m ρ) (K (c, iR 0)) (recvCell c 0)
      ∗ cellInv ER (sched m ρ) (K (peer 0 c, 0)) (barCell (pr 1 c)) ∗ cellInv ER (sched m ρ) (K (peer 0 c, iR 0)) (recvCell (pr 1 c) 0))
      ∗ (cellInv ER (sched m ρ) (K (c, iS 1)) (sendCell c 1) ∗ cellInv ER (sched m ρ) (K (c, iR 1)) (recvCell c 1)
      ∗ cellInv ER (sched m ρ) (K (peer 1 c, 0)) (barCell (pr 2 c)) ∗ cellInv ER (sched m ρ) (K (peer 1 c, iR 1)) (recvCell (pr 2 c) 1))
      ∗ (cellInv ER (sched m ρ) (K (c, iS 2)) (sendCell c 2) ∗ cellInv ER (sched m ρ) (K (c, iR 2)) (recvCell c 2)
      ∗ cellInv ER (sched m ρ) (K (peer 2 c, 0)) (barCell (pr 3 c)) ∗ cellInv ER (sched m ρ) (K (peer 2 c, iR 2)) (recvCell (pr 3 c) 2)))
    ∗ (atPos ER (barCell c) 0 ∅ 0 ∗ (atPos ER (sendCell c 0) 0 ∅ 0 ∗ atPos ER (recvCell c 0) 0 ∅ 0) ∗ (atPos ER (sendCell c 1) 0 ∅ 0 ∗ atPos ER (recvCell c 1) 0 ∅ 0) ∗ (atPos ER (sendCell c 2) 0 ∅ 0 ∗ atPos ER (recvCell c 2) 0 ∅ 0))
    ∗ ((reached ER (barCell (pr 1 c)) 0 ∗ reached ER (recvCell (pr 1 c) 0) 0 ∗ reached ER (sendCell c 0) 0 ∗ reached ER (recvCell c 0) 0)
      ∗ (reached ER (barCell (pr 2 c)) 0 ∗ reached ER (recvCell (pr 2 c) 1) 0 ∗ reached ER (sendCell c 1) 0 ∗ reached ER (recvCell c 1) 0)
      ∗ (reached ER (barCell (pr 3 c)) 0 ∗ reached ER (recvCell (pr 3 c) 2) 0 ∗ reached ER (sendCell c 2) 0 ∗ reached ER (recvCell c 2) 0))
    ∗ ((dutyTok ER (barCell (pr 1 c)) 0 2 ∗ dutyTok ER (recvCell (pr 1 c) 0) 0 0 ∗ dutyTok ER (sendCell c 0) 0 0)
      ∗ (dutyTok ER (barCell (pr 2 c)) 0 1 ∗ dutyTok ER (recvCell (pr 2 c) 1) 0 0 ∗ dutyTok ER (sendCell c 1) 0 0)
      ∗ (dutyTok ER (barCell (pr 3 c)) 0 0 ∗ dutyTok ER (recvCell (pr 3 c) 2) 0 0 ∗ dutyTok ER (sendCell c 2) 0 0))) : sProp 𝕄) := rfl

theorem fetch_0 (t : Fin cfg0.N) : (cfg0.win (0 : Fin 2)).fetch t = true := by rw [fin_N t]; rfl

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc _ _ _).write (Elt F) f w Finset.univ = w :=
  Memref.write_access_unit_zero_univ (Elt F) cc0_stg1_0 hz2 _ f w

/-- The send rule at copy 1's cells, the copy addressed to `n = pr 1 c` (substituted, not rewritten: the copy's evidence depends on it). -/
theorem wp_send_1 (c n : Dev nD) (hn : n = pr 1 c)
    {hsc : (slotM 1 : Memref sig (Dev.tc n : Thread nD τ).2.kind .vmem S1x768 .f32).view.ref.isScScratch = false}
    {hsrc : (slotM 0 : Memref sig .tc .vmem S1x768 .f32).view.WordExact} {hdst : (slotM 1 : Memref sig .tc .vmem S1x768 .f32).view.WordExact}
    {hsem : DmaTarget.Typed .vmem (.dma (recvS 0)) (.remote (Dev.tc n : Thread nD τ) (slotM 1 : Memref sig .tc .vmem S1x768 .f32) (.dma (sendS 0)) hsc)}
    {α : Type} {Q : α → sProp 𝕄} {k : PUnit → Prog (TpuEff nD τ sig (Elt F) Λ₀ .tc) α}
    (fd : Buf (Elt F) ((slotM 1).view.loc (pr 1 c : Thread nD τ))) (O : CellTallies nD τ sig Unit) (W : Waits sig Unit) :
    iprop(cellInv ER (sched m ρ) (K (c, iS 0)) (sendCell c 0) ∗ cellInv ER (sched m ρ) (K (peer 0 c, iR 0)) (recvCell (pr 1 c) 0)
        ∗ ((slotM 0).view.loc (c : Thread nD τ) ↦[(slotM 0).view.set]{shr 0} scrFinal m ρ c)
        ∗ ((slotM 1).view.loc (pr 1 c : Thread nD τ) ↦[(slotM 1).view.set]{fullShare} fd)
        ∗ owes (c : Thread nD τ) (O + tallyAt (recvCell (pr 1 c) 0) () N) W
        ∗ dutyTok ER (sendCell c 0) 0 0 ∗ reached ER (sendCell c 0) 0
        ∗ dutyTok ER (recvCell (pr 1 c) 0) 0 0 ∗ reached ER (recvCell (pr 1 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 1) (.dma (sendS 0)) hsc) (.dma (recvS 0)) hsrc hdst hsem) k) Q) := by
  subst hn
  exact Rounds.wp_send_pointsTo 𝒱₀ ER (sched m ρ) (c : Thread nD τ) none (κ₁ := K (c, iS 0)) (κ₂ := K (peer 0 c, iR 0))
    (c' := (pr 1 c : Thread nD τ)) (src := (slotM 0 : Memref sig .tc .vmem S1x768 .f32)) (dst := (slotM 1 : Memref sig .tc .vmem S1x768 .f32))
    (r₁ := 0) (r₂ := 0) (d₁ := 0) (d₂ := 0) (fd := fd) (q := shr 0) (fs := scrFinal m ρ c)
    (by rw [duties_send]; exact Finset.mem_singleton_self _) (by rw [duties_recv]; exact Finset.mem_singleton_self _)
    () () N rfl (amount_send m ρ c 0 0) (amount_recv m ρ (pr 1 c) 0 0) O rfl (W := W)
    (by rw [payload_send]; exact BI.Entails.refl _)
    (by rw [payload_recv]; exact Entails.of_eq (pointsTo_congr (landed_congr m ρ c 0 fd)))

/-- The send rule at copy 2's cells, the copy addressed to `n = pr 2 c` (substituted, not rewritten: the copy's evidence depends on it). -/
theorem wp_send_2 (c n : Dev nD) (hn : n = pr 2 c)
    {hsc : (slotM 2 : Memref sig (Dev.tc n : Thread nD τ).2.kind .vmem S1x768 .f32).view.ref.isScScratch = false}
    {hsrc : (slotM 0 : Memref sig .tc .vmem S1x768 .f32).view.WordExact} {hdst : (slotM 2 : Memref sig .tc .vmem S1x768 .f32).view.WordExact}
    {hsem : DmaTarget.Typed .vmem (.dma (recvS 1)) (.remote (Dev.tc n : Thread nD τ) (slotM 2 : Memref sig .tc .vmem S1x768 .f32) (.dma (sendS 1)) hsc)}
    {α : Type} {Q : α → sProp 𝕄} {k : PUnit → Prog (TpuEff nD τ sig (Elt F) Λ₀ .tc) α}
    (fd : Buf (Elt F) ((slotM 2).view.loc (pr 2 c : Thread nD τ))) (O : CellTallies nD τ sig Unit) (W : Waits sig Unit) :
    iprop(cellInv ER (sched m ρ) (K (c, iS 1)) (sendCell c 1) ∗ cellInv ER (sched m ρ) (K (peer 1 c, iR 1)) (recvCell (pr 2 c) 1)
        ∗ ((slotM 0).view.loc (c : Thread nD τ) ↦[(slotM 0).view.set]{shr 1} scrFinal m ρ c)
        ∗ ((slotM 2).view.loc (pr 2 c : Thread nD τ) ↦[(slotM 2).view.set]{fullShare} fd)
        ∗ owes (c : Thread nD τ) (O + tallyAt (recvCell (pr 2 c) 1) () N) W
        ∗ dutyTok ER (sendCell c 1) 0 0 ∗ reached ER (sendCell c 1) 0
        ∗ dutyTok ER (recvCell (pr 2 c) 1) 0 0 ∗ reached ER (recvCell (pr 2 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 2) (.dma (sendS 1)) hsc) (.dma (recvS 1)) hsrc hdst hsem) k) Q) := by
  subst hn
  exact Rounds.wp_send_pointsTo 𝒱₀ ER (sched m ρ) (c : Thread nD τ) none (κ₁ := K (c, iS 1)) (κ₂ := K (peer 1 c, iR 1))
    (c' := (pr 2 c : Thread nD τ)) (src := (slotM 0 : Memref sig .tc .vmem S1x768 .f32)) (dst := (slotM 2 : Memref sig .tc .vmem S1x768 .f32))
    (r₁ := 0) (r₂ := 0) (d₁ := 0) (d₂ := 0) (fd := fd) (q := shr 1) (fs := scrFinal m ρ c)
    (by rw [duties_send]; exact Finset.mem_singleton_self _) (by rw [duties_recv]; exact Finset.mem_singleton_self _)
    () () N rfl (amount_send m ρ c 1 0) (amount_recv m ρ (pr 2 c) 1 0) O rfl (W := W)
    (by rw [payload_send]; exact BI.Entails.refl _)
    (by rw [payload_recv]; exact Entails.of_eq (pointsTo_congr (landed_congr m ρ c 1 fd)))

/-- The send rule at copy 3's cells, the copy addressed to `n = pr 3 c` (substituted, not rewritten: the copy's evidence depends on it). -/
theorem wp_send_3 (c n : Dev nD) (hn : n = pr 3 c)
    {hsc : (slotM 3 : Memref sig (Dev.tc n : Thread nD τ).2.kind .vmem S1x768 .f32).view.ref.isScScratch = false}
    {hsrc : (slotM 0 : Memref sig .tc .vmem S1x768 .f32).view.WordExact} {hdst : (slotM 3 : Memref sig .tc .vmem S1x768 .f32).view.WordExact}
    {hsem : DmaTarget.Typed .vmem (.dma (recvS 2)) (.remote (Dev.tc n : Thread nD τ) (slotM 3 : Memref sig .tc .vmem S1x768 .f32) (.dma (sendS 2)) hsc)}
    {α : Type} {Q : α → sProp 𝕄} {k : PUnit → Prog (TpuEff nD τ sig (Elt F) Λ₀ .tc) α}
    (fd : Buf (Elt F) ((slotM 3).view.loc (pr 3 c : Thread nD τ))) (O : CellTallies nD τ sig Unit) (W : Waits sig Unit) :
    iprop(cellInv ER (sched m ρ) (K (c, iS 2)) (sendCell c 2) ∗ cellInv ER (sched m ρ) (K (peer 2 c, iR 2)) (recvCell (pr 3 c) 2)
        ∗ ((slotM 0).view.loc (c : Thread nD τ) ↦[(slotM 0).view.set]{shr 2} scrFinal m ρ c)
        ∗ ((slotM 3).view.loc (pr 3 c : Thread nD τ) ↦[(slotM 3).view.set]{fullShare} fd)
        ∗ owes (c : Thread nD τ) (O + tallyAt (recvCell (pr 3 c) 2) () N) W
        ∗ dutyTok ER (sendCell c 2) 0 0 ∗ reached ER (sendCell c 2) 0
        ∗ dutyTok ER (recvCell (pr 3 c) 2) 0 0 ∗ reached ER (recvCell (pr 3 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM 0) (.remote (Dev.tc n : Thread nD τ) (slotM 3) (.dma (sendS 2)) hsc) (.dma (recvS 2)) hsrc hdst hsem) k) Q) := by
  subst hn
  exact Rounds.wp_send_pointsTo 𝒱₀ ER (sched m ρ) (c : Thread nD τ) none (κ₁ := K (c, iS 2)) (κ₂ := K (peer 2 c, iR 2))
    (c' := (pr 3 c : Thread nD τ)) (src := (slotM 0 : Memref sig .tc .vmem S1x768 .f32)) (dst := (slotM 3 : Memref sig .tc .vmem S1x768 .f32))
    (r₁ := 0) (r₂ := 0) (d₁ := 0) (d₂ := 0) (fd := fd) (q := shr 2) (fs := scrFinal m ρ c)
    (by rw [duties_send]; exact Finset.mem_singleton_self _) (by rw [duties_recv]; exact Finset.mem_singleton_self _)
    () () N rfl (amount_send m ρ c 2 0) (amount_recv m ρ (pr 3 c) 2 0) O rfl (W := W)
    (by rw [payload_send]; exact BI.Entails.refl _)
    (by rw [payload_recv]; exact Entails.of_eq (pointsTo_congr (landed_congr m ρ c 2 fd)))

set_option maxHeartbeats 3200000 in
set_option maxRecDepth 8000 in
/-- The body, one rule per effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre
  rw [ghost_flat]
  iintro ⟨⟨⟨⟨⟨#HIbar, ⟨#HIs0, #HIr0, #HIbp0, #HIrp0⟩, ⟨#HIs1, #HIr1, #HIbp1, #HIrp1⟩, ⟨#HIs2, #HIr2, #HIbp2, #HIrp2⟩⟩,
      ⟨HatB, ⟨HatS0, HatR0⟩, ⟨HatS1, HatR1⟩, ⟨HatS2, HatR2⟩⟩,
      ⟨⟨#HrBp0, #HrRp0, #HrS0, #HrR0⟩, ⟨#HrBp1, #HrRp1, #HrS1, #HrR1⟩, ⟨#HrBp2, #HrRp2, #HrS2, #HrR2⟩⟩,
      ⟨⟨HtB0, HtR0, HtS0⟩, ⟨HtB1, HtR1, HtS1⟩, ⟨HtB2, HtR2, HtS2⟩⟩⟩,
      HcB, ⟨HcR0, HcR1, HcR2⟩, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hsl := (scr_slots' c f0).1 $$ Hscr
  icases Hsl with ⟨Hs0, Hs1, Hs2, Hs3⟩
  simp only [dev1_eq c, dev2_eq c, dev3_eq c]
  -- signal 1: to the device 1 place on, paying duty 2 of its barrier cell with this device's slot 3
  iapply (Rounds.wp_signal 𝒱₀ ER (sched m ρ) (c : Thread nD τ) none (dst := (pr 1 c : Thread nD τ)) (κ := K (peer 0 c, 0))
      (d := 2) (by rw [duties_bar]; exact Finset.mem_univ _) ((amount_bar m ρ (pr 1 c) 2).trans (by decide)) () ((OR c + Bt c 2) + Bt c 1) rfl)
    $$ [HO HtB0 Hs3]
  · isplitr; · iexact HIbp0
    isplitl [HO]; · iexact HO
    isplitl [HtB0]; · iexact HtB0
    isplitl [Hs3]
    · rw [payload_bar_p1]
      isplitl [Hs3]; · iexists f0; iexact Hs3
      iexact HrR2
    · iexact HrBp0
  iintro HO
  -- signal 2: to the device 2 places on, paying duty 1 of its barrier cell with this device's slot 2
  iapply (Rounds.wp_signal 𝒱₀ ER (sched m ρ) (c : Thread nD τ) none (dst := (pr 2 c : Thread nD τ)) (κ := K (peer 1 c, 0))
      (d := 1) (by rw [duties_bar]; exact Finset.mem_univ _) ((amount_bar m ρ (pr 2 c) 1).trans (by decide)) () (OR c + Bt c 2) rfl)
    $$ [HO HtB1 Hs2]
  · isplitr; · iexact HIbp1
    isplitl [HO]; · iexact HO
    isplitl [HtB1]; · iexact HtB1
    isplitl [Hs2]
    · rw [payload_bar_p2]
      isplitl [Hs2]; · iexists f0; iexact Hs2
      iexact HrR1
    · iexact HrBp1
  iintro HO
  -- signal 3: to the device 3 places on, paying duty 0 of its barrier cell with this device's slot 1
  iapply (Rounds.wp_signal 𝒱₀ ER (sched m ρ) (c : Thread nD τ) none (dst := (pr 3 c : Thread nD τ)) (κ := K (peer 2 c, 0))
      (d := 0) (by rw [duties_bar]; exact Finset.mem_univ _) ((amount_bar m ρ (pr 3 c) 0).trans (by decide)) () (OR c) rfl)
    $$ [HO HtB2 Hs1]
  · isplitr; · iexact HIbp2
    isplitl [HO]; · iexact HO
    isplitl [HtB2]; · iexact HtB2
    isplitl [Hs1]
    · rw [payload_bar_p3]
      isplitl [Hs1]; · iexists f0; iexact Hs1
      iexact HrR0
    · iexact HrBp2
  iintro HO
  -- the load of the block and the store of its column sums into slot 0 (the old slot 0 is loaded first, unused)
  iapply (wp_load 𝒱₀ (c : Thread nD τ) none Set.univ (m := xM) (Finset.subset_univ _)) $$ Hx; iintro Hx
  rw [read_x]
  iapply (wp_load 𝒱₀ (c : Thread nD τ) none Set.univ (m := scM) (r := (rc 0).toLoadRect) (S := slotSet 0) (load_sub 0)) $$ Hs0; iintro Hs0
  iapply (wp_store 𝒱₀ (c : Thread nD τ) none Set.univ (m := scM) (r := rc 0) (Mk := Finset.univ) (S := slotSet 0) (store_sub 0)) $$ Hs0; iintro Hs0
  ihave Hs0 := (Entails.of_eq (pointsTo_congr (stored_congr m ρ c f0))) $$ Hs0
  -- the wait for the three peers' units on the barrier cell, owing the three slots' credit: their slots come with it
  iapply (Rounds.wp_wait_rest_token 𝒱₀ ER (sched m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay slotPts
  icases Hp with ⟨⟨⟨%fp1, Hd1⟩, #HrRp0'⟩, ⟨⟨%fp2, Hd2⟩, #HrRp1'⟩, ⟨⟨%fp3, Hd3⟩, #HrRp2'⟩⟩
  unfold OR
  -- slot 0 in its three reading shares
  ihave Hsh := (slot0_shares' c (scrFinal m ρ c)).1 $$ Hs0
  icases Hsh with ⟨Hq0, Hq1, Hq2⟩
  -- copy 1: slot 0, at its share 0, to slot 1 of the device 1 place on
  iapply (wp_send_1 m ρ K c _ (dev4_eq c) fp1 (Rt c 2 + Rt c 1) (insert (SemLoc.reg barS, ()) W)) $$ [Hq0 Hd1 HO HtS0 HtR0]
  · isplitr; · iexact HIs0
    isplitr; · iexact HIrp0
    isplitl [Hq0]; · iexact Hq0
    isplitl [Hd1]; · iexact Hd1
    isplitl [HO]; · iexact HO
    isplitl [HtS0]; · iexact HtS0
    isplitr; · iexact HrS0
    isplitl [HtR0]; · iexact HtR0
    iexact HrRp0
  iintro ⟨HcS0, HO⟩
  -- copy 2: slot 0, at its share 1, to slot 2 of the device 2 places on
  iapply (wp_send_2 m ρ K c _ (dev5_eq c) fp2 (Rt c 2) (insert (SemLoc.reg barS, ()) W)) $$ [Hq1 Hd2 HO HtS1 HtR1]
  · isplitr; · iexact HIs1
    isplitr; · iexact HIrp1
    isplitl [Hq1]; · iexact Hq1
    isplitl [Hd2]; · iexact Hd2
    isplitl [HO]; · iexact HO
    isplitl [HtS1]; · iexact HtS1
    isplitr; · iexact HrS1
    isplitl [HtR1]; · iexact HtR1
    iexact HrRp1
  iintro ⟨HcS1, HO⟩
  ihave HO := (Entails.of_eq (congrArg (fun o => owes (c : Thread nD τ) o (insert (SemLoc.reg barS, ()) W)) (zero_add (Rt c 2)).symm)) $$ HO
  -- copy 3: slot 0, at its share 2, to slot 3 of the device 3 places on
  iapply (wp_send_3 m ρ K c _ (dev6_eq c) fp3 0 (insert (SemLoc.reg barS, ()) W)) $$ [Hq2 Hd3 HO HtS2 HtR2]
  · isplitr; · iexact HIs2
    isplitr; · iexact HIrp2
    isplitl [Hq2]; · iexact Hq2
    isplitl [Hd3]; · iexact Hd3
    isplitl [HO]; · iexact HO
    isplitl [HtS2]; · iexact HtS2
    isplitr; · iexact HrS2
    isplitl [HtR2]; · iexact HtR2
    iexact HrRp2
  iintro ⟨HcS2, HO⟩
  -- wait on send cell 0: the share of slot 0 its copy read comes back
  iapply (Rounds.wp_wait_rest_token 𝒱₀ ER (sched m ρ) (c : Thread nD τ) none (κ := K (c, iS 0))
      (wpE_waitDma2_eq 𝒱₀ (c : Thread nD τ) none Set.univ) (Set.mem_univ _) () (O := 0) (W := (insert (SemLoc.reg barS, ()) W)) (R := 0) (m := 0) (T := ∅)
      (by rw [Nat.zero_add]; exact (expect_send m ρ c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hq0 := (Entails.of_eq (rest_send_0 m ρ c)) $$ Hpay
  -- wait on receive cell 0: slot 1 comes, filled
  iapply (Rounds.wp_wait_rest_token 𝒱₀ ER (sched m ρ) (c : Thread nD τ) none (κ := K (c, iR 0))
      (wpE_waitDma2_eq 𝒱₀ (c : Thread nD τ) none Set.univ) (Set.mem_univ _) () (O := 0) (W := (insert (SemLoc.dma (sendS 0), ()) (insert (SemLoc.reg barS, ()) W))) (R := 0) (m := 0) (T := ∅)
      (by rw [Nat.zero_add]; exact (expect_recv m ρ c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hs1 := (Entails.of_eq (rest_recv_0 m ρ c)) $$ Hpay
  -- wait on send cell 1: the share of slot 0 its copy read comes back
  iapply (Rounds.wp_wait_rest_token 𝒱₀ ER (sched m ρ) (c : Thread nD τ) none (κ := K (c, iS 1))
      (wpE_waitDma2_eq 𝒱₀ (c : Thread nD τ) none Set.univ) (Set.mem_univ _) () (O := 0) (W := (insert (SemLoc.dma (recvS 0), ()) (insert (SemLoc.dma (sendS 0), ()) (insert (SemLoc.reg barS, ()) W)))) (R := 0) (m := 0) (T := ∅)
      (by rw [Nat.zero_add]; exact (expect_send m ρ c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send_1 m ρ c)) $$ Hpay
  -- wait on receive cell 1: slot 2 comes, filled
  iapply (Rounds.wp_wait_rest_token 𝒱₀ ER (sched m ρ) (c : Thread nD τ) none (κ := K (c, iR 1))
      (wpE_waitDma2_eq 𝒱₀ (c : Thread nD τ) none Set.univ) (Set.mem_univ _) () (O := 0) (W := (insert (SemLoc.dma (sendS 1), ()) (insert (SemLoc.dma (recvS 0), ()) (insert (SemLoc.dma (sendS 0), ()) (insert (SemLoc.reg barS, ()) W))))) (R := 0) (m := 0) (T := ∅)
      (by rw [Nat.zero_add]; exact (expect_recv m ρ c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hs2 := (Entails.of_eq (rest_recv_1 m ρ c)) $$ Hpay
  -- wait on send cell 2: the share of slot 0 its copy read comes back
  iapply (Rounds.wp_wait_rest_token 𝒱₀ ER (sched m ρ) (c : Thread nD τ) none (κ := K (c, iS 2))
      (wpE_waitDma2_eq 𝒱₀ (c : Thread nD τ) none Set.univ) (Set.mem_univ _) () (O := 0) (W := (insert (SemLoc.dma (recvS 1), ()) (insert (SemLoc.dma (sendS 1), ()) (insert (SemLoc.dma (recvS 0), ()) (insert (SemLoc.dma (sendS 0), ()) (insert (SemLoc.reg barS, ()) W)))))) (R := 0) (m := 0) (T := ∅)
      (by rw [Nat.zero_add]; exact (expect_send m ρ c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send_2 m ρ c)) $$ Hpay
  -- wait on receive cell 2: slot 3 comes, filled
  iapply (Rounds.wp_wait_rest_token 𝒱₀ ER (sched m ρ) (c : Thread nD τ) none (κ := K (c, iR 2))
      (wpE_waitDma2_eq 𝒱₀ (c : Thread nD τ) none Set.univ) (Set.mem_univ _) () (O := 0) (W := (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W))))))) (R := 0) (m := 0) (T := ∅)
      (by rw [Nat.zero_add]; exact (expect_recv m ρ c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hs3 := (Entails.of_eq (rest_recv_2 m ρ c)) $$ Hpay
  -- the six own cells close: their counters at zero are the core's again
  imod (Rounds.cell_close ER (sched m ρ) (Set.mem_univ (K (c, iS 0))) (fun h => h) (R := 0 + 1) (duties_later m ρ (sendCell c 0))) $$ [HatS0] with HzS0
  · isplitr; · iexact HIs0
    iexact HatS0
  imod (Rounds.cell_close ER (sched m ρ) (Set.mem_univ (K (c, iS 1))) (fun h => h) (R := 0 + 1) (duties_later m ρ (sendCell c 1))) $$ [HatS1] with HzS1
  · isplitr; · iexact HIs1
    iexact HatS1
  imod (Rounds.cell_close ER (sched m ρ) (Set.mem_univ (K (c, iS 2))) (fun h => h) (R := 0 + 1) (duties_later m ρ (sendCell c 2))) $$ [HatS2] with HzS2
  · isplitr; · iexact HIs2
    iexact HatS2
  imod (Rounds.cell_close ER (sched m ρ) (Set.mem_univ (K (c, iR 0))) (fun h => h) (R := 0 + 1) (duties_later m ρ (recvCell c 0))) $$ [HatR0] with HzR0
  · isplitr; · iexact HIr0
    iexact HatR0
  imod (Rounds.cell_close ER (sched m ρ) (Set.mem_univ (K (c, iR 1))) (fun h => h) (R := 0 + 1) (duties_later m ρ (recvCell c 1))) $$ [HatR1] with HzR1
  · isplitr; · iexact HIr1
    iexact HatR1
  imod (Rounds.cell_close ER (sched m ρ) (Set.mem_univ (K (c, iR 2))) (fun h => h) (R := 0 + 1) (duties_later m ρ (recvCell c 2))) $$ [HatR2] with HzR2
  · isplitr; · iexact HIr2
    iexact HatR2
  -- slot 0 whole again, then the four loads and the store of their sum
  ihave Hs0 := (slot0_shares' c (scrFinal m ρ c)).2 $$ [Hq0 Hq1 Hq2]
  · isplitl [Hq0]; · iexact Hq0
    isplitl [Hq1]; · iexact Hq1
    iexact Hq2
  iapply (wp_load 𝒱₀ (c : Thread nD τ) none Set.univ (m := scM) (r := (rc 0).toLoadRect) (S := slotSet 0) (load_sub 0)) $$ Hs0; iintro Hs0
  rw [show (scM : Memref sig .tc .vmem S4x1x768 .f32).view.readAt (Elt F) (rc 0).toLoadRect (scrFinal m ρ c) = part m ρ (src 0 c) from load_slot m ρ c 0]
  iapply (wp_load 𝒱₀ (c : Thread nD τ) none Set.univ (m := scM) (r := (rc 1).toLoadRect) (S := slotSet 1) (load_sub 1)) $$ Hs1; iintro Hs1
  rw [show (scM : Memref sig .tc .vmem S4x1x768 .f32).view.readAt (Elt F) (rc 1).toLoadRect (scrFinal m ρ c) = part m ρ (src 1 c) from load_slot m ρ c 1]
  iapply (wp_load 𝒱₀ (c : Thread nD τ) none Set.univ (m := scM) (r := (rc 2).toLoadRect) (S := slotSet 2) (load_sub 2)) $$ Hs2; iintro Hs2
  rw [show (scM : Memref sig .tc .vmem S4x1x768 .f32).view.readAt (Elt F) (rc 2).toLoadRect (scrFinal m ρ c) = part m ρ (src 2 c) from load_slot m ρ c 2]
  iapply (wp_load 𝒱₀ (c : Thread nD τ) none Set.univ (m := scM) (r := (rc 3).toLoadRect) (S := slotSet 3) (load_sub 3)) $$ Hs3; iintro Hs3
  rw [show (scM : Memref sig .tc .vmem S4x1x768 .f32).view.readAt (Elt F) (rc 3).toLoadRect (scrFinal m ρ c) = part m ρ (src 3 c) from load_slot m ρ c 3]
  iapply (wp_load 𝒱₀ (c : Thread nD τ) none Set.univ (m := oM) (Finset.subset_univ _)) $$ Hout; iintro Hout
  iapply (wp_store 𝒱₀ (c : Thread nD τ) none Set.univ (m := oM) (r := Rect.unit (s := S1x768) ![0, 0] S1x768.size inb_S1x768_S1x768_0_0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hs0 Hs1 Hs2 Hs3 HzS0 HzS1 HzS2 HzR0 HzR1 HzR2]
  · isplitl [Hs0 Hs1 Hs2 Hs3]
    · iapply (scr_slots' c (scrFinal m ρ c)).2
      isplitl [Hs0]; · iexact Hs0
      isplitl [Hs1]; · iexact Hs1
      isplitl [Hs2]; · iexact Hs2
      iexact Hs3
    isplitl [HzS0]; · iexact HzS0
    isplitl [HzS1]; · iexact HzS1
    isplitl [HzS2]; · iexact HzS2
    isplitl [HzR0]; · iexact HzR0
    isplitl [HzR1]; · iexact HzR1
    iexact HzR2
  isplitl [HO]
  · iexists (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

end Body

/-! ## The library's body obligation -/

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the one grid point: the invariant before it, what the device owes, the two staged windows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`: the names of the invariants opened, the body run from them. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, H1, H2, H3⟩, Hscr⟩, Ho, Hx, Hout⟩
  iapply (sound_body m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho]; · iexact Ho
    isplitl [Hx] <;> iassumption
  · iintro H; iexact H

/-- info: 'Cert.Kernel.AllReduce.body_obligation' depends on axioms: [propext, Classical.choice, Quot.sound] -/
#guard_msgs in #print axioms body_obligation

end Cert.Kernel.AllReduce

end
-- ==== Proof.Word.Launch.lean ====
/-
  The launch of the all-reduce over four devices. Every device brings its seven cells — its barrier cell, three send
  cells and three receive cells — and the nine duty tokens minted on them. The tokens are then dealt to the devices
  that pay the duties: a barrier cell's token for duty `e` goes to the device `e + 1` places on, a receive cell's token
  to the device that copies into it, a send cell's token stays. Each of the three deals is a rotation of the cycle of
  four. What every device is owed at launch is three barrier units, one from each peer, and one slot's credit on each
  of its three receive cells, from the one device that copies there. From this every device's body starts, and the run
  of all four ends with the argument array as it was and the result array at the kernel's value.
-/
import proofs.«901079_g7700000000001080_dist_sum_ax0_shard0_i_m1536_n768_v7x_i4_bf16_1_alg».proof.Proof.Word.Ghost
import proofs.«901079_g7700000000001080_dist_sum_ax0_shard0_i_m1536_n768_v7x_i4_bf16_1_alg».proof.Proof.Gen.Kernel.Points

noncomputable section

namespace Cert.Kernel.AllReduce

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of the protocol and the tokens minted on them -/

omit [FloatOps F] in
theorem ownSemFacts : Pipeline.OwnSemFacts cfg0.spec osem := by decide

theorem share_eq (c : Dev nD) (w : Fin cfg0.W) : (dats m ρ 0 c).share w = fullShare := by unfold Dat.share; split <;> rfl

omit [FloatOps F] in
/-- The seven semaphores of a device's cells are pairwise different. -/
theorem csem_injective : ∀ k k' : Fin 7, csem k = csem k' → k = k' := by decide

omit [FloatOps F] in
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective k k' h2]

/-- Every device's seven cells. -/
def allCells : Finset (GSem nD τ sig) := Finset.univ.map ⟨kcell, kcell_injective⟩

/-- The nine duties of a device's own cells: its barrier's three, each send cell's one, each receive cell's one. -/
abbrev tokSem : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)

abbrev tokOf (cj : Dev nD × Fin 9) : GSem nD τ sig × ℕ × Fin 3 := (((cj.1 : Thread nD τ), (tokSem cj.2).1), 0, (tokSem cj.2).2)

omit [FloatOps F] in
theorem tokSem_injective : ∀ j j' : Fin 9, tokSem j = tokSem j' → j = j' := by decide

omit [FloatOps F] in
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokSem j = tokSem j' :=
    Prod.ext (congrArg (fun x : GSem nD τ sig × ℕ × Fin 3 => x.1.2) h) (congrArg (fun x : GSem nD τ sig × ℕ × Fin 3 => x.2.2) h)
  rw [tokSem_injective j j' h2]

/-- Every device's nine duty tokens. -/
def allToks : Finset (GSem nD τ sig × ℕ × Fin 3) := Finset.univ.map ⟨tokOf, tokOf_injective⟩

/-- The launch element: the pipeline's own, and the protocol's cells and tokens. -/
def u₀ : UU :=
  (initOf (Pipeline.cells cfgs cellOf_inj) (Pipeline.launchToks cfgs cellOf_inj), initOf allCells allToks)

/-- The duty tokens of device `c`'s own cells, as minted. -/
def ownToks (c : Dev nD) : sProp 𝕄 :=
  iprop(dutyTok ER (barCell c) 0 0 ∗ dutyTok ER (barCell c) 0 1 ∗ dutyTok ER (barCell c) 0 2
    ∗ dutyTok ER (sendCell c 0) 0 0 ∗ dutyTok ER (sendCell c 1) 0 0 ∗ dutyTok ER (sendCell c 2) 0 0
    ∗ dutyTok ER (recvCell c 0) 0 0 ∗ dutyTok ER (recvCell c 1) 0 0 ∗ dutyTok ER (recvCell c 2) 0 0)

/-- What the launch element deals device `c`: its seven cells' round states, its positions and round marks on them,
    and its own cells' tokens. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ ownToks c)

/-- What the global step makes of it: the ghost state the body starts from, at some names. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element is every device's share `G`. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant allocated -/

omit [FloatOps F] in
/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- A device's seven counters at zero and its cells' round states make the seven invariants, each at some name. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k : Fin 7 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The records every device reads, and what stays with each -/

/-- Every cell's invariant under the names `K`, and that round 0 of every cell is reached. -/
def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

theorem inv_send (K : Dev nD × Fin 7 → ℕ) (c : Dev nD) (d : Fin 3) :
    (bigSep Finset.univ fun ck : Dev nD × Fin 7 => (cellInv ER (sched m ρ) (K ck) (kcell ck) : sProp 𝕄)) ⊢ cellInv ER (sched m ρ) (K (c, iS d)) (sendCell c d) := by
  have h := inv_at m ρ K (c, iS d); rw [kcell_iS] at h; exact h
theorem inv_recv (K : Dev nD × Fin 7 → ℕ) (c : Dev nD) (d : Fin 3) :
    (bigSep Finset.univ fun ck : Dev nD × Fin 7 => (cellInv ER (sched m ρ) (K ck) (kcell ck) : sProp 𝕄)) ⊢ cellInv ER (sched m ρ) (K (c, iR d)) (recvCell c d) := by
  have h := inv_at m ρ K (c, iR d); rw [kcell_iR] at h; exact h
omit [FloatOps F] in
theorem reached_send (c : Dev nD) (d : Fin 3) :
    (bigSep Finset.univ fun ck : Dev nD × Fin 7 => (reached ER (kcell ck) 0 : sProp 𝕄)) ⊢ reached ER (sendCell c d) 0 := by
  have h := reached_at (F := F) (c, iS d); rw [kcell_iS] at h; exact h
omit [FloatOps F] in
theorem reached_recv (c : Dev nD) (d : Fin 3) :
    (bigSep Finset.univ fun ck : Dev nD × Fin 7 => (reached ER (kcell ck) 0 : sProp 𝕄)) ⊢ reached ER (recvCell c d) 0 := by
  have h := reached_at (F := F) (c, iR d); rw [kcell_iR] at h; exact h

/-- From the records: the four invariants copy `d` of device `c` opens; -/
theorem invsD_intro (K : Dev nD × Fin 7 → ℕ) (c : Dev nD) (d : Fin 3) : records m ρ K ⊢ invsD m ρ K c d := by
  unfold records invsD
  iintro ⟨#HI, -⟩
  isplitr; · iapply (inv_send m ρ K c d); iexact HI
  isplitr; · iapply (inv_recv m ρ K c d); iexact HI
  isplitr; · iapply (inv_at m ρ K (peer d c, 0)); iexact HI
  iapply (inv_recv m ρ K (peer d c) d); iexact HI

/-- and the four round marks it shows. -/
theorem marksD_intro (K : Dev nD × Fin 7 → ℕ) (c : Dev nD) (d : Fin 3) : records m ρ K ⊢ marksD (F := F) c d := by
  unfold records marksD
  iintro ⟨-, #HR⟩
  isplitr; · iapply (reached_at (F := F) (peer d c, 0)); iexact HR
  isplitr; · iapply (reached_recv (F := F) (peer d c) d); iexact HR
  isplitr; · iapply (reached_send (F := F) c d); iexact HR
  iapply (reached_recv (F := F) c d); iexact HR

/-- The tokens of the duties device `c` pays. -/
def payToks (c : Dev nD) : sProp 𝕄 := iprop(toksD c 0 ∗ toksD c 1 ∗ toksD c 2)
/-- What stays with device `c`: its positions on its own seven cells, and those tokens. -/
def linear (c : Dev nD) : sProp 𝕄 :=
  iprop((atPos ER (barCell c) 0 ∅ 0 ∗ posD c 0 ∗ posD c 1 ∗ posD c 2) ∗ payToks c)

theorem ghost_intro (K : Dev nD × Fin 7 → ℕ) (c : Dev nD) : iprop(records m ρ K ∗ linear c) ⊢ G' m ρ c := by
  unfold linear payToks G' ghost invs
  iintro ⟨#HR, Hpos, Htok⟩
  iexists K
  isplitr
  · isplitr
    · unfold records; icases HR with ⟨#HI, -⟩; iapply (inv_at m ρ K (c, 0)); iexact HI
    isplitr; · iapply (invsD_intro m ρ K c 0); iexact HR
    isplitr; · iapply (invsD_intro m ρ K c 1); iexact HR
    iapply (invsD_intro m ρ K c 2); iexact HR
  isplitl [Hpos]; · iexact Hpos
  isplitr
  · isplitr; · iapply (marksD_intro m ρ K c 0); iexact HR
    isplitr; · iapply (marksD_intro m ρ K c 1); iexact HR
    iapply (marksD_intro m ρ K c 2); iexact HR
  iexact Htok

/-! ## The tokens dealt around the cycle -/

omit [FloatOps F] in
/-- Going `d + 1` places on is a rotation of the four devices; going `(2 - d) + 1` places on undoes it. -/
def peerEquiv (d : Fin 3) : Dev nD ≃ Dev nD := ⟨peer d, peer d.rev, peer_rev d, peer_rev' d⟩

omit [FloatOps F] in
/-- A barrier cell's token for duty `e` goes to the device `e + 1` places on, which sees that cell `(2 - e) + 1` places
    on from itself; a receive cell's token goes to the device that copies into it; a send cell's token stays. -/
theorem toks_around : (bigSep Finset.univ fun c : Dev nD => (ownToks c : sProp 𝕄)) ⊢ bigSep Finset.univ fun c : Dev nD => payToks c := by
  unfold ownToks payToks toksD
  simp only [bigSep_sep']
  rw [bigSep_univ_equiv (peerEquiv 2) (fun c : Dev nD => (dutyTok ER (barCell c) 0 0 : sProp 𝕄)),
    bigSep_univ_equiv (peerEquiv 1) (fun c : Dev nD => (dutyTok ER (barCell c) 0 1 : sProp 𝕄)),
    bigSep_univ_equiv (peerEquiv 0) (fun c : Dev nD => (dutyTok ER (barCell c) 0 2 : sProp 𝕄)),
    bigSep_univ_equiv (peerEquiv 0) (fun c : Dev nD => (dutyTok ER (recvCell c 0) 0 0 : sProp 𝕄)),
    bigSep_univ_equiv (peerEquiv 1) (fun c : Dev nD => (dutyTok ER (recvCell c 1) 0 0 : sProp 𝕄)),
    bigSep_univ_equiv (peerEquiv 2) (fun c : Dev nD => (dutyTok ER (recvCell c 2) 0 0 : sProp 𝕄))]
  iintro ⟨B0, B1, B2, S0, S1, S2, R0, R1, R2⟩
  isplitl [B2 R0 S0]
  · isplitl [B2]; · iexact B2
    isplitl [R0]; · iexact R0
    iexact S0
  isplitl [B1 R1 S1]
  · isplitl [B1]; · iexact B1
    isplitl [R1]; · iexact R1
    iexact S1
  isplitl [B0]; · iexact B0
  isplitl [R2]; · iexact R2
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) :
    iprop((bigSep Finset.univ fun k : Fin 7 => (atPos ER (kcell (c, k)) 0 ∅ 0 : sProp 𝕄)) ∗ payToks c) ⊢ linear c := by
  unfold linear posD; rw [bigSep_fin7]
  iintro ⟨⟨H0, H1, H2, H3, H4, H5, H6⟩, Ht⟩
  isplitl [H0 H1 H2 H3 H4 H5 H6]
  · isplitl [H0]; · iexact H0
    isplitl [H1 H4]
    · isplitl [H1]; · iexact H1
      iexact H4
    isplitl [H2 H5]
    · isplitl [H2]; · iexact H2
      iexact H5
    isplitl [H3]; · iexact H3
    iexact H6
  iexact Ht

/-- Every device's allocated invariants, positions, marks and minted tokens, regrouped as every device's ghost state. -/
theorem regroup :
    (bigSep Finset.univ fun c : Dev nD => iprop((bigSep Finset.univ fun k : Fin 7 => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => linear_intro (F := F) c))
    isplitl [Hat]; · iexact Hat
    iexact Htk

/-- The global step: every device's own and unscoped semaphores at zero, with its share of the launch element, make
    every device's ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owing one unit to the barrier cell of the device `e + 1` places on, each device is dealt that unit's
    credit on its own barrier cell; -/
theorem cred_bar (c : Dev nD) (e : Fin 3) :
    (Pipeline.launchCred (fun d => Bt d e) c : sProp 𝕄) ⊢ cred (tallyAt (barCell c) () 1) :=
  Pipeline.launchCred_tallyAt (.reg barS) (peer e) (peer e.rev) (peer_rev' e) (peer_rev e) () 1 c
omit [FloatOps F] in
/-- and likewise one slot's credit on its receive cell `e`, from the device that copies into it. -/
theorem cred_recv (c : Dev nD) (e : Fin 3) :
    (Pipeline.launchCred (fun d => Rt d e) c : sProp 𝕄) ⊢ cred (tallyAt (recvCell c e) () N) :=
  Pipeline.launchCred_tallyAt (.dma (recvS e)) (peer e) (peer e.rev) (peer_rev' e) (peer_rev e) () N c

omit [FloatOps F] in
/-- What a device is owed at launch: three units on its barrier cell, one slot's credit on each receive cell. -/
theorem creds (c : Dev nD) :
    (Pipeline.launchCred O₀ c : sProp 𝕄) ⊢ iprop(cred (tallyAt (barCell c) () 3)
      ∗ cred (tallyAt (recvCell c 0) () N) ∗ cred (tallyAt (recvCell c 1) () N) ∗ cred (tallyAt (recvCell c 2) () N)) := by
  have h0 : (Pipeline.launchCred O₀ c : sProp 𝕄)
      = iprop(Pipeline.launchCred (fun d => (OR d + Bt d 2) + Bt d 1) c ∗ Pipeline.launchCred (fun d => Bt d 0) c) :=
    Pipeline.launchCred_add (fun d => (OR d + Bt d 2) + Bt d 1) (fun d => Bt d 0) c
  have h1 : (Pipeline.launchCred (fun d => (OR d + Bt d 2) + Bt d 1) c : sProp 𝕄)
      = iprop(Pipeline.launchCred (fun d => OR d + Bt d 2) c ∗ Pipeline.launchCred (fun d => Bt d 1) c) :=
    Pipeline.launchCred_add (fun d => OR d + Bt d 2) (fun d => Bt d 1) c
  have h2 : (Pipeline.launchCred (fun d => OR d + Bt d 2) c : sProp 𝕄)
      = iprop(Pipeline.launchCred OR c ∗ Pipeline.launchCred (fun d => Bt d 2) c) :=
    Pipeline.launchCred_add OR (fun d => Bt d 2) c
  have h3 : (Pipeline.launchCred OR c : sProp 𝕄)
      = iprop(Pipeline.launchCred (fun d => Rt d 2 + Rt d 1) c ∗ Pipeline.launchCred (fun d => Rt d 0) c) :=
    Pipeline.launchCred_add (fun d => Rt d 2 + Rt d 1) (fun d => Rt d 0) c
  have h4 : (Pipeline.launchCred (fun d => Rt d 2 + Rt d 1) c : sProp 𝕄)
      = iprop(Pipeline.launchCred (fun d => Rt d 2) c ∗ Pipeline.launchCred (fun d => Rt d 1) c) :=
    Pipeline.launchCred_add (fun d => Rt d 2) (fun d => Rt d 1) c
  have h3' : (tallyAt (barCell c) () 3 : CellTallies nD τ sig Unit)
      = tallyAt (barCell c) () 1 + (tallyAt (barCell c) () 1 + tallyAt (barCell c) () 1) := by
    rw [tallyAt_add, tallyAt_add]
  rw [h0, h1, h2, h3, h4, h3']
  iintro ⟨⟨⟨⟨⟨R2, R1⟩, R0⟩, B2⟩, B1⟩, B0⟩
  ihave C0 := (cred_bar (F := F) c 0) $$ B0
  ihave C1 := (cred_bar (F := F) c 1) $$ B1
  ihave C2 := (cred_bar (F := F) c 2) $$ B2
  ihave D0 := (cred_recv (F := F) c 0) $$ R0
  ihave D1 := (cred_recv (F := F) c 1) $$ R1
  ihave D2 := (cred_recv (F := F) c 2) $$ R2
  isplitl [C0 C1 C2]
  · iapply (cred_add _ _).2
    isplitl [C0]; · iexact C0
    iapply (cred_add _ _).2
    isplitl [C1]; · iexact C1
    iexact C2
  isplitl [D0]; · iexact D0
  isplitl [D1]; · iexact D1
  iexact D2

/-! ## The launch theorem's side conditions -/

/-- What a device's body starts from, out of what the launch hands its core. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H3, HN0, HN1, HN2⟩
  imodintro
  unfold start G'
  isplitl
  · isplitl [HG]; · iexact HG
    isplitl [H3]; · iexact H3
    isplitl [HN0 HN1 HN2]
    · isplitl [HN0]; · iexact HN0
      isplitl [HN1]; · iexact HN1
      iexact HN2
    iexact Hlev
  · iempintro

/-- Before the one grid point: the start, and the scratch buffer whole at whatever it holds. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

/-- After it: the six own semaphores back at zero, the scratch buffer whole again. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, S0, S1, S2, R0, R1, R2⟩
  isplitr; · iempintro
  isplitl [S0 S1 S2 R0 R1 R2]
  · isplitl [S0]; · iexact S0
    isplitl [S1]; · iexact S1
    isplitl [S2]; · iexact S2
    isplitl [R0]; · iexact R0
    isplitl [R1]; · iexact R1
    iexact R2
  iexists (scrFinal m ρ c); iexact Hr

/-- The pipeline's own waits, on its staging semaphores, stand below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the mesh of four devices, for any float values, from any memory with zero counters, given each device's body
    proved from its start: every weakly fair execution of the four devices — each signalling its three peers, waiting
    for their three signals, copying its column sums to them and waiting for its six transfers — terminates, and in
    every final state each device's argument and result arrays hold what the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the kernel's value: its one block is the whole array, written back at the one
    grid point with what the body left in the staging buffer. -/
theorem finalA_out (c : Dev nD) : finalA m ρ c (1 : Fin 2) = outAt m ρ c := by
  unfold finalA
  show (dats m ρ 0 c).arrAt (1 : Fin 2) ((t₀ : Fin cfg0.N).val + 1) = _
  rw [Dat.arrAt_succ, flush0_1, if_pos rfl]
  exact Memref.write_access_unit_zero_univ (Elt F) main_v1 (off := fun a => (cfg0.win 1).index t₀ a * (cfg0.win 1).size a)
    (funext fun a => Nat.zero_mul _) _ _ _

/-- info: 'Cert.Kernel.AllReduce.run_main' depends on axioms: [propext, Classical.choice, Quot.sound] -/
#guard_msgs in #print axioms run_main

end Cert.Kernel.AllReduce

end
-- ==== Proof.ColumnSums.lean ====
/-
  The column sums of the whole array, and the four devices' partial sums.

  The reference sums each column of the whole 6144 × 768 array. Device `c` of the kernel holds rows
  `1536 c … 1536 c + 1535`, sums each column of those, and adds to it the three sums its peers send; the
  four blocks cover every row exactly once, and addition of extended reals is commutative and
  associative, so each device ends with the reference's row of column sums.
-/
import proofs.«901079_g7700000000001080_dist_sum_ax0_shard0_i_m1536_n768_v7x_i4_bf16_1_alg».proof.Defs
import proofs.«901079_g7700000000001080_dist_sum_ax0_shard0_i_m1536_n768_v7x_i4_bf16_1_alg».proof.Proof.Gen.KernelIdeal.Skeleton
import proofs.«901079_g7700000000001080_dist_sum_ax0_shard0_i_m1536_n768_v7x_i4_bf16_1_alg».proof.Proof.Gen.ReferenceIdeal
import proofs.«901079_g7700000000001080_dist_sum_ax0_shard0_i_m1536_n768_v7x_i4_bf16_1_alg».proof.Proof.Gen.Pre_finite_inputs_ReferenceIdeal
import proofs.«901079_g7700000000001080_dist_sum_ax0_shard0_i_m1536_n768_v7x_i4_bf16_1_alg».proof.Proof.Gen.ReferenceIdeal.Run
import proofs.«901079_g7700000000001080_dist_sum_ax0_shard0_i_m1536_n768_v7x_i4_bf16_1_alg».proof.Proof.Gen.ReferenceIdeal.Read
import proofs.«901079_g7700000000001080_dist_sum_ax0_shard0_i_m1536_n768_v7x_i4_bf16_1_alg».proof.Proof.Mesh
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.ColumnSums

open Idealize.ShloMosaic Idealize.SL.Sem Idealize.ShloMosaic.ValueIdx
open Cert.KernelIdeal.AllReduce (pr)

/-! ## The reference -/

/-- The reference's result as a function of its argument: the sum down each column from the zero
    initial value, laid out as one row. -/
def colSum (X : (⟨Cert.ReferenceIdeal.S6144x768, .f32⟩ : BufTy).Contents (Elt Ideal)) :
    (⟨Cert.ReferenceIdeal.S1x768, .f32⟩ : BufTy).Contents (Elt Ideal) :=
  broadcastInDim Cert.ReferenceIdeal.S1x768 ![1] Cert.ReferenceIdeal.Gen.bcast_S768_S1x768_1
    (Host.reduceAdd (F := Ideal) X (constant (F := Ideal) Cert.ReferenceIdeal.S_ .f32 0x00000000#32)
      Cert.ReferenceIdeal.Gen.reducesTo_S6144x768_S768_d0 Cert.ReferenceIdeal.Gen.h_S_)

/-- The reference runs, ends with `colSum` of its argument in its result, and leaves the argument as it was. -/
theorem ref_run (m' : (l : Loc Cert.ReferenceIdeal.nD Cert.ReferenceIdeal.τ Cert.ReferenceIdeal.sig) → Buf (Elt Ideal) l)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = colSum (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono (fun _ h => h 0) (Cert.ReferenceIdeal.Value.run (F := Ideal) m' g')

/-- The reference runs and leaves its argument as it was: its run with the value dropped. -/
theorem ref_frame : Cert.frame_ReferenceIdeal :=
  fun m ρ _ => (θ_run (Cert.ReferenceIdeal.defs (F := Ideal)) _ _).mono (fun _ h c => (h c).2) (Cert.ReferenceIdeal.Value.run (F := Ideal) m ρ)

/-! ## The reference at an index -/

/-- Entry `(0, j)` of the reference's result: zero plus the sum of column `j` over all 6144 rows. -/
theorem colSum_apply (X : (⟨Cert.ReferenceIdeal.S6144x768, .f32⟩ : BufTy).Contents (Elt Ideal)) (u : Fin 1) (j : Fin 768) :
    colSum X (ix2 u j) = (0 : EReal) + ∑ i : Fin 6144, (X (ix2 i j) : EReal) := by
  show Cert.ReferenceIdeal.Read.val_main_v1 (F := Ideal) X (ix2 u j) = _
  rw [Cert.ReferenceIdeal.Read.val_main_v1_apply, Cert.ReferenceIdeal.Read.val_main_v0_apply,
    Cert.ReferenceIdeal.Read.val_main_cst_apply, Ideal.ofBits_def, Ideal.ofBits_zero_f32]
  refine congrArg ((0 : EReal) + ·) (Finset.sum_congr rfl fun k _ => congrArg X ?_)
  funext a
  match a with
  | ⟨0, _⟩ => rfl
  | ⟨1, _⟩ => rfl

/-! ## The kernel's two payloads at an index -/

/-- A device's partial result: entry `(0, 0, j)` is the sum of column `j` over the 1536 rows it holds. -/
theorem pay2_apply (V : Vec Ideal Cert.KernelIdeal.S1536x768 .f32) (u v : Fin 1) (j : Fin 768) :
    Cert.KernelIdeal.Gen.k0_pay2 (F := Ideal) V (ix3 u v j) = ∑ r : Fin 1536, (V (ix2 r j) : EReal) := by
  unfold Cert.KernelIdeal.Gen.k0_pay2
  refine (shapeCast_ab_1ab_apply _ _ u v j).trans ?_
  refine (shapeCast_a_1a_apply _ _ v j).trans ?_
  refine (Ideal.multiReduction_add_single _ _ _ _ _ _).trans ?_
  refine Finset.sum_congr rfl fun r _ => ?_
  refine (congrFun (shapeCast_self V _) _).trans (congrArg V ?_)
  funext a
  match a with
  | ⟨0, _⟩ => rfl
  | ⟨1, _⟩ => rfl

/-- The final combination: entry `(0, j)` is the four slots' entries `(0, 0, j)` added pairwise. -/
theorem pay1_apply (a b c d : Vec Ideal Cert.KernelIdeal.S1x1x768 .f32) (u : Fin 1) (j : Fin 768) :
    Cert.KernelIdeal.Gen.k0_pay1 (F := Ideal) a b c d (ix2 u j)
      = ((a (ix3 (0 : Fin 1) u j) : EReal) + b (ix3 (0 : Fin 1) u j)) + ((c (ix3 (0 : Fin 1) u j) : EReal) + d (ix3 (0 : Fin 1) u j)) := by
  unfold Cert.KernelIdeal.Gen.k0_pay1
  exact congrArg₂ (fun x y : EReal => x + y)
    (congrArg₂ (fun x y : EReal => x + y) (shapeCast_1ab_ab_apply a _ u j) (shapeCast_1ab_ab_apply b _ u j))
    (congrArg₂ (fun x y : EReal => x + y) (shapeCast_1ab_ab_apply c _ u j) (shapeCast_1ab_ab_apply d _ u j))

/-! ## A device's block, and the rows as four blocks -/

/-- Row `r` of block `d` is row `1536 d + r` of the whole array. -/
theorem block_row (X : (⟨Cert.ReferenceIdeal.S6144x768, .f32⟩ : BufTy).Contents (Elt Ideal)) (d : Fin 4) (r : Fin 1536) (j : Fin 768) :
    (Layout.block ⟨2, ![1536, 768]⟩ ⟨2, ![6144, 768]⟩ 0 4 d X) (ix2 r j)
      = X (ix2 (⟨d.val * 1536 + r.val, by omega⟩ : Fin 6144) j) := by
  rw [Layout.block_apply]
  refine congrArg X ?_
  funext a
  match a with
  | ⟨0, _⟩ => rfl
  | ⟨1, _⟩ => rfl

/-- The 6144 rows are four runs of 1536: row `i` is row `i % 1536` of block `i / 1536`. -/
def rowEquiv : Fin 4 × Fin 1536 ≃ Fin 6144 where
  toFun p := ⟨p.1.val * 1536 + p.2.val, by omega⟩
  invFun i := (⟨i.val / 1536, by omega⟩, ⟨i.val % 1536, by omega⟩)
  left_inv p := Prod.ext (Fin.ext (by show (p.1.val * 1536 + p.2.val) / 1536 = p.1.val; omega))
    (Fin.ext (by show (p.1.val * 1536 + p.2.val) % 1536 = p.2.val; omega))
  right_inv i := Fin.ext (by show i.val / 1536 * 1536 + i.val % 1536 = i.val; omega)

/-- A sum over all rows is the sum over the blocks of the sums over each block's rows. -/
theorem sum_rows (f : Fin 6144 → EReal) :
    ∑ i : Fin 6144, f i = ∑ d : Fin 4, ∑ r : Fin 1536, f (⟨d.val * 1536 + r.val, by omega⟩ : Fin 6144) := by
  rw [← Equiv.sum_comp rowEquiv f, Fintype.sum_prod_type]
  rfl

/-- The rotation of the four devices, device by device: which peers lie three, two and one places on. -/
theorem pr_cases : ∀ c : Fin 4,
    (c = 0 ∧ pr 3 c = 3 ∧ pr 2 c = 2 ∧ pr 1 c = 1) ∨ (c = 1 ∧ pr 3 c = 0 ∧ pr 2 c = 3 ∧ pr 1 c = 2) ∨
    (c = 2 ∧ pr 3 c = 1 ∧ pr 2 c = 0 ∧ pr 1 c = 3) ∨ (c = 3 ∧ pr 3 c = 2 ∧ pr 2 c = 1 ∧ pr 1 c = 0) := by
  decide

/-- Whichever device starts the cycle, its own sum and the three it receives are the four blocks' sums. -/
theorem cycle_sum (s : Fin 4 → EReal) (c : Fin 4) :
    (s c + s (pr 3 c)) + (s (pr 2 c) + s (pr 1 c)) = s 0 + s 1 + s 2 + s 3 := by
  rcases pr_cases c with ⟨h0, h3, h2, h1⟩ | ⟨h0, h3, h2, h1⟩ | ⟨h0, h3, h2, h1⟩ | ⟨h0, h3, h2, h1⟩ <;>
    rw [h3, h2, h1, h0] <;> simp only [add_assoc, add_comm, add_left_comm]

/-! ## Every device ends with the reference's result -/

/-- Device `d`'s partial result at `(0, 0, j)`: column `j` summed over rows `1536 d … 1536 d + 1535` of the whole array. -/
theorem partial_apply (X : (⟨Cert.ReferenceIdeal.S6144x768, .f32⟩ : BufTy).Contents (Elt Ideal)) (d : Fin 4) (u v : Fin 1) (j : Fin 768) :
    Cert.KernelIdeal.Gen.k0_pay2 (F := Ideal) (Layout.block ⟨2, ![1536, 768]⟩ ⟨2, ![6144, 768]⟩ 0 4 d X) (ix3 u v j)
      = ∑ r : Fin 1536, (X (ix2 (⟨d.val * 1536 + r.val, by omega⟩ : Fin 6144) j) : EReal) :=
  (pay2_apply _ u v j).trans (Finset.sum_congr rfl fun r _ => block_row X d r j)

/-- What device `c` stores — its own block's column sums and the three it was sent, added pairwise — is the
    reference's row of column sums of the whole array. -/
theorem kernel_sum_eq (X : (⟨Cert.ReferenceIdeal.S6144x768, .f32⟩ : BufTy).Contents (Elt Ideal)) (c : Dev Cert.KernelIdeal.nD) :
    Cert.KernelIdeal.Gen.k0_pay1 (F := Ideal)
        (Cert.KernelIdeal.Gen.k0_pay2 (Layout.block ⟨2, ![1536, 768]⟩ ⟨2, ![6144, 768]⟩ 0 4 c X))
        (Cert.KernelIdeal.Gen.k0_pay2 (Layout.block ⟨2, ![1536, 768]⟩ ⟨2, ![6144, 768]⟩ 0 4 (pr 3 c) X))
        (Cert.KernelIdeal.Gen.k0_pay2 (Layout.block ⟨2, ![1536, 768]⟩ ⟨2, ![6144, 768]⟩ 0 4 (pr 2 c) X))
        (Cert.KernelIdeal.Gen.k0_pay2 (Layout.block ⟨2, ![1536, 768]⟩ ⟨2, ![6144, 768]⟩ 0 4 (pr 1 c) X))
      = colSum X := by
  funext i
  obtain ⟨u, j, rfl⟩ : ∃ (u : Fin 1) (j : Fin 768), i = ix2 u j := ⟨i 0, i 1, eq_ix2 i⟩
  refine (pay1_apply _ _ _ _ u j).trans ?_
  rw [partial_apply X c, partial_apply X (pr 3 c), partial_apply X (pr 2 c), partial_apply X (pr 1 c),
    colSum_apply, sum_rows (fun i => (X (ix2 i j) : EReal)), Fin.sum_univ_four, zero_add]
  exact cycle_sum (fun d => ∑ r : Fin 1536, (X (ix2 (⟨d.val * 1536 + r.val, by omega⟩ : Fin 6144) j) : EReal)) c

/-- info: 'Cert.ReferenceIdeal.ColumnSums.kernel_sum_eq' depends on axioms: [propext, Classical.choice, Quot.sound] -/
#guard_msgs in #print axioms kernel_sum_eq

end Cert.ReferenceIdeal.ColumnSums

end
-- ==== Proof.lean ====
/-
  The five claims of the four-device all-reduce `sum over rows`, kernel against reference.

  The kernel: every device sums its 1536 rows of the whole array column by column, the four devices exchange their
  768 column sums pairwise (an entry handshake on the barrier semaphore, then three copies a device), and each adds
  the four. The reference sums all 6144 rows at once. Over the extended reals the two agree because + is commutative
  and associative there; no input needs to be finite for it.

  frame (both instances of the kernel): the run of the whole mesh — the rounds protocol of Proof/Sched.lean, the
  body of Proof/Body.lean run from the ghost state of Proof/Ghost.lean, the launch of Proof/Launch.lean — ends
  with every device's argument array as it was. preserves: the idealization rewrote nothing. algebraic: the same
  run at the ideal instance ends with every device's result at the four slots' sum, which is the reference's
  column sums of the whole array (Proof/ColumnSums.lean) when each device's block is its block of that array.
-/
import proofs.«901079_g7700000000001080_dist_sum_ax0_shard0_i_m1536_n768_v7x_i4_bf16_1_alg».proof.Defs
import proofs.«901079_g7700000000001080_dist_sum_ax0_shard0_i_m1536_n768_v7x_i4_bf16_1_alg».proof.Proof.Gen.Kernel
import proofs.«901079_g7700000000001080_dist_sum_ax0_shard0_i_m1536_n768_v7x_i4_bf16_1_alg».proof.Proof.Gen.KernelIdeal
import proofs.«901079_g7700000000001080_dist_sum_ax0_shard0_i_m1536_n768_v7x_i4_bf16_1_alg».proof.Proof.Gen.ReferenceIdeal
import proofs.«901079_g7700000000001080_dist_sum_ax0_shard0_i_m1536_n768_v7x_i4_bf16_1_alg».proof.Proof.Gen.Pre_finite_inputs_Kernel
import proofs.«901079_g7700000000001080_dist_sum_ax0_shard0_i_m1536_n768_v7x_i4_bf16_1_alg».proof.Proof.Gen.Pre_finite_inputs_ReferenceIdeal
import proofs.«901079_g7700000000001080_dist_sum_ax0_shard0_i_m1536_n768_v7x_i4_bf16_1_alg».proof.Proof.Body
import proofs.«901079_g7700000000001080_dist_sum_ax0_shard0_i_m1536_n768_v7x_i4_bf16_1_alg».proof.Proof.Launch
import proofs.«901079_g7700000000001080_dist_sum_ax0_shard0_i_m1536_n768_v7x_i4_bf16_1_alg».proof.Proof.Word.Body
import proofs.«901079_g7700000000001080_dist_sum_ax0_shard0_i_m1536_n768_v7x_i4_bf16_1_alg».proof.Proof.Word.Launch
import proofs.«901079_g7700000000001080_dist_sum_ax0_shard0_i_m1536_n768_v7x_i4_bf16_1_alg».proof.Proof.ColumnSums
import Idealize.ShloMosaic.Adequacy
import Idealize.ShloMosaic.Init

noncomputable section

namespace Cert.Proof

open Idealize.ShloMosaic Idealize.ShloMosaic.TcCoe Idealize.SL.Sem

/-- The word-level kernel's mesh run leaves every device's argument array as it was. -/
theorem frame_kernel : Cert.frame_Kernel := fun m g _ =>
  (θ_run Cert.Kernel.defs _ _).mono (fun _ h c => (h c (0 : Fin 2)).trans (Cert.Kernel.AllReduce.finalA_x m g c))
    (Cert.Kernel.AllReduce.run_main m g (Cert.Kernel.AllReduce.body_obligation m g))

/-- So does the idealized kernel's. -/
theorem frame_kernelIdeal : Cert.frame_KernelIdeal := fun m g _ =>
  (θ_run Cert.KernelIdeal.defs _ _).mono (fun _ h c => (h c (0 : Fin 2)).trans (Cert.KernelIdeal.AllReduce.finalA_x m g c))
    (Cert.KernelIdeal.AllReduce.run_main m g (Cert.KernelIdeal.AllReduce.body_obligation m g))

open Cert.KernelIdeal.AllReduce in
/-- A device's staged block is its argument array: the one window takes the whole array. -/
theorem xstg_eq (m : (ℓ : Loc Cert.KernelIdeal.nD Cert.KernelIdeal.τ Cert.KernelIdeal.sig) → Buf (Elt Ideal) ℓ) (g : Dev Cert.KernelIdeal.nD → PrngReg)
    (c : Dev Cert.KernelIdeal.nD) :
    xstg m g c = m ((c : Thread Cert.KernelIdeal.nD Cert.KernelIdeal.τ).loc Cert.KernelIdeal.main_arg0) := by
  unfold xstg
  exact Memref.read_access_unit_zero (Elt Ideal) Cert.KernelIdeal.main_arg0
    (off := fun a => (Cert.KernelIdeal.cfg0.win 0).index (0 : Fin 1) a * (Cert.KernelIdeal.cfg0.win 0).size a)
    (funext fun a => Nat.zero_mul _) _ _

open Cert.KernelIdeal.AllReduce Cert.ReferenceIdeal.ColumnSums in
/-- At the ideal instance every device's result ends at the sum of the four blocks' column sums, the reference's
    result: the column sums of the whole array. -/
theorem algebraic : Cert.algebraic_KernelIdeal_ReferenceIdeal := by
  intro m g m' g' _ hagree
  refine ⟨colSum (m' (((0 : Dev Cert.ReferenceIdeal.nD).tc : Thread Cert.ReferenceIdeal.nD Cert.ReferenceIdeal.τ).loc Cert.ReferenceIdeal.main_arg0)), ?_, ref_run m' g'⟩
  refine (θ_run Cert.KernelIdeal.defs _ _).mono (fun _ h c => ⟨?_, (h c (0 : Fin 2)).trans (finalA_x m g c)⟩)
    (run_main m g (body_obligation m g))
  refine (h c (1 : Fin 2)).trans ((finalA_out m g c).trans ?_)
  unfold outAt part
  rw [xstg_eq, xstg_eq, xstg_eq, xstg_eq, hagree, hagree, hagree, hagree, src_zero]
  exact kernel_sum_eq _ c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, Cert.ReferenceIdeal.ColumnSums.ref_frame, trivial, algebraic⟩

end Cert.Proof

end
